-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1x128 : Shape := ⟨2, ![1, 128]⟩
abbrev S1024x1024 : Shape := ⟨2, ![1024, 1024]⟩
abbrev S1024x128 : Shape := ⟨2, ![1024, 128]⟩
abbrev S10240 : Shape := ⟨1, ![10240]⟩
abbrev S10240x1 : Shape := ⟨2, ![10240, 1]⟩

abbrev nBuf : Space → Nat
  | .hbm => 88
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S10000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S_, .f32⟩
  | .hbm, ⟨50, _⟩ => ⟨S10240x10240, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x1, .i32⟩
  | .hbm, ⟨67, _⟩ => ⟨S650000x2, .i32⟩
  | .hbm, ⟨68, _⟩ => ⟨S10240x10240, .f32⟩
  | .hbm, ⟨69, _⟩ => ⟨S_, .i32⟩
  | .hbm, ⟨70, _⟩ => ⟨S_, .f32⟩
  | .hbm, ⟨71, _⟩ => ⟨S10240x128, .f32⟩
  | .hbm, ⟨72, _⟩ => ⟨S10240x128, .f32⟩
  | .hbm, ⟨73, _⟩ => ⟨S1x128, .f32⟩
  | .hbm, ⟨74, _⟩ => ⟨S10240x128, .f32⟩
  | .hbm, ⟨75, _⟩ => ⟨S10240, .i32⟩
  | .hbm, ⟨76, _⟩ => ⟨S_, .i32⟩
  | .hbm, ⟨77, _⟩ => ⟨S10240, .i32⟩
  | .hbm, ⟨78, _⟩ => ⟨S10240, .i1⟩
  | .hbm, ⟨79, _⟩ => ⟨S10240x1, .i1⟩
  | .hbm, ⟨80, _⟩ => ⟨S10240x1, .f32⟩
  | .hbm, ⟨81, _⟩ => ⟨S10240x128, .f32⟩
  | .hbm, ⟨82, _⟩ => ⟨S10240x128, .f32⟩
  | .hbm, ⟨83, _⟩ => ⟨S10240x128, .f32⟩
  | .hbm, ⟨84, _⟩ => ⟨S1x128, .f32⟩
  | .hbm, ⟨85, _⟩ => ⟨S10240x128, .f32⟩
  | .hbm, ⟨86, _⟩ => ⟨S10000x128, .f32⟩
  | .hbm, ⟨87, _⟩ => ⟨S10000x128, .f32⟩
  | .local _ .vmem, ⟨0, _⟩ => ⟨S1024x1024, .f32⟩
  | .local _ .vmem, ⟨1, _⟩ => ⟨S1024x1024, .f32⟩
  | .local _ .vmem, ⟨2, _⟩ => ⟨S10240x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | .local _ .vmem, ⟨9, _⟩ => ⟨S10240x128, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![10, 10], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_2 : Index := 0#32
  ![v11.toNat, 0]
def k0_cond2 (i : grid0.Coords) : BitVec 1 :=
  let arg1 : BitVec 32 := BitVec.ofNat 32 (i 1).val
  let c9_i32 : BitVec 32 := 9#32
  let v30 : BitVec 1 := Scalar.cmpi .eq arg1 c9_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![10, 10], ![false, false]⟩

def k1_mult1 (i : grid1.Coords) : BitVec 32 :=
  let arg1 : BitVec 32 := BitVec.ofNat 32 (i 1).val
  let c1024_i32 : BitVec 32 := 1024#32
  let v9 : BitVec 32 := Scalar.muli arg1 c1024_i32
  v9
def k1_off1 (i : grid1.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_2 : Index := 0#32
  ![v11.toNat, 0]
def k1_cond2 (i : grid1.Coords) : BitVec 1 :=
  let arg1 : BitVec 32 := BitVec.ofNat 32 (i 1).val
  let c9_i32 : BitVec 32 := 9#32
  let v30 : BitVec 1 := Scalar.cmpi .eq arg1 c9_i32
  let v31 : BitVec 32 := Scalar.extui v30
  let c0_i32_10 : BitVec 32 := 0#32
  let v32 : BitVec 1 := Scalar.cmpi .ne v31 c0_i32_10
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x128_0_1 : S10240x1.BroadcastsInDim S10240x128 (![0, 1] : Fin 2 → Fin S10240x128.rank)
  slices_S10240x128_S10000x128_0_0 : S10240x128.Slices ![0, 0] S10000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S10240x128_S128x128_S10240x128_1_0_0_1_n_n_wf : DotDims.WF S10240x128 S128x128 S10240x128 [1] [0] [0] [1] [] []
  dot_S1024x1024_S1024x128_S1024x128_1_0_0_1_n_n_wf : DotDims.WF S1024x1024 S1024x128 S1024x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .f32 = 32 ∨ (Rect.block (s := S10240x10240) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .f32 = 32 ∨ (Rect.block (s := S10240x128) S10240x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S10240x128.size a
  hwx0_3 : ∀ i : grid0.Coords, EltTy.bits .f32 = 32 ∨ (Rect.block (s := S10240x128) S1024x128.size (cc0_transform_3 i) (hinb0_3 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S10240x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .f32 = 32 ∨ (Rect.block (s := S10240x10240) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .f32 = 32 ∨ (Rect.block (s := S10240x128) S10240x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S10240x128.size a
  hwx1_3 : ∀ i : grid1.Coords, EltTy.bits .f32 = 32 ∨ (Rect.block (s := S10240x128) S1024x128.size (cc1_transform_3 i) (hinb1_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v46) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v46) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S10000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S10000x128, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x1, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S10000x128, .f32⟩
  | .hbm, ⟨64, _⟩ => ⟨S650000x1, .i32⟩
  | .hbm, ⟨65, _⟩ => ⟨S10000x128, .f32⟩
  | .hbm, ⟨66, _⟩ => ⟨S1x128, .f32⟩
  | .hbm, ⟨67, _⟩ => ⟨S10000x128, .f32⟩
  | .hbm, ⟨68, _⟩ => ⟨S10000x128, .f32⟩
  | .hbm, ⟨69, _⟩ => ⟨S_, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S_, .i32⟩
  | .hbm, ⟨74, _⟩ => ⟨S650000, .i32⟩
  | .hbm, ⟨75, _⟩ => ⟨S650000, .i1⟩
  | .hbm, ⟨76, _⟩ => ⟨S_, .i32⟩
  | .hbm, ⟨77, _⟩ => ⟨S650000, .i32⟩
  | .hbm, ⟨78, _⟩ => ⟨S650000, .i32⟩
  | .hbm, ⟨79, _⟩ => ⟨S650000, .i32⟩
  | .hbm, ⟨80, _⟩ => ⟨S650000x1, .i32⟩
  | .hbm, ⟨81, _⟩ => ⟨S650000x128, .f32⟩
  | .hbm, ⟨82, _⟩ => ⟨S650000x1, .f32⟩
  | .hbm, ⟨83, _⟩ => ⟨S650000x128, .f32⟩
  | .hbm, ⟨84, _⟩ => ⟨S650000x128, .f32⟩
  | .hbm, ⟨85, _⟩ => ⟨S_, .f32⟩
  | .hbm, ⟨86, _⟩ => ⟨S10000x128, .f32⟩
  | .hbm, ⟨87, _⟩ => ⟨S650000x1, .i32⟩
  | .hbm, ⟨88, _⟩ => ⟨S10000x128, .f32⟩
  | .hbm, ⟨89, _⟩ => ⟨S1x128, .f32⟩
  | .hbm, ⟨90, _⟩ => ⟨S10000x128, .f32⟩
  | .hbm, ⟨91, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.K0Runs.lean ====
/-
  The aggregation kernel of the first layer (grid 10 × 10: row tile i, column block k; point t = 10 i + k), seen from
  the pipeline that calls it: which grid points reset the accumulator (k = 0), which write the output tile (k = 9),
  where the output window rests, the blocks the three input windows hold at a point, and the scoped buffers the
  kernel does not touch.  Everything the three whole-body runs of the kernel and the region's proof data share.
-/
import proofs.«417435_j16149077033111_3_alg».proof.Proof.Gen.Kernel.Launch
import proofs.«417435_j16149077033111_3_alg».proof.Proof.Gen.Kernel.Skeleton
import proofs.«417435_j16149077033111_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's unscoped buffers hold when the region is entered
variable (V : (c : Dev nD) → (b : Ref sig .tc) → Buf (Elt F) ((c : Thread nD τ).loc b))

/-! ## The blocks the windows hold -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's buffer holds its block at every point (it is fetched at every point). -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The feature matrix, fetched once, is still in its buffer at every later point: its block index never moves. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The same for the bias row. -/
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The two branches of the body, decided over the grid -/

/-- "This is the first column block" (k = 0): the accumulator is reset. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 10 = 0 :=
  (by decide +kernel : ∀ t : Fin grid0.N, first0 (grid0.coords t) ↔ t.val % 10 = 0)
/-- "This is the last column block" (k = 9): the output tile is written. -/
abbrev last0 (i : grid0.Coords) : Prop := k0_cond2 i = 1#1
theorem last0_iff : ∀ t : Fin cfg0.N, last0 (grid0.coords t) ↔ t.val % 10 = 9 :=
  (by decide +kernel : ∀ t : Fin grid0.N, last0 (grid0.coords t) ↔ t.val % 10 = 9)

/-! ## Where the windows rest -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last column block the output window rests: nothing is stored into it and it is not written back. -/
theorem rest0_3 : ∀ t : Fin cfg0.N, ¬last0 (grid0.coords t) → cfg0.idle 3 (grid0.coords t) = true := by decide +kernel
theorem keep0_3 : ∀ t : Fin cfg0.N, ¬last0 (grid0.coords t) → (cfg0.win 3).flush t = false := by decide +kernel
theorem live0_3 : ∀ t : Fin cfg0.N, last0 (grid0.coords t) → cfg0.idle 3 (grid0.coords t) = false := by decide +kernel

/-! ## The memrefs the body is called with -/

/-- One buffer of the output window, through which its contents are stated. -/
abbrev outV0 : View sig .tc .vmem S1024x128 .f32 := (Memref.whole cc0_stg3_0 : Memref sig .tc .vmem S1024x128 .f32).view
abbrev mA0 (t : Fin cfg0.N) : Memref sig .tc .vmem S1024x1024 .f32 := win0_0.stage (cfg0.slots t 0)
abbrev hA0 (t : Fin cfg0.N) : (mA0 t).IsWhole := hstage0_0 ((cfg0.slots t 0).cast nbuf0_0)
abbrev mH0 (t : Fin cfg0.N) : Memref sig .tc .vmem S10240x128 .f32 := win0_1.stage (cfg0.slots t 1)
abbrev hH0 (t : Fin cfg0.N) : (mH0 t).IsWhole := hstage0_1 ((cfg0.slots t 1).cast nbuf0_1)
abbrev mB0 (t : Fin cfg0.N) : Memref sig .tc .vmem S1x128 .f32 := win0_2.stage (cfg0.slots t 2)
abbrev hB0 (t : Fin cfg0.N) : (mB0 t).IsWhole := hstage0_2 ((cfg0.slots t 2).cast nbuf0_2)
abbrev mO0 (t : Fin cfg0.N) : Memref sig .tc .vmem S1024x128 .f32 := win0_3.stage (cfg0.slots t 3)
abbrev hO0 (t : Fin cfg0.N) : (mO0 t).IsWhole := hstage0_3 ((cfg0.slots t 3).cast nbuf0_3)
/-- The accumulator: a scoped buffer of the kernel's own, carried from one grid point to the next. -/
abbrev accM0 : Memref sig .tc .vmem S1024x128 .f32 := Memref.whole cc0_scratch0
abbrev accV0 : View sig .tc .vmem S1024x128 .f32 := accM0.view

/-- The scoped buffers this kernel never touches (the other kernel's), each whole at some contents. -/
def spare0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body besides the windows, opened: the accumulator at some contents, the untouched scoped
    buffers, and the generator register at some state. -/
theorem PhiA0_open (c : Dev nD) :
    (Pipeline.ΦA spec0 c : sProp 𝕄)
      ⊢ iprop(iprop((∃ d, owns (c : Thread nD τ) accM0 fullShare d) ∗ spare0 c) ∗ (∃ r, prngReg c r)) := by
  unfold Pipeline.ΦA spare0; rw [scopedRest0_eq]; simp only [accM0, owns_whole]
  iintro ⟨⟨H1, H2, H3, H4, H5, H6, H7, H8⟩, Hr⟩
  iframe
/-- And closed again. -/
theorem PhiA0_close (c : Dev nD) :
    iprop(iprop((∃ d, owns (c : Thread nD τ) accM0 fullShare d) ∗ spare0 c) ∗ (∃ r, prngReg c r))
      ⊢ (Pipeline.ΦA spec0 c : sProp 𝕄) := by
  unfold Pipeline.ΦA spare0; rw [scopedRest0_eq]; simp only [accM0, owns_whole]
  iintro ⟨⟨H1, H2, H3, H4, H5, H6, H7, H8⟩, Hr⟩
  iframe

end Cert.Kernel.Fr

end
-- ==== Proof.K0RunA.lean ====
/-
  The aggregation kernel's body at a grid point of the first column block (k = 0), run whole: the accumulator is
  reset to zero and the first block's product added; the output tile is not touched.  What the stores leave in the
  accumulator is found by the run itself, as a list of written pieces.
-/
import proofs.«417435_j16149077033111_3_alg».proof.Proof.K0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile, the features and the bias at their contents, the output tile's buffer at
    contents it hands back untouched, the accumulator at anything — the body runs to its end holding the inputs and the
    output buffer as they were and the accumulator with the run's pieces written. -/
noncomputable def runFirst0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i)
    (x0 : Vec F S1024x1024 .f32) (x1 : Vec F S10240x128 .f32) (x2 : Vec F S1x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.K0RunB.lean ====
/-
  The aggregation kernel's body at a grid point of a middle column block (0 < k < 9), run whole: the block's product
  is added to the accumulator, which the point before left at known contents; the output tile is not touched.
-/
import proofs.«417435_j16149077033111_3_alg».proof.Proof.K0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at contents it hands back untouched, the
    accumulator at what the point before left (`acc`) — the body runs to its end holding the inputs and the output buffer
    as they were and the accumulator with the run's pieces written. -/
noncomputable def runMid0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.K0RunC.lean ====
/-
  The aggregation kernel's body at a grid point of the last column block (k = 9), run whole: the block's product is
  added to the accumulator, and the output tile is stored from the finished accumulator and the bias.
-/
import proofs.«417435_j16149077033111_3_alg».proof.Proof.K0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at anything, the accumulator at what the
    point before left (`acc`) — the body runs to its end holding the inputs as they were and the output buffer and the
    accumulator each with the run's pieces written. -/
noncomputable def runLast0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare acc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Fr

end
-- ==== Proof.K0Body.lean ====
/-
  The first layer's aggregation region, point by point.  The kernel keeps a running sum in a scoped accumulator across
  the ten column blocks of a row tile: reset and first product at k = 0, one more product at each k, and at k = 9 the
  output tile stored from the finished sum.  Here: what the accumulator and the output tile's buffer hold after each
  grid point (by recursion on the point, from the three whole-body runs), the region's invariant carrying the
  accumulator at exactly those contents, the pipeline's proof data, and the body's obligation at every point.
-/
import proofs.«417435_j16149077033111_3_alg».proof.Proof.K0RunA
import proofs.«417435_j16149077033111_3_alg».proof.Proof.K0RunB
import proofs.«417435_j16149077033111_3_alg».proof.Proof.K0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves, read back -/

/-- The accumulator after a first-block point. -/
def accFirst0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i) (x0 : Vec F S1024x1024 .f32) (x1 : Vec F S10240x128 .f32) (x2 : Vec F S1x128 .f32) : Vec F S1024x128 .f32 :=
  accV0.read (Elt F) (accV0.writes (Elt F) accV0.junk (runFirst0 c i arg2 harg2 arg3 harg3 arg4 harg4 arg5 harg5 arg6 harg6 hf hl x0 x1 x2).2.1)
theorem accFirst0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i) (x0 : Vec F S1024x1024 .f32) (x1 : Vec F S10240x128 .f32) (x2 : Vec F S1x128 .f32) (y : S1024x128.Idx) :
    ∃ pc ∈ (runFirst0 c i arg2 harg2 arg3 harg3 arg4 harg4 arg5 harg5 arg6 harg6 hf hl x0 x1 x2).2.1, y ∈ pc.1.set :=
  View.cover_of_tiledL (runFirst0 c i arg2 harg2 arg3 harg3 arg4 harg4 arg5 harg5 arg6 harg6 hf hl x0 x1 x2).2.1 S1024x128.size (by sl_kernel_rfl) y
/-- The accumulator after a middle-block point. -/
def accMid0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i) (x0 : Vec F S1024x1024 .f32) (x1 : Vec F S10240x128 .f32) (x2 : Vec F S1x128 .f32) (acc : Vec F S1024x128 .f32) : Vec F S1024x128 .f32 :=
  accV0.read (Elt F) (accV0.writes (Elt F) accV0.junk (runMid0 c i arg2 harg2 arg3 harg3 arg4 harg4 arg5 harg5 arg6 harg6 hf hl x0 x1 x2 acc).2.1)
theorem accMid0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i) (x0 : Vec F S1024x1024 .f32) (x1 : Vec F S10240x128 .f32) (x2 : Vec F S1x128 .f32) (acc : Vec F S1024x128 .f32) (y : S1024x128.Idx) :
    ∃ pc ∈ (runMid0 c i arg2 harg2 arg3 harg3 arg4 harg4 arg5 harg5 arg6 harg6 hf hl x0 x1 x2 acc).2.1, y ∈ pc.1.set :=
  View.cover_of_tiledL (runMid0 c i arg2 harg2 arg3 harg3 arg4 harg4 arg5 harg5 arg6 harg6 hf hl x0 x1 x2 acc).2.1 S1024x128.size (by sl_kernel_rfl) y
/-- The accumulator after a last-block point. -/
def accLast0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) : Vec F S1024x128 .f32 :=
  accV0.read (Elt F) (accV0.writes (Elt F) accV0.junk (runLast0 c i arg2 harg2 arg3 harg3 arg4 harg4 arg5 harg5 arg6 harg6 hf hl x0 x1 x2 acc).2.1)
theorem accLast0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) (y : S1024x128.Idx) :
    ∃ pc ∈ (runLast0 c i arg2 harg2 arg3 harg3 arg4 harg4 arg5 harg5 arg6 harg6 hf hl x0 x1 x2 acc).2.1, y ∈ pc.1.set :=
  View.cover_of_tiledL (runLast0 c i arg2 harg2 arg3 harg3 arg4 harg4 arg5 harg5 arg6 harg6 hf hl x0 x1 x2 acc).2.1 S1024x128.size (by sl_kernel_rfl) y
/-- The output tile's buffer after a last-block point. -/
def outLast0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) : Vec F S1024x128 .f32 :=
  outV0.read (Elt F) (outV0.writes (Elt F) outV0.junk (runLast0 c i arg2 harg2 arg3 harg3 arg4 harg4 arg5 harg5 arg6 harg6 hf hl x0 x1 x2 acc).1)
theorem outLast0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) (y : S1024x128.Idx) :
    ∃ pc ∈ (runLast0 c i arg2 harg2 arg3 harg3 arg4 harg4 arg5 harg5 arg6 harg6 hf hl x0 x1 x2 acc).1, y ∈ pc.1.set :=
  View.cover_of_tiledL (runLast0 c i arg2 harg2 arg3 harg3 arg4 harg4 arg5 harg5 arg6 harg6 hf hl x0 x1 x2 acc).1 S1024x128.size (by sl_kernel_rfl) y
/-- Where the output window rests nothing consults its buffer: a placeholder. -/
def outRest0 : Vec F S1024x128 .f32 := outV0.read (Elt F) outV0.junk

/-! ## The accumulation, point by point -/

/-- What the output tile's buffer and the accumulator hold after the body at grid position `n`: by the column block
    `n % 10`, the run of that kind at the point's memrefs and blocks, a later block's over what the point before left. -/
def stAt0 (c : Dev nD) : (n : ℕ) → n < cfg0.N → Vec F S1024x128 .f32 × Vec F S1024x128 .f32
  | 0, hn => (outRest0, accFirst0 c (grid0.coords ⟨0, hn⟩) (mA0 ⟨0, hn⟩) (hA0 ⟨0, hn⟩) (mH0 ⟨0, hn⟩) (hH0 ⟨0, hn⟩) (mB0 ⟨0, hn⟩) (hB0 ⟨0, hn⟩) (mO0 ⟨0, hn⟩) (hO0 ⟨0, hn⟩) accM0 (Memref.isWhole_whole _) ((first0_iff ⟨0, hn⟩).mpr (Nat.zero_mod _)) (fun h => (fun h => by (try dsimp only at h); omega) ((last0_iff ⟨0, hn⟩).mp h)) (blk0 V c 0 ⟨0, hn⟩) (blk0 V c 1 ⟨0, hn⟩) (blk0 V c 2 ⟨0, hn⟩))
  | n + 1, hn =>
    if h0 : (n + 1) % 10 = 0 then
      (outRest0, accFirst0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) ((first0_iff ⟨n + 1, hn⟩).mpr h0) (fun h => (fun h => by (try dsimp only at h); omega) ((last0_iff ⟨n + 1, hn⟩).mp h)) (blk0 V c 0 ⟨n + 1, hn⟩) (blk0 V c 1 ⟨n + 1, hn⟩) (blk0 V c 2 ⟨n + 1, hn⟩))
    else if h9 : (n + 1) % 10 = 9 then
      (outLast0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) (fun h => h0 ((first0_iff ⟨n + 1, hn⟩).mp h)) ((last0_iff ⟨n + 1, hn⟩).mpr h9) (blk0 V c 0 ⟨n + 1, hn⟩) (blk0 V c 1 ⟨n + 1, hn⟩) (blk0 V c 2 ⟨n + 1, hn⟩) (stAt0 c n (Nat.lt_of_succ_lt hn)).2,
       accLast0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) (fun h => h0 ((first0_iff ⟨n + 1, hn⟩).mp h)) ((last0_iff ⟨n + 1, hn⟩).mpr h9) (blk0 V c 0 ⟨n + 1, hn⟩) (blk0 V c 1 ⟨n + 1, hn⟩) (blk0 V c 2 ⟨n + 1, hn⟩) (stAt0 c n (Nat.lt_of_succ_lt hn)).2)
    else
      (outRest0, accMid0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) (fun h => h0 ((first0_iff ⟨n + 1, hn⟩).mp h)) (fun h => h9 ((last0_iff ⟨n + 1, hn⟩).mp h)) (blk0 V c 0 ⟨n + 1, hn⟩) (blk0 V c 1 ⟨n + 1, hn⟩) (blk0 V c 2 ⟨n + 1, hn⟩) (stAt0 c n (Nat.lt_of_succ_lt hn)).2)

/-- The accumulator before point `t` (for `t` not the very first): what the point before left. -/
abbrev prevAcc0 (c : Dev nD) (t : Fin cfg0.N) : Vec F S1024x128 .f32 :=
  (stAt0 V c (t.val - 1) (Nat.lt_of_le_of_lt (Nat.sub_le _ _) t.isLt)).2

theorem stAt0_first (c : Dev nD) (t : Fin cfg0.N) (h0 : t.val % 10 = 0) :
    stAt0 V c t.val t.isLt = (outRest0, accFirst0 c (grid0.coords t) (mA0 t) (hA0 t) (mH0 t) (hH0 t) (mB0 t) (hB0 t) (mO0 t) (hO0 t) accM0 (Memref.isWhole_whole _) ((first0_iff t).mpr h0) (fun h => (fun h => by omega) ((last0_iff t).mp h)) (blk0 V c 0 t) (blk0 V c 1 t) (blk0 V c 2 t)) := by
  obtain ⟨n, hn⟩ := t
  cases n with
  | zero => exact rfl
  | succ n => exact (dif_pos h0).trans rfl
theorem stAt0_mid (c : Dev nD) (t : Fin cfg0.N) (h0 : ¬t.val % 10 = 0) (h9 : ¬t.val % 10 = 9) :
    stAt0 V c t.val t.isLt = (outRest0, accMid0 c (grid0.coords t) (mA0 t) (hA0 t) (mH0 t) (hH0 t) (mB0 t) (hB0 t) (mO0 t) (hO0 t) accM0 (Memref.isWhole_whole _) (fun h => h0 ((first0_iff t).mp h)) (fun h => h9 ((last0_iff t).mp h)) (blk0 V c 0 t) (blk0 V c 1 t) (blk0 V c 2 t) (prevAcc0 V c t)) := by
  obtain ⟨n, hn⟩ := t
  cases n with
  | zero => exact (by exfalso; (try dsimp only at h0); exact absurd (Nat.zero_mod _) h0)
  | succ n => exact (dif_neg h0).trans ((dif_neg h9).trans rfl)
theorem stAt0_last (c : Dev nD) (t : Fin cfg0.N) (h0 : ¬t.val % 10 = 0) (h9 : t.val % 10 = 9) :
    stAt0 V c t.val t.isLt = (outLast0 c (grid0.coords t) (mA0 t) (hA0 t) (mH0 t) (hH0 t) (mB0 t) (hB0 t) (mO0 t) (hO0 t) accM0 (Memref.isWhole_whole _) (fun h => h0 ((first0_iff t).mp h)) ((last0_iff t).mpr h9) (blk0 V c 0 t) (blk0 V c 1 t) (blk0 V c 2 t) (prevAcc0 V c t),
      accLast0 c (grid0.coords t) (mA0 t) (hA0 t) (mH0 t) (hH0 t) (mB0 t) (hB0 t) (mO0 t) (hO0 t) accM0 (Memref.isWhole_whole _) (fun h => h0 ((first0_iff t).mp h)) ((last0_iff t).mpr h9) (blk0 V c 0 t) (blk0 V c 1 t) (blk0 V c 2 t) (prevAcc0 V c t)) := by
  obtain ⟨n, hn⟩ := t
  cases n with
  | zero => exact (by exfalso; (try dsimp only at h0); exact absurd (Nat.zero_mod _) h0)
  | succ n => exact (dif_neg h0).trans ((dif_pos h9).trans rfl)

/-! ## The region's invariant -/

/-- Before position `n`: at the very start whatever the launch hands over; afterwards the accumulator at what the
    point before left, the untouched scoped buffers, and the generator register at some state. -/
def Inv0 (c : Dev nD) : (n : ℕ) → n ≤ cfg0.N → sProp 𝕄
  | 0, _ => Pipeline.ΦA spec0 c
  | n + 1, hn => iprop(iprop(owns (c : Thread nD τ) accM0 fullShare ((stAt0 V c n hn).2) ∗ spare0 c) ∗ (∃ r, prngReg c r))

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop(iprop(owns (c : Thread nD τ) accM0 fullShare ((stAt0 V c n hn).2) ∗ spare0 c) ∗ (∃ r, prngReg c r)) := rfl
theorem Inv0_pos (c : Dev nD) (n : ℕ) (h : n ≤ cfg0.N) (hz : n ≠ 0) :
    Inv0 V c n h = iprop(iprop(owns (c : Thread nD τ) accM0 fullShare ((stAt0 V c (n - 1) (by omega)).2) ∗ spare0 c) ∗ (∃ r, prngReg c r)) := by
  cases n with
  | zero => exact absurd rfl hz
  | succ n => rfl

/-! ## The pipeline's proof data -/

/-- Arrays as the region finds them; after the body each input's buffer at its block, the output tile's at `stAt0`;
    the invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (stAt0 V c t.val t.isLt).1
  Φ t := Inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_Inv (c : Dev nD) (t : Fin cfg0.N) : (dat0 V c).Φ t.castSucc = Inv0 V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = (stAt0 V c t.val t.isLt).1 := by dsimp only [dat0]
theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-! ## The body's obligation at a grid point -/

def pre0 (c : Dev nD) (t : Fin cfg0.N) : sProp 𝕄 :=
  iprop((dat0 V c).Φ t.castSucc ∗ (dat0 V c).owesAt () t.castSucc
    ∗ (∃ d, owns (c : Thread nD τ) (mA0 t) fullShare ((dat0 V c).before 0 t d))
    ∗ (∃ d, owns (c : Thread nD τ) (mH0 t) fullShare ((dat0 V c).before 1 t d))
    ∗ (∃ d, owns (c : Thread nD τ) (mB0 t) fullShare ((dat0 V c).before 2 t d))
    ∗ (∃ d, owns (c : Thread nD τ) (mO0 t) fullShare ((dat0 V c).before 3 t d)))

def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) : (dat0 V c).leavesExact 0 t = owns (c : Thread nD τ) (mA0 t) fullShare (blk0 V c 0 t) := by
  unfold Dat.leavesExact; rw [live0_0 t, dat0_after0]
theorem leaves0_1 (c : Dev nD) (t : Fin cfg0.N) : (dat0 V c).leavesExact 1 t = owns (c : Thread nD τ) (mH0 t) fullShare (blk0 V c 1 t) := by
  unfold Dat.leavesExact; rw [live0_1 t, dat0_after1]
theorem leaves0_2 (c : Dev nD) (t : Fin cfg0.N) : (dat0 V c).leavesExact 2 t = owns (c : Thread nD τ) (mB0 t) fullShare (blk0 V c 2 t) := by
  unfold Dat.leavesExact; rw [live0_2 t, dat0_after2]

set_option maxHeartbeats 4800000 in
/-- At every grid point the body, called on the point's buffers with the invariant, runs to its end and hands back
    what the proof data say: which of the three runs applies is decided by the column block `t % 10`. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).owesAt () t.succ = (dat0 V c).owesAt () t.castSucc from rfl]
  rw [show (dat0 V c).Φ t.succ = Inv0 V c (t.val + 1) t.isLt from rfl, Inv0_succ]
  rw [leaves0_0, leaves0_1, leaves0_2]
  have hN : t.val < 100 := lt_of_lt_of_eq t.isLt (show cfg0.N = 100 from N_0)
  by_cases h0 : t.val % 10 = 0
  · have h9 : ¬t.val % 10 = 9 := by omega
    rw [Dat.leavesExact_idle (dat0 V c) 3 t (rest0_3 t (fun h => h9 ((last0_iff t).mp h))) (keep0_3 t (fun h => h9 ((last0_iff t).mp h)))]
    rw [stAt0_first V c t h0]
    unfold accFirst0; (try dsimp only)
    by_cases hz : t.val = 0
    · rw [dat0_Inv V c t, Inv0_zero V c _ _ hz]
      iintro ⟨HF, Ho, ⟨%d0, H0⟩, ⟨%d1, H1⟩, ⟨%d2, H2⟩, ⟨%d3, H3⟩⟩
      ihave HF' := (PhiA0_open c) $$ HF
      icases HF' with ⟨⟨HS, Hsp⟩, Hg⟩
      iapply ((runFirst0 c (grid0.coords t) (mA0 t) (hA0 t) (mH0 t) (hH0 t) (mB0 t) (hB0 t) (mO0 t) (hO0 t) accM0 (Memref.isWhole_whole _) ((first0_iff t).mpr h0) (fun h => h9 ((last0_iff t).mp h)) (blk0 V c 0 t) (blk0 V c 1 t) (blk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst0_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
    · rw [dat0_Inv V c t, Inv0_pos V c _ _ hz]
      iintro ⟨⟨⟨HS, Hsp⟩, Hg⟩, Ho, ⟨%d0, H0⟩, ⟨%d1, H1⟩, ⟨%d2, H2⟩, ⟨%d3, H3⟩⟩
      iapply ((runFirst0 c (grid0.coords t) (mA0 t) (hA0 t) (mH0 t) (hH0 t) (mB0 t) (hB0 t) (mO0 t) (hO0 t) accM0 (Memref.isWhole_whole _) ((first0_iff t).mpr h0) (fun h => h9 ((last0_iff t).mp h)) (blk0 V c 0 t) (blk0 V c 1 t) (blk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst0_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
  · have hz : t.val ≠ 0 := by omega
    by_cases h9 : t.val % 10 = 9
    · rw [show (dat0 V c).leavesExact 3 t = owns (c : Thread nD τ) (mO0 t) fullShare ((dat0 V c).after 3 t) from by
        unfold Dat.leavesExact; rw [live0_3 t ((last0_iff t).mpr h9)], dat0_after3]
      rw [stAt0_last V c t h0 h9]
      unfold outLast0 accLast0; (try dsimp only)
      rw [dat0_Inv V c t, Inv0_pos V c _ _ hz]
      iintro ⟨⟨⟨HS, Hsp⟩, Hg⟩, Ho, ⟨%d0, H0⟩, ⟨%d1, H1⟩, ⟨%d2, H2⟩, ⟨%d3, H3⟩⟩
      iapply ((runLast0 c (grid0.coords t) (mA0 t) (hA0 t) (mH0 t) (hH0 t) (mB0 t) (hB0 t) (mO0 t) (hO0 t) accM0 (Memref.isWhole_whole _) (fun h => h0 ((first0_iff t).mp h)) ((last0_iff t).mpr h9) (blk0 V c 0 t) (blk0 V c 1 t) (blk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hsp Hg]
      · isplitl [HS Hsp]
        · isplitl [HS]
          · unfold owns; iexists _; isplitr
            swap; · iexact HS
            ipureintro; exact View.read_writes_of_cover _ _ _ _ _ (accLast0_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast0_cover c _ _ _ _ _ _ _ _ _ _ _ _ _ _ _ _ _)
    · rw [Dat.leavesExact_idle (dat0 V c) 3 t (rest0_3 t (fun h => h9 ((last0_iff t).mp h))) (keep0_3 t (fun h => h9 ((last0_iff t).mp h)))]
      rw [stAt0_mid V c t h0 h9]
      unfold accMid0; (try dsimp only)
      rw [dat0_Inv V c t, Inv0_pos V c _ _ hz]
      iintro ⟨⟨⟨HS, Hsp⟩, Hg⟩, Ho, ⟨%d0, H0⟩, ⟨%d1, H1⟩, ⟨%d2, H2⟩, ⟨%d3, H3⟩⟩
      iapply ((runMid0 c (grid0.coords t) (mA0 t) (hA0 t) (mH0 t) (hH0 t) (mB0 t) (hB0 t) (mO0 t) (hO0 t) accM0 (Memref.isWhole_whole _) (fun h => h0 ((first0_iff t).mp h)) (fun h => h9 ((last0_iff t).mp h)) (blk0 V c 0 t) (blk0 V c 1 t) (blk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accMid0_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3

/-- The library's body obligation, at every point. -/
theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem enter0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After the last point the invariant gives it back, the accumulator's contents forgotten. -/
theorem leave0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 100 := N_0; omega)]
  refine BIBase.Entails.trans ?_ (PhiA0_close c)
  iintro ⟨⟨HS, Hsp⟩, Hg⟩
  isplitl [HS Hsp]
  · isplitl [HS]
    · iexists _; iexact HS
    iexact Hsp
  iexact Hg

end Cert.Kernel.Fr

end
-- ==== Proof.K1Runs.lean ====
/-
  The aggregation kernel of the second layer (grid 10 × 10: row tile i, column block k; point t = 10 i + k), seen from
  the pipeline that calls it: which grid points reset the accumulator (k = 0), which write the output tile (k = 9),
  where the output window rests, the blocks the three input windows hold at a point, and the scoped buffers the
  kernel does not touch.  Everything the three whole-body runs of the kernel and the region's proof data share.
-/
import proofs.«417435_j16149077033111_3_alg».proof.Proof.Gen.Kernel.Launch
import proofs.«417435_j16149077033111_3_alg».proof.Proof.Gen.Kernel.Skeleton
import proofs.«417435_j16149077033111_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's unscoped buffers hold when the region is entered
variable (V : (c : Dev nD) → (b : Ref sig .tc) → Buf (Elt F) ((c : Thread nD τ).loc b))

/-! ## The blocks the windows hold -/

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's buffer holds its block at every point (it is fetched at every point). -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The feature matrix, fetched once, is still in its buffer at every later point: its block index never moves. -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The same for the bias row. -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two branches of the body, decided over the grid -/

/-- "This is the first column block" (k = 0): the accumulator is reset. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 10 = 0 :=
  (by decide +kernel : ∀ t : Fin grid1.N, first1 (grid1.coords t) ↔ t.val % 10 = 0)
/-- "This is the last column block" (k = 9): the output tile is written. -/
abbrev last1 (i : grid1.Coords) : Prop := k1_cond2 i = 1#1
theorem last1_iff : ∀ t : Fin cfg1.N, last1 (grid1.coords t) ↔ t.val % 10 = 9 :=
  (by decide +kernel : ∀ t : Fin grid1.N, last1 (grid1.coords t) ↔ t.val % 10 = 9)

/-! ## Where the windows rest -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last column block the output window rests: nothing is stored into it and it is not written back. -/
theorem rest1_3 : ∀ t : Fin cfg1.N, ¬last1 (grid1.coords t) → cfg1.idle 3 (grid1.coords t) = true := by decide +kernel
theorem keep1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## The memrefs the body is called with -/

/-- One buffer of the output window, through which its contents are stated. -/
abbrev outV1 : View sig .tc .vmem S1024x128 .f32 := (Memref.whole cc1_stg3_0 : Memref sig .tc .vmem S1024x128 .f32).view
abbrev mA1 (t : Fin cfg1.N) : Memref sig .tc .vmem S1024x1024 .f32 := win1_0.stage (cfg1.slots t 0)
abbrev hA1 (t : Fin cfg1.N) : (mA1 t).IsWhole := hstage1_0 ((cfg1.slots t 0).cast nbuf1_0)
abbrev mH1 (t : Fin cfg1.N) : Memref sig .tc .vmem S10240x128 .f32 := win1_1.stage (cfg1.slots t 1)
abbrev hH1 (t : Fin cfg1.N) : (mH1 t).IsWhole := hstage1_1 ((cfg1.slots t 1).cast nbuf1_1)
abbrev mB1 (t : Fin cfg1.N) : Memref sig .tc .vmem S1x128 .f32 := win1_2.stage (cfg1.slots t 2)
abbrev hB1 (t : Fin cfg1.N) : (mB1 t).IsWhole := hstage1_2 ((cfg1.slots t 2).cast nbuf1_2)
abbrev mO1 (t : Fin cfg1.N) : Memref sig .tc .vmem S1024x128 .f32 := win1_3.stage (cfg1.slots t 3)
abbrev hO1 (t : Fin cfg1.N) : (mO1 t).IsWhole := hstage1_3 ((cfg1.slots t 3).cast nbuf1_3)
/-- The accumulator: a scoped buffer of the kernel's own, carried from one grid point to the next. -/
abbrev accM1 : Memref sig .tc .vmem S1024x128 .f32 := Memref.whole cc1_scratch0
abbrev accV1 : View sig .tc .vmem S1024x128 .f32 := accM1.view

/-- The scoped buffers this kernel never touches (the other kernel's), each whole at some contents. -/
def spare1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the region hands the body besides the windows, opened: the accumulator at some contents, the untouched scoped
    buffers, and the generator register at some state. -/
theorem PhiA1_open (c : Dev nD) :
    (Pipeline.ΦA spec1 c : sProp 𝕄)
      ⊢ iprop(iprop((∃ d, owns (c : Thread nD τ) accM1 fullShare d) ∗ spare1 c) ∗ (∃ r, prngReg c r)) := by
  unfold Pipeline.ΦA spare1; rw [scopedRest1_eq]; simp only [accM1, owns_whole]
  iintro ⟨⟨H1, H2, H3, H4, H5, H6, H7, H8⟩, Hr⟩
  iframe
/-- And closed again. -/
theorem PhiA1_close (c : Dev nD) :
    iprop(iprop((∃ d, owns (c : Thread nD τ) accM1 fullShare d) ∗ spare1 c) ∗ (∃ r, prngReg c r))
      ⊢ (Pipeline.ΦA spec1 c : sProp 𝕄) := by
  unfold Pipeline.ΦA spare1; rw [scopedRest1_eq]; simp only [accM1, owns_whole]
  iintro ⟨⟨H1, H2, H3, H4, H5, H6, H7, H8⟩, Hr⟩
  iframe

end Cert.Kernel.Fr

end
-- ==== Proof.K1RunA.lean ====
/-
  The aggregation kernel's body at a grid point of the first column block (k = 0), run whole: the accumulator is
  reset to zero and the first block's product added; the output tile is not touched.  What the stores leave in the
  accumulator is found by the run itself, as a list of written pieces.
-/
import proofs.«417435_j16149077033111_3_alg».proof.Proof.K1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile, the features and the bias at their contents, the output tile's buffer at
    contents it hands back untouched, the accumulator at anything — the body runs to its end holding the inputs and the
    output buffer as they were and the accumulator with the run's pieces written. -/
noncomputable def runFirst1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i)
    (x0 : Vec F S1024x1024 .f32) (x1 : Vec F S10240x128 .f32) (x2 : Vec F S1x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.K1RunB.lean ====
/-
  The aggregation kernel's body at a grid point of a middle column block (0 < k < 9), run whole: the block's product
  is added to the accumulator, which the point before left at known contents; the output tile is not touched.
-/
import proofs.«417435_j16149077033111_3_alg».proof.Proof.K1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at contents it hands back untouched, the
    accumulator at what the point before left (`acc`) — the body runs to its end holding the inputs and the output buffer
    as they were and the accumulator with the run's pieces written. -/
noncomputable def runMid1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.K1RunC.lean ====
/-
  The aggregation kernel's body at a grid point of the last column block (k = 9), run whole: the block's product is
  added to the accumulator, and the output tile is stored from the finished accumulator and the bias.
-/
import proofs.«417435_j16149077033111_3_alg».proof.Proof.K1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at anything, the accumulator at what the
    point before left (`acc`) — the body runs to its end holding the inputs as they were and the output buffer and the
    accumulator each with the run's pieces written. -/
noncomputable def runLast1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare acc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Fr

end
-- ==== Proof.K1Body.lean ====
/-
  The second layer's aggregation region, point by point.  The kernel keeps a running sum in a scoped accumulator across
  the ten column blocks of a row tile: reset and first product at k = 0, one more product at each k, and at k = 9 the
  output tile stored from the finished sum.  Here: what the accumulator and the output tile's buffer hold after each
  grid point (by recursion on the point, from the three whole-body runs), the region's invariant carrying the
  accumulator at exactly those contents, the pipeline's proof data, and the body's obligation at every point.
-/
import proofs.«417435_j16149077033111_3_alg».proof.Proof.K1RunA
import proofs.«417435_j16149077033111_3_alg».proof.Proof.K1RunB
import proofs.«417435_j16149077033111_3_alg».proof.Proof.K1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves, read back -/

/-- The accumulator after a first-block point. -/
def accFirst1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i) (x0 : Vec F S1024x1024 .f32) (x1 : Vec F S10240x128 .f32) (x2 : Vec F S1x128 .f32) : Vec F S1024x128 .f32 :=
  accV1.read (Elt F) (accV1.writes (Elt F) accV1.junk (runFirst1 c i arg2 harg2 arg3 harg3 arg4 harg4 arg5 harg5 arg6 harg6 hf hl x0 x1 x2).2.1)
theorem accFirst1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i) (x0 : Vec F S1024x1024 .f32) (x1 : Vec F S10240x128 .f32) (x2 : Vec F S1x128 .f32) (y : S1024x128.Idx) :
    ∃ pc ∈ (runFirst1 c i arg2 harg2 arg3 harg3 arg4 harg4 arg5 harg5 arg6 harg6 hf hl x0 x1 x2).2.1, y ∈ pc.1.set :=
  View.cover_of_tiledL (runFirst1 c i arg2 harg2 arg3 harg3 arg4 harg4 arg5 harg5 arg6 harg6 hf hl x0 x1 x2).2.1 S1024x128.size (by sl_kernel_rfl) y
/-- The accumulator after a middle-block point. -/
def accMid1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i) (x0 : Vec F S1024x1024 .f32) (x1 : Vec F S10240x128 .f32) (x2 : Vec F S1x128 .f32) (acc : Vec F S1024x128 .f32) : Vec F S1024x128 .f32 :=
  accV1.read (Elt F) (accV1.writes (Elt F) accV1.junk (runMid1 c i arg2 harg2 arg3 harg3 arg4 harg4 arg5 harg5 arg6 harg6 hf hl x0 x1 x2 acc).2.1)
theorem accMid1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i) (x0 : Vec F S1024x1024 .f32) (x1 : Vec F S10240x128 .f32) (x2 : Vec F S1x128 .f32) (acc : Vec F S1024x128 .f32) (y : S1024x128.Idx) :
    ∃ pc ∈ (runMid1 c i arg2 harg2 arg3 harg3 arg4 harg4 arg5 harg5 arg6 harg6 hf hl x0 x1 x2 acc).2.1, y ∈ pc.1.set :=
  View.cover_of_tiledL (runMid1 c i arg2 harg2 arg3 harg3 arg4 harg4 arg5 harg5 arg6 harg6 hf hl x0 x1 x2 acc).2.1 S1024x128.size (by sl_kernel_rfl) y
/-- The accumulator after a last-block point. -/
def accLast1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) : Vec F S1024x128 .f32 :=
  accV1.read (Elt F) (accV1.writes (Elt F) accV1.junk (runLast1 c i arg2 harg2 arg3 harg3 arg4 harg4 arg5 harg5 arg6 harg6 hf hl x0 x1 x2 acc).2.1)
theorem accLast1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) (y : S1024x128.Idx) :
    ∃ pc ∈ (runLast1 c i arg2 harg2 arg3 harg3 arg4 harg4 arg5 harg5 arg6 harg6 hf hl x0 x1 x2 acc).2.1, y ∈ pc.1.set :=
  View.cover_of_tiledL (runLast1 c i arg2 harg2 arg3 harg3 arg4 harg4 arg5 harg5 arg6 harg6 hf hl x0 x1 x2 acc).2.1 S1024x128.size (by sl_kernel_rfl) y
/-- The output tile's buffer after a last-block point. -/
def outLast1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) : Vec F S1024x128 .f32 :=
  outV1.read (Elt F) (outV1.writes (Elt F) outV1.junk (runLast1 c i arg2 harg2 arg3 harg3 arg4 harg4 arg5 harg5 arg6 harg6 hf hl x0 x1 x2 acc).1)
theorem outLast1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) (y : S1024x128.Idx) :
    ∃ pc ∈ (runLast1 c i arg2 harg2 arg3 harg3 arg4 harg4 arg5 harg5 arg6 harg6 hf hl x0 x1 x2 acc).1, y ∈ pc.1.set :=
  View.cover_of_tiledL (runLast1 c i arg2 harg2 arg3 harg3 arg4 harg4 arg5 harg5 arg6 harg6 hf hl x0 x1 x2 acc).1 S1024x128.size (by sl_kernel_rfl) y
/-- Where the output window rests nothing consults its buffer: a placeholder. -/
def outRest1 : Vec F S1024x128 .f32 := outV1.read (Elt F) outV1.junk

/-! ## The accumulation, point by point -/

/-- What the output tile's buffer and the accumulator hold after the body at grid position `n`: by the column block
    `n % 10`, the run of that kind at the point's memrefs and blocks, a later block's over what the point before left. -/
def stAt1 (c : Dev nD) : (n : ℕ) → n < cfg1.N → Vec F S1024x128 .f32 × Vec F S1024x128 .f32
  | 0, hn => (outRest1, accFirst1 c (grid1.coords ⟨0, hn⟩) (mA1 ⟨0, hn⟩) (hA1 ⟨0, hn⟩) (mH1 ⟨0, hn⟩) (hH1 ⟨0, hn⟩) (mB1 ⟨0, hn⟩) (hB1 ⟨0, hn⟩) (mO1 ⟨0, hn⟩) (hO1 ⟨0, hn⟩) accM1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩))
  | n + 1, hn =>
    if h0 : (n + 1) % 10 = 0 then
      (outRest1, accFirst1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) ((first1_iff ⟨n + 1, hn⟩).mpr h0) (fun h => (fun h => by (try dsimp only at h); omega) ((last1_iff ⟨n + 1, hn⟩).mp h)) (blk1 V c 0 ⟨n + 1, hn⟩) (blk1 V c 1 ⟨n + 1, hn⟩) (blk1 V c 2 ⟨n + 1, hn⟩))
    else if h9 : (n + 1) % 10 = 9 then
      (outLast1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) (fun h => h0 ((first1_iff ⟨n + 1, hn⟩).mp h)) ((last1_iff ⟨n + 1, hn⟩).mpr h9) (blk1 V c 0 ⟨n + 1, hn⟩) (blk1 V c 1 ⟨n + 1, hn⟩) (blk1 V c 2 ⟨n + 1, hn⟩) (stAt1 c n (Nat.lt_of_succ_lt hn)).2,
       accLast1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) (fun h => h0 ((first1_iff ⟨n + 1, hn⟩).mp h)) ((last1_iff ⟨n + 1, hn⟩).mpr h9) (blk1 V c 0 ⟨n + 1, hn⟩) (blk1 V c 1 ⟨n + 1, hn⟩) (blk1 V c 2 ⟨n + 1, hn⟩) (stAt1 c n (Nat.lt_of_succ_lt hn)).2)
    else
      (outRest1, accMid1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) (fun h => h0 ((first1_iff ⟨n + 1, hn⟩).mp h)) (fun h => h9 ((last1_iff ⟨n + 1, hn⟩).mp h)) (blk1 V c 0 ⟨n + 1, hn⟩) (blk1 V c 1 ⟨n + 1, hn⟩) (blk1 V c 2 ⟨n + 1, hn⟩) (stAt1 c n (Nat.lt_of_succ_lt hn)).2)

/-- The accumulator before point `t` (for `t` not the very first): what the point before left. -/
abbrev prevAcc1 (c : Dev nD) (t : Fin cfg1.N) : Vec F S1024x128 .f32 :=
  (stAt1 V c (t.val - 1) (Nat.lt_of_le_of_lt (Nat.sub_le _ _) t.isLt)).2

theorem stAt1_first (c : Dev nD) (t : Fin cfg1.N) (h0 : t.val % 10 = 0) :
    stAt1 V c t.val t.isLt = (outRest1, accFirst1 c (grid1.coords t) (mA1 t) (hA1 t) (mH1 t) (hH1 t) (mB1 t) (hB1 t) (mO1 t) (hO1 t) accM1 (Memref.isWhole_whole _) ((first1_iff t).mpr h0) (fun h => (fun h => by omega) ((last1_iff t).mp h)) (blk1 V c 0 t) (blk1 V c 1 t) (blk1 V c 2 t)) := by
  obtain ⟨n, hn⟩ := t
  cases n with
  | zero => exact rfl
  | succ n => exact (dif_pos h0).trans rfl
theorem stAt1_mid (c : Dev nD) (t : Fin cfg1.N) (h0 : ¬t.val % 10 = 0) (h9 : ¬t.val % 10 = 9) :
    stAt1 V c t.val t.isLt = (outRest1, accMid1 c (grid1.coords t) (mA1 t) (hA1 t) (mH1 t) (hH1 t) (mB1 t) (hB1 t) (mO1 t) (hO1 t) accM1 (Memref.isWhole_whole _) (fun h => h0 ((first1_iff t).mp h)) (fun h => h9 ((last1_iff t).mp h)) (blk1 V c 0 t) (blk1 V c 1 t) (blk1 V c 2 t) (prevAcc1 V c t)) := by
  obtain ⟨n, hn⟩ := t
  cases n with
  | zero => exact (by exfalso; (try dsimp only at h0); exact absurd (Nat.zero_mod _) h0)
  | succ n => exact (dif_neg h0).trans ((dif_neg h9).trans rfl)
theorem stAt1_last (c : Dev nD) (t : Fin cfg1.N) (h0 : ¬t.val % 10 = 0) (h9 : t.val % 10 = 9) :
    stAt1 V c t.val t.isLt = (outLast1 c (grid1.coords t) (mA1 t) (hA1 t) (mH1 t) (hH1 t) (mB1 t) (hB1 t) (mO1 t) (hO1 t) accM1 (Memref.isWhole_whole _) (fun h => h0 ((first1_iff t).mp h)) ((last1_iff t).mpr h9) (blk1 V c 0 t) (blk1 V c 1 t) (blk1 V c 2 t) (prevAcc1 V c t),
      accLast1 c (grid1.coords t) (mA1 t) (hA1 t) (mH1 t) (hH1 t) (mB1 t) (hB1 t) (mO1 t) (hO1 t) accM1 (Memref.isWhole_whole _) (fun h => h0 ((first1_iff t).mp h)) ((last1_iff t).mpr h9) (blk1 V c 0 t) (blk1 V c 1 t) (blk1 V c 2 t) (prevAcc1 V c t)) := by
  obtain ⟨n, hn⟩ := t
  cases n with
  | zero => exact (by exfalso; (try dsimp only at h0); exact absurd (Nat.zero_mod _) h0)
  | succ n => exact (dif_neg h0).trans ((dif_pos h9).trans rfl)

/-! ## The region's invariant -/

/-- Before position `n`: at the very start whatever the launch hands over; afterwards the accumulator at what the
    point before left, the untouched scoped buffers, and the generator register at some state. -/
def Inv1 (c : Dev nD) : (n : ℕ) → n ≤ cfg1.N → sProp 𝕄
  | 0, _ => Pipeline.ΦA spec1 c
  | n + 1, hn => iprop(iprop(owns (c : Thread nD τ) accM1 fullShare ((stAt1 V c n hn).2) ∗ spare1 c) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(iprop(owns (c : Thread nD τ) accM1 fullShare ((stAt1 V c n hn).2) ∗ spare1 c) ∗ (∃ r, prngReg c r)) := rfl
theorem Inv1_pos (c : Dev nD) (n : ℕ) (h : n ≤ cfg1.N) (hz : n ≠ 0) :
    Inv1 V c n h = iprop(iprop(owns (c : Thread nD τ) accM1 fullShare ((stAt1 V c (n - 1) (by omega)).2) ∗ spare1 c) ∗ (∃ r, prngReg c r)) := by
  cases n with
  | zero => exact absurd rfl hz
  | succ n => rfl

/-! ## The pipeline's proof data -/

/-- Arrays as the region finds them; after the body each input's buffer at its block, the output tile's at `stAt1`;
    the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt1 V c t.val t.isLt).1
  Φ t := Inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_Inv (c : Dev nD) (t : Fin cfg1.N) : (dat1 V c).Φ t.castSucc = Inv1 V c t.val (Nat.le_of_lt t.isLt) := by
  dsimp only [dat1]; simp only [Fin.coe_castSucc]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = (stAt1 V c t.val t.isLt).1 := by dsimp only [dat1]
theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d

/-! ## The body's obligation at a grid point -/

def pre1 (c : Dev nD) (t : Fin cfg1.N) : sProp 𝕄 :=
  iprop((dat1 V c).Φ t.castSucc ∗ (dat1 V c).owesAt () t.castSucc
    ∗ (∃ d, owns (c : Thread nD τ) (mA1 t) fullShare ((dat1 V c).before 0 t d))
    ∗ (∃ d, owns (c : Thread nD τ) (mH1 t) fullShare ((dat1 V c).before 1 t d))
    ∗ (∃ d, owns (c : Thread nD τ) (mB1 t) fullShare ((dat1 V c).before 2 t d))
    ∗ (∃ d, owns (c : Thread nD τ) (mO1 t) fullShare ((dat1 V c).before 3 t d)))

def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) : (dat1 V c).leavesExact 0 t = owns (c : Thread nD τ) (mA1 t) fullShare (blk1 V c 0 t) := by
  unfold Dat.leavesExact; rw [live1_0 t, dat1_after0]
theorem leaves1_1 (c : Dev nD) (t : Fin cfg1.N) : (dat1 V c).leavesExact 1 t = owns (c : Thread nD τ) (mH1 t) fullShare (blk1 V c 1 t) := by
  unfold Dat.leavesExact; rw [live1_1 t, dat1_after1]
theorem leaves1_2 (c : Dev nD) (t : Fin cfg1.N) : (dat1 V c).leavesExact 2 t = owns (c : Thread nD τ) (mB1 t) fullShare (blk1 V c 2 t) := by
  unfold Dat.leavesExact; rw [live1_2 t, dat1_after2]

set_option maxHeartbeats 4800000 in
/-- At every grid point the body, called on the point's buffers with the invariant, runs to its end and hands back
    what the proof data say: which of the three runs applies is decided by the column block `t % 10`. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2]
  have hN : t.val < 100 := lt_of_lt_of_eq t.isLt (show cfg1.N = 100 from N_1)
  by_cases h0 : t.val % 10 = 0
  · have h9 : ¬t.val % 10 = 9 := by omega
    rw [Dat.leavesExact_idle (dat1 V c) 3 t (rest1_3 t (fun h => h9 ((last1_iff t).mp h))) (keep1_3 t (fun h => h9 ((last1_iff t).mp h)))]
    rw [stAt1_first V c t h0]
    unfold accFirst1; (try dsimp only)
    by_cases hz : t.val = 0
    · rw [dat1_Inv V c t, Inv1_zero V c _ _ hz]
      iintro ⟨HF, Ho, ⟨%d0, H0⟩, ⟨%d1, H1⟩, ⟨%d2, H2⟩, ⟨%d3, H3⟩⟩
      ihave HF' := (PhiA1_open c) $$ HF
      icases HF' with ⟨⟨HS, Hsp⟩, Hg⟩
      iapply ((runFirst1 c (grid1.coords t) (mA1 t) (hA1 t) (mH1 t) (hH1 t) (mB1 t) (hB1 t) (mO1 t) (hO1 t) accM1 (Memref.isWhole_whole _) ((first1_iff t).mpr h0) (fun h => h9 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst1_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
    · rw [dat1_Inv V c t, Inv1_pos V c _ _ hz]
      iintro ⟨⟨⟨HS, Hsp⟩, Hg⟩, Ho, ⟨%d0, H0⟩, ⟨%d1, H1⟩, ⟨%d2, H2⟩, ⟨%d3, H3⟩⟩
      iapply ((runFirst1 c (grid1.coords t) (mA1 t) (hA1 t) (mH1 t) (hH1 t) (mB1 t) (hB1 t) (mO1 t) (hO1 t) accM1 (Memref.isWhole_whole _) ((first1_iff t).mpr h0) (fun h => h9 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst1_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
  · have hz : t.val ≠ 0 := by omega
    by_cases h9 : t.val % 10 = 9
    · rw [show (dat1 V c).leavesExact 3 t = owns (c : Thread nD τ) (mO1 t) fullShare ((dat1 V c).after 3 t) from by
        unfold Dat.leavesExact; rw [live1_3 t ((last1_iff t).mpr h9)], dat1_after3]
      rw [stAt1_last V c t h0 h9]
      unfold outLast1 accLast1; (try dsimp only)
      rw [dat1_Inv V c t, Inv1_pos V c _ _ hz]
      iintro ⟨⟨⟨HS, Hsp⟩, Hg⟩, Ho, ⟨%d0, H0⟩, ⟨%d1, H1⟩, ⟨%d2, H2⟩, ⟨%d3, H3⟩⟩
      iapply ((runLast1 c (grid1.coords t) (mA1 t) (hA1 t) (mH1 t) (hH1 t) (mB1 t) (hB1 t) (mO1 t) (hO1 t) accM1 (Memref.isWhole_whole _) (fun h => h0 ((first1_iff t).mp h)) ((last1_iff t).mpr h9) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hsp Hg]
      · isplitl [HS Hsp]
        · isplitl [HS]
          · unfold owns; iexists _; isplitr
            swap; · iexact HS
            ipureintro; exact View.read_writes_of_cover _ _ _ _ _ (accLast1_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast1_cover c _ _ _ _ _ _ _ _ _ _ _ _ _ _ _ _ _)
    · rw [Dat.leavesExact_idle (dat1 V c) 3 t (rest1_3 t (fun h => h9 ((last1_iff t).mp h))) (keep1_3 t (fun h => h9 ((last1_iff t).mp h)))]
      rw [stAt1_mid V c t h0 h9]
      unfold accMid1; (try dsimp only)
      rw [dat1_Inv V c t, Inv1_pos V c _ _ hz]
      iintro ⟨⟨⟨HS, Hsp⟩, Hg⟩, Ho, ⟨%d0, H0⟩, ⟨%d1, H1⟩, ⟨%d2, H2⟩, ⟨%d3, H3⟩⟩
      iapply ((runMid1 c (grid1.coords t) (mA1 t) (hA1 t) (mH1 t) (hH1 t) (mB1 t) (hB1 t) (mO1 t) (hO1 t) accM1 (Memref.isWhole_whole _) (fun h => h0 ((first1_iff t).mp h)) (fun h => h9 ((last1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accMid1_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3

/-- The library's body obligation, at every point. -/
theorem obligation1 (c : Dev nD) : BodyObligation (dat1 (F := F) V c) (defs₀ (F := F)) Variants.none () Set.univ := fun t => by
  rw [bigSep_W1, bigSep_W1]
  exact sound1 V c t

/-- What the launch hands the region is the invariant before the first point. -/
theorem enter1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 100 := N_1; omega)]
  refine BIBase.Entails.trans ?_ (PhiA1_close c)
  iintro ⟨⟨HS, Hsp⟩, Hg⟩
  isplitl [HS Hsp]
  · isplitl [HS]
    · iexists _; iexact HS
    iexact Hsp
  iexact Hg

end Cert.Kernel.Fr

end
-- ==== Proof.KMain.lean ====
/-
  The whole program as a run: host operations, the first aggregation region, host operations, the second aggregation
  region, host operations.  Each region is entered from the unscoped buffers at known contents and left with its output
  array at what its pipeline's proof data compute and every other buffer as it was; the host stretches transform the
  contents in between.  The result: every weakly fair execution terminates, nothing faulting, and every unscoped buffer
  ends at the last valuation of the chain — from which both the frame (the arguments end unchanged) and the two results'
  contents are read.
-/
import proofs.«417435_j16149077033111_3_alg».proof.Proof.K0Body
import proofs.«417435_j16149077033111_3_alg».proof.Proof.K1Body
import proofs.«417435_j16149077033111_3_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The contents each region is entered from -/

/-- The first region's entry: after the five host stretches before it. -/
abbrev In0 : (c : Dev nD) → (b : Ref sig .tc) → Buf (Elt F) ((c : Thread nD τ).loc b) := fun c b => V5 m c b
/-- The second region's entry: after the host stretch between the regions, over what the first region left. -/
abbrev In1 : (c : Dev nD) → (b : Ref sig .tc) → Buf (Elt F) ((c : Thread nD τ).loc b) := fun c b => V7 m outs c b

/-- What the regions leave in their output arrays is what their pipelines compute. -/
def Fits : Prop :=
  (∀ c : Dev nD, outs 6 main_v50 c = (dat0 (In0 m) c).arrAt 3 cfg0.N)
  ∧ (∀ c : Dev nD, outs 8 main_v60 c = (dat1 (In1 m outs) c).arrAt 3 cfg1.N)

/-- The prefetched tables' admissible contents: no pipeline has a table. -/
abbrev adm : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m outs) c

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev Ride (c : Dev nD) : sProp 𝕄 := iprop((∃ r, prngReg c r) ∗ ∃ W, owes (c : Thread nD τ) (0 : CellTallies nD τ sig Unit) W)

/-- The core rides owing nothing. -/
theorem ride_owes (c : Dev nD) : (Ride c : sProp 𝕄) ⊢ iprop(∃ W, owes (c : Thread nD τ) (0 : CellTallies nD τ sig Unit) W) := by
  iintro ⟨-, HO⟩
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arrays at a region's exit -/

theorem exit0_arr (hfit : Fits m outs) (c : Dev nD) (w : Fin cfg0.W) :
    (dat0 (In0 m) c).arrAt w cfg0.N = V6 m outs c (Pipeline.arrRef spec0 w) := by
  fin_cases w
  · exact ((dat0 (In0 m) c).arrAt_in 0 rfl _).trans ((dat0_A (In0 m) c 0).trans (V6_of m outs c _ (by decide)).symm)
  · exact ((dat0 (In0 m) c).arrAt_in 1 rfl _).trans ((dat0_A (In0 m) c 1).trans (V6_of m outs c _ (by decide)).symm)
  · exact ((dat0 (In0 m) c).arrAt_in 2 rfl _).trans ((dat0_A (In0 m) c 2).trans (V6_of m outs c _ (by decide)).symm)
  · exact (hfit.1 c).symm.trans (by simp only [V6, Function.update_self])
theorem exit0_rest (c : Dev nD) : ∀ b, b ∉ Finset.univ.image (Pipeline.arrRef spec0) → V6 m outs c b = V5 m c b :=
  fun b hb => V6_of m outs c b (fun h => hb (Finset.mem_image.mpr ⟨3, Finset.mem_univ _, (List.mem_singleton.mp h).symm⟩))

theorem exit1_arr (hfit : Fits m outs) (c : Dev nD) (w : Fin cfg1.W) :
    (dat1 (In1 m outs) c).arrAt w cfg1.N = V8 m outs c (Pipeline.arrRef spec1 w) := by
  fin_cases w
  · exact ((dat1 (In1 m outs) c).arrAt_in 0 rfl _).trans ((dat1_A (In1 m outs) c 0).trans (V8_of m outs c _ (by decide)).symm)
  · exact ((dat1 (In1 m outs) c).arrAt_in 1 rfl _).trans ((dat1_A (In1 m outs) c 1).trans (V8_of m outs c _ (by decide)).symm)
  · exact ((dat1 (In1 m outs) c).arrAt_in 2 rfl _).trans ((dat1_A (In1 m outs) c 2).trans (V8_of m outs c _ (by decide)).symm)
  · exact (hfit.2 c).symm.trans (by simp only [V8, Function.update_self])
theorem exit1_rest (c : Dev nD) : ∀ b, b ∉ Finset.univ.image (Pipeline.arrRef spec1) → V8 m outs c b = V7 m outs c b :=
  fun b hb => V8_of m outs c b (fun h => hb (Finset.mem_image.mpr ⟨3, Finset.mem_univ _, (List.mem_singleton.mp h).symm⟩))

/-! ## The regions as segments of the run -/

set_option backward.isDefEq.respectTransparency.types false in
/-- The first region: its arrays taken out of the unscoped buffers and put back at the exit contents, the generator
    register into the invariant and out, nothing owed, no semaphore of the kernel's own. -/
def reg0 (hfit : Fits m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (obligation0 (In0 m) c).loose
  hwaits := Pipeline.hwaits_of_owed_zero _ _ _ _ L lv 0 fun _ _ => rfl
  pre c := iprop(StableHlo.held (c : Thread nD τ) (Pipeline.ucRefs τ sig) (V5 m c) ∗ Ride c)
  post c := iprop(StableHlo.held (c : Thread nD τ) (Pipeline.ucRefs τ sig) (V6 m outs c) ∗ Ride c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    refine BIBase.Entails.trans (leave0 (In0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (In0 m c) (fun b => V6 m outs c b) ((pdats m outs 0 c).arrAt · cfg0.N) (exit0_arr m outs hfit c) (exit0_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, the same way. -/
def reg1 (hfit : Fits m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (obligation1 (In1 m outs) c).loose
  hwaits := Pipeline.hwaits_of_owed_zero _ _ _ _ L lv 1 fun _ _ => rfl
  pre c := iprop(StableHlo.held (c : Thread nD τ) (Pipeline.ucRefs τ sig) (V7 m outs c) ∗ Ride c)
  post c := iprop(StableHlo.held (c : Thread nD τ) (Pipeline.ucRefs τ sig) (V8 m outs c) ∗ Ride c)
  X c := iprop(∃ r, prngReg c r)
  Y c := iprop(∃ r, prngReg c r)
  Z c := Pipeline.unscopedRest (Ix := Unit) (Name := ℕ) (U := UR sig nD τ) (Lvl := ℕ) spec1 c (In1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (In1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    refine BIBase.Entails.trans (leave1 (In1 m outs) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (In1 m outs c) (fun b => V8 m outs c b) ((pdats m outs 1 c).arrAt · cfg1.N) (exit1_arr m outs hfit c) (exit1_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting, and
    every unscoped buffer of every core ends at the chain's last contents. -/
theorem run_all (hfit : Fits m outs) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm (pdats m outs) () cellOf_inj emb₁ defs₀ 𝒱₀ L lv m ρ main
    (segs m outs 𝒱₀ L lv (fun _ => Ride) () (pdats m outs) (reg0 m outs hfit) (reg1 m outs hfit))
    (fun c Q => by
      rewrite [main_chain c, Seg.run_eq_chain,
        show (segs m outs 𝒱₀ L lv (fun _ => Ride) () (pdats m outs) (reg0 m outs hfit) (reg1 m outs hfit) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => StableHlo.held (c : Thread nD τ) (Pipeline.ucRefs τ sig) (V9 m outs c))
    (hch := fun c => ⟨.rfl, .rfl, .rfl, .rfl, .rfl, .rfl, .rfl, .rfl, .rfl, sep_mono .rfl (ride_owes c)⟩)
    (hinit := ?_) (QY := fun c s => ∀ b ∈ Pipeline.ucRefs τ sig, s.mem ((c : Thread nD τ).1, b) = V9 m outs c b)
    (hfin := fun c s' => ?_) (hQ := fun _ h => h)
  · -- the launch
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (V9 m outs c) s')
    isplitl [Hh] <;> iassumption

/-- The frame: the six argument arrays end as launched. -/
theorem frame_all (hfit : Fits m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V9_main_arg0 m outs c),
     (h c _ (mem_uc main_arg1 (by decide))).trans (V9_main_arg1 m outs c),
     (h c _ (mem_uc main_arg2 (by decide))).trans (V9_main_arg2 m outs c),
     (h c _ (mem_uc main_arg3 (by decide))).trans (V9_main_arg3 m outs c),
     (h c _ (mem_uc main_arg4 (by decide))).trans (V9_main_arg4 m outs c),
     (h c _ (mem_uc main_arg5 (by decide))).trans (V9_main_arg5 m outs c)⟩) (run_all m ρ outs hfit)

end Cert.Kernel.Fr

end
-- ==== Proof.KOuts.lean ====
/-
  The contents the two regions leave in their output arrays, named: the first region's output is what its pipeline
  computes from the contents it is entered with; the second's likewise, entered with what the host stretch between the
  regions makes of the first's output.  With these the chain of buffer contents through the program is closed.
-/
import proofs.«417435_j16149077033111_3_alg».proof.Proof.KMain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first region leaves in its output array. -/
def left0 (c : Dev nD) : Buf (Elt F) ((c : Thread nD τ).loc main_v50) := (dat0 (In0 m) c).arrAt 3 cfg0.N

/-- The family naming only the first region's output. -/
def outsA : Outs (F := F) := fun _ r c => if h : r = main_v50 then h ▸ left0 m c else V5 m c r

theorem outsA_v50 (J : ℕ) (c : Dev nD) : outsA m J main_v50 c = left0 m c := dif_pos rfl

/-- What the second region leaves in its output array. -/
def left1 (c : Dev nD) : Buf (Elt F) ((c : Thread nD τ).loc main_v60) := (dat1 (In1 m (outsA m)) c).arrAt 3 cfg1.N

/-- The family naming both outputs. -/
def outsB : Outs (F := F) := fun J r c => if h : r = main_v60 then h ▸ left1 m c else outsA m J r c

theorem outsB_v60 (J : ℕ) (c : Dev nD) : outsB m J main_v60 c = left1 m c := dif_pos rfl
theorem outsB_v50 (J : ℕ) (c : Dev nD) : outsB m J main_v50 c = left0 m c :=
  (dif_neg (by decide)).trans (outsA_v50 m J c)

/-- The second region is entered with the same contents under either family: only the first output is read. -/
theorem In1_outsB : In1 m (outsB m) = In1 m (outsA m) := by
  funext c b
  show V7 m (outsB m) c b = V7 m (outsA m) c b
  unfold V7 V6
  rw [outsB_v50, outsA_v50]

/-- The named contents are what the pipelines compute. -/
theorem fits : Fits m (outsB m) :=
  ⟨fun c => outsB_v50 m 6 c, fun c => (outsB_v60 m 8 c).trans (by unfold left1; rw [In1_outsB])⟩

end Cert.Kernel.Fr

end
-- ==== Proof.KI0Runs.lean ====
/-
  The aggregation kernel of the first layer (grid 10 × 10: row tile i, column block k; point t = 10 i + k), seen from
  the pipeline that calls it: which grid points reset the accumulator (k = 0), which write the output tile (k = 9),
  where the output window rests, the blocks the three input windows hold at a point, and the scoped buffers the
  kernel does not touch.  Everything the three whole-body runs of the kernel and the region's proof data share.
-/
import proofs.«417435_j16149077033111_3_alg».proof.Proof.Gen.KernelIdeal.Launch
import proofs.«417435_j16149077033111_3_alg».proof.Proof.Gen.KernelIdeal.Skeleton
import proofs.«417435_j16149077033111_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's unscoped buffers hold when the region is entered
variable (V : (c : Dev nD) → (b : Ref sig .tc) → Buf (Elt F) ((c : Thread nD τ).loc b))

/-! ## The blocks the windows hold -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's buffer holds its block at every point (it is fetched at every point). -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The feature matrix, fetched once, is still in its buffer at every later point: its block index never moves. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The same for the bias row. -/
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The two branches of the body, decided over the grid -/

/-- "This is the first column block" (k = 0): the accumulator is reset. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 10 = 0 :=
  (by decide +kernel : ∀ t : Fin grid0.N, first0 (grid0.coords t) ↔ t.val % 10 = 0)
/-- "This is the last column block" (k = 9): the output tile is written. -/
abbrev last0 (i : grid0.Coords) : Prop := k0_cond2 i = 1#1
theorem last0_iff : ∀ t : Fin cfg0.N, last0 (grid0.coords t) ↔ t.val % 10 = 9 :=
  (by decide +kernel : ∀ t : Fin grid0.N, last0 (grid0.coords t) ↔ t.val % 10 = 9)

/-! ## Where the windows rest -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last column block the output window rests: nothing is stored into it and it is not written back. -/
theorem rest0_3 : ∀ t : Fin cfg0.N, ¬last0 (grid0.coords t) → cfg0.idle 3 (grid0.coords t) = true := by decide +kernel
theorem keep0_3 : ∀ t : Fin cfg0.N, ¬last0 (grid0.coords t) → (cfg0.win 3).flush t = false := by decide +kernel
theorem live0_3 : ∀ t : Fin cfg0.N, last0 (grid0.coords t) → cfg0.idle 3 (grid0.coords t) = false := by decide +kernel

/-! ## The memrefs the body is called with -/

/-- One buffer of the output window, through which its contents are stated. -/
abbrev outV0 : View sig .tc .vmem S1024x128 .f32 := (Memref.whole cc0_stg3_0 : Memref sig .tc .vmem S1024x128 .f32).view
abbrev mA0 (t : Fin cfg0.N) : Memref sig .tc .vmem S1024x1024 .f32 := win0_0.stage (cfg0.slots t 0)
abbrev hA0 (t : Fin cfg0.N) : (mA0 t).IsWhole := hstage0_0 ((cfg0.slots t 0).cast nbuf0_0)
abbrev mH0 (t : Fin cfg0.N) : Memref sig .tc .vmem S10240x128 .f32 := win0_1.stage (cfg0.slots t 1)
abbrev hH0 (t : Fin cfg0.N) : (mH0 t).IsWhole := hstage0_1 ((cfg0.slots t 1).cast nbuf0_1)
abbrev mB0 (t : Fin cfg0.N) : Memref sig .tc .vmem S1x128 .f32 := win0_2.stage (cfg0.slots t 2)
abbrev hB0 (t : Fin cfg0.N) : (mB0 t).IsWhole := hstage0_2 ((cfg0.slots t 2).cast nbuf0_2)
abbrev mO0 (t : Fin cfg0.N) : Memref sig .tc .vmem S1024x128 .f32 := win0_3.stage (cfg0.slots t 3)
abbrev hO0 (t : Fin cfg0.N) : (mO0 t).IsWhole := hstage0_3 ((cfg0.slots t 3).cast nbuf0_3)
/-- The accumulator: a scoped buffer of the kernel's own, carried from one grid point to the next. -/
abbrev accM0 : Memref sig .tc .vmem S1024x128 .f32 := Memref.whole cc0_scratch0
abbrev accV0 : View sig .tc .vmem S1024x128 .f32 := accM0.view

/-- The scoped buffers this kernel never touches (the other kernel's), each whole at some contents. -/
def spare0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body besides the windows, opened: the accumulator at some contents, the untouched scoped
    buffers, and the generator register at some state. -/
theorem PhiA0_open (c : Dev nD) :
    (Pipeline.ΦA spec0 c : sProp 𝕄)
      ⊢ iprop(iprop((∃ d, owns (c : Thread nD τ) accM0 fullShare d) ∗ spare0 c) ∗ (∃ r, prngReg c r)) := by
  unfold Pipeline.ΦA spare0; rw [scopedRest0_eq]; simp only [accM0, owns_whole]
  iintro ⟨⟨H1, H2, H3, H4, H5, H6, H7, H8⟩, Hr⟩
  iframe
/-- And closed again. -/
theorem PhiA0_close (c : Dev nD) :
    iprop(iprop((∃ d, owns (c : Thread nD τ) accM0 fullShare d) ∗ spare0 c) ∗ (∃ r, prngReg c r))
      ⊢ (Pipeline.ΦA spec0 c : sProp 𝕄) := by
  unfold Pipeline.ΦA spare0; rw [scopedRest0_eq]; simp only [accM0, owns_whole]
  iintro ⟨⟨H1, H2, H3, H4, H5, H6, H7, H8⟩, Hr⟩
  iframe

end Cert.KernelIdeal.Fr

end
-- ==== Proof.KI0RunA.lean ====
/-
  The aggregation kernel's body at a grid point of the first column block (k = 0), run whole: the accumulator is
  reset to zero and the first block's product added; the output tile is not touched.  What the stores leave in the
  accumulator is found by the run itself, as a list of written pieces.
-/
import proofs.«417435_j16149077033111_3_alg».proof.Proof.KI0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile, the features and the bias at their contents, the output tile's buffer at
    contents it hands back untouched, the accumulator at anything — the body runs to its end holding the inputs and the
    output buffer as they were and the accumulator with the run's pieces written. -/
noncomputable def runFirst0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i)
    (x0 : Vec F S1024x1024 .f32) (x1 : Vec F S10240x128 .f32) (x2 : Vec F S1x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI0RunB.lean ====
/-
  The aggregation kernel's body at a grid point of a middle column block (0 < k < 9), run whole: the block's product
  is added to the accumulator, which the point before left at known contents; the output tile is not touched.
-/
import proofs.«417435_j16149077033111_3_alg».proof.Proof.KI0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at contents it hands back untouched, the
    accumulator at what the point before left (`acc`) — the body runs to its end holding the inputs and the output buffer
    as they were and the accumulator with the run's pieces written. -/
noncomputable def runMid0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI0RunC.lean ====
/-
  The aggregation kernel's body at a grid point of the last column block (k = 9), run whole: the block's product is
  added to the accumulator, and the output tile is stored from the finished accumulator and the bias.
-/
import proofs.«417435_j16149077033111_3_alg».proof.Proof.KI0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at anything, the accumulator at what the
    point before left (`acc`) — the body runs to its end holding the inputs as they were and the output buffer and the
    accumulator each with the run's pieces written. -/
noncomputable def runLast0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare acc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Fr

end
-- ==== Proof.KI0Body.lean ====
/-
  The first layer's aggregation region, point by point.  The kernel keeps a running sum in a scoped accumulator across
  the ten column blocks of a row tile: reset and first product at k = 0, one more product at each k, and at k = 9 the
  output tile stored from the finished sum.  Here: what the accumulator and the output tile's buffer hold after each
  grid point (by recursion on the point, from the three whole-body runs), the region's invariant carrying the
  accumulator at exactly those contents, the pipeline's proof data, and the body's obligation at every point.
-/
import proofs.«417435_j16149077033111_3_alg».proof.Proof.KI0RunA
import proofs.«417435_j16149077033111_3_alg».proof.Proof.KI0RunB
import proofs.«417435_j16149077033111_3_alg».proof.Proof.KI0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves, read back -/

/-- The accumulator after a first-block point. -/
def accFirst0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i) (x0 : Vec F S1024x1024 .f32) (x1 : Vec F S10240x128 .f32) (x2 : Vec F S1x128 .f32) : Vec F S1024x128 .f32 :=
  accV0.read (Elt F) (accV0.writes (Elt F) accV0.junk (runFirst0 c i arg2 harg2 arg3 harg3 arg4 harg4 arg5 harg5 arg6 harg6 hf hl x0 x1 x2).2.1)
theorem accFirst0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i) (x0 : Vec F S1024x1024 .f32) (x1 : Vec F S10240x128 .f32) (x2 : Vec F S1x128 .f32) (y : S1024x128.Idx) :
    ∃ pc ∈ (runFirst0 c i arg2 harg2 arg3 harg3 arg4 harg4 arg5 harg5 arg6 harg6 hf hl x0 x1 x2).2.1, y ∈ pc.1.set :=
  View.cover_of_tiledL (runFirst0 c i arg2 harg2 arg3 harg3 arg4 harg4 arg5 harg5 arg6 harg6 hf hl x0 x1 x2).2.1 S1024x128.size (by sl_kernel_rfl) y
/-- The accumulator after a middle-block point. -/
def accMid0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i) (x0 : Vec F S1024x1024 .f32) (x1 : Vec F S10240x128 .f32) (x2 : Vec F S1x128 .f32) (acc : Vec F S1024x128 .f32) : Vec F S1024x128 .f32 :=
  accV0.read (Elt F) (accV0.writes (Elt F) accV0.junk (runMid0 c i arg2 harg2 arg3 harg3 arg4 harg4 arg5 harg5 arg6 harg6 hf hl x0 x1 x2 acc).2.1)
theorem accMid0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i) (x0 : Vec F S1024x1024 .f32) (x1 : Vec F S10240x128 .f32) (x2 : Vec F S1x128 .f32) (acc : Vec F S1024x128 .f32) (y : S1024x128.Idx) :
    ∃ pc ∈ (runMid0 c i arg2 harg2 arg3 harg3 arg4 harg4 arg5 harg5 arg6 harg6 hf hl x0 x1 x2 acc).2.1, y ∈ pc.1.set :=
  View.cover_of_tiledL (runMid0 c i arg2 harg2 arg3 harg3 arg4 harg4 arg5 harg5 arg6 harg6 hf hl x0 x1 x2 acc).2.1 S1024x128.size (by sl_kernel_rfl) y
/-- The accumulator after a last-block point. -/
def accLast0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) : Vec F S1024x128 .f32 :=
  accV0.read (Elt F) (accV0.writes (Elt F) accV0.junk (runLast0 c i arg2 harg2 arg3 harg3 arg4 harg4 arg5 harg5 arg6 harg6 hf hl x0 x1 x2 acc).2.1)
theorem accLast0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) (y : S1024x128.Idx) :
    ∃ pc ∈ (runLast0 c i arg2 harg2 arg3 harg3 arg4 harg4 arg5 harg5 arg6 harg6 hf hl x0 x1 x2 acc).2.1, y ∈ pc.1.set :=
  View.cover_of_tiledL (runLast0 c i arg2 harg2 arg3 harg3 arg4 harg4 arg5 harg5 arg6 harg6 hf hl x0 x1 x2 acc).2.1 S1024x128.size (by sl_kernel_rfl) y
/-- The output tile's buffer after a last-block point. -/
def outLast0 (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) : Vec F S1024x128 .f32 :=
  outV0.read (Elt F) (outV0.writes (Elt F) outV0.junk (runLast0 c i arg2 harg2 arg3 harg3 arg4 harg4 arg5 harg5 arg6 harg6 hf hl x0 x1 x2 acc).1)
theorem outLast0_cover (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) (y : S1024x128.Idx) :
    ∃ pc ∈ (runLast0 c i arg2 harg2 arg3 harg3 arg4 harg4 arg5 harg5 arg6 harg6 hf hl x0 x1 x2 acc).1, y ∈ pc.1.set :=
  View.cover_of_tiledL (runLast0 c i arg2 harg2 arg3 harg3 arg4 harg4 arg5 harg5 arg6 harg6 hf hl x0 x1 x2 acc).1 S1024x128.size (by sl_kernel_rfl) y
/-- Where the output window rests nothing consults its buffer: a placeholder. -/
def outRest0 : Vec F S1024x128 .f32 := outV0.read (Elt F) outV0.junk

/-! ## The accumulation, point by point -/

/-- What the output tile's buffer and the accumulator hold after the body at grid position `n`: by the column block
    `n % 10`, the run of that kind at the point's memrefs and blocks, a later block's over what the point before left. -/
def stAt0 (c : Dev nD) : (n : ℕ) → n < cfg0.N → Vec F S1024x128 .f32 × Vec F S1024x128 .f32
  | 0, hn => (outRest0, accFirst0 c (grid0.coords ⟨0, hn⟩) (mA0 ⟨0, hn⟩) (hA0 ⟨0, hn⟩) (mH0 ⟨0, hn⟩) (hH0 ⟨0, hn⟩) (mB0 ⟨0, hn⟩) (hB0 ⟨0, hn⟩) (mO0 ⟨0, hn⟩) (hO0 ⟨0, hn⟩) accM0 (Memref.isWhole_whole _) ((first0_iff ⟨0, hn⟩).mpr (Nat.zero_mod _)) (fun h => (fun h => by (try dsimp only at h); omega) ((last0_iff ⟨0, hn⟩).mp h)) (blk0 V c 0 ⟨0, hn⟩) (blk0 V c 1 ⟨0, hn⟩) (blk0 V c 2 ⟨0, hn⟩))
  | n + 1, hn =>
    if h0 : (n + 1) % 10 = 0 then
      (outRest0, accFirst0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) ((first0_iff ⟨n + 1, hn⟩).mpr h0) (fun h => (fun h => by (try dsimp only at h); omega) ((last0_iff ⟨n + 1, hn⟩).mp h)) (blk0 V c 0 ⟨n + 1, hn⟩) (blk0 V c 1 ⟨n + 1, hn⟩) (blk0 V c 2 ⟨n + 1, hn⟩))
    else if h9 : (n + 1) % 10 = 9 then
      (outLast0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) (fun h => h0 ((first0_iff ⟨n + 1, hn⟩).mp h)) ((last0_iff ⟨n + 1, hn⟩).mpr h9) (blk0 V c 0 ⟨n + 1, hn⟩) (blk0 V c 1 ⟨n + 1, hn⟩) (blk0 V c 2 ⟨n + 1, hn⟩) (stAt0 c n (Nat.lt_of_succ_lt hn)).2,
       accLast0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) (fun h => h0 ((first0_iff ⟨n + 1, hn⟩).mp h)) ((last0_iff ⟨n + 1, hn⟩).mpr h9) (blk0 V c 0 ⟨n + 1, hn⟩) (blk0 V c 1 ⟨n + 1, hn⟩) (blk0 V c 2 ⟨n + 1, hn⟩) (stAt0 c n (Nat.lt_of_succ_lt hn)).2)
    else
      (outRest0, accMid0 c (grid0.coords ⟨n + 1, hn⟩) (mA0 ⟨n + 1, hn⟩) (hA0 ⟨n + 1, hn⟩) (mH0 ⟨n + 1, hn⟩) (hH0 ⟨n + 1, hn⟩) (mB0 ⟨n + 1, hn⟩) (hB0 ⟨n + 1, hn⟩) (mO0 ⟨n + 1, hn⟩) (hO0 ⟨n + 1, hn⟩) accM0 (Memref.isWhole_whole _) (fun h => h0 ((first0_iff ⟨n + 1, hn⟩).mp h)) (fun h => h9 ((last0_iff ⟨n + 1, hn⟩).mp h)) (blk0 V c 0 ⟨n + 1, hn⟩) (blk0 V c 1 ⟨n + 1, hn⟩) (blk0 V c 2 ⟨n + 1, hn⟩) (stAt0 c n (Nat.lt_of_succ_lt hn)).2)

/-- The accumulator before point `t` (for `t` not the very first): what the point before left. -/
abbrev prevAcc0 (c : Dev nD) (t : Fin cfg0.N) : Vec F S1024x128 .f32 :=
  (stAt0 V c (t.val - 1) (Nat.lt_of_le_of_lt (Nat.sub_le _ _) t.isLt)).2

theorem stAt0_first (c : Dev nD) (t : Fin cfg0.N) (h0 : t.val % 10 = 0) :
    stAt0 V c t.val t.isLt = (outRest0, accFirst0 c (grid0.coords t) (mA0 t) (hA0 t) (mH0 t) (hH0 t) (mB0 t) (hB0 t) (mO0 t) (hO0 t) accM0 (Memref.isWhole_whole _) ((first0_iff t).mpr h0) (fun h => (fun h => by omega) ((last0_iff t).mp h)) (blk0 V c 0 t) (blk0 V c 1 t) (blk0 V c 2 t)) := by
  obtain ⟨n, hn⟩ := t
  cases n with
  | zero => exact rfl
  | succ n => exact (dif_pos h0).trans rfl
theorem stAt0_mid (c : Dev nD) (t : Fin cfg0.N) (h0 : ¬t.val % 10 = 0) (h9 : ¬t.val % 10 = 9) :
    stAt0 V c t.val t.isLt = (outRest0, accMid0 c (grid0.coords t) (mA0 t) (hA0 t) (mH0 t) (hH0 t) (mB0 t) (hB0 t) (mO0 t) (hO0 t) accM0 (Memref.isWhole_whole _) (fun h => h0 ((first0_iff t).mp h)) (fun h => h9 ((last0_iff t).mp h)) (blk0 V c 0 t) (blk0 V c 1 t) (blk0 V c 2 t) (prevAcc0 V c t)) := by
  obtain ⟨n, hn⟩ := t
  cases n with
  | zero => exact (by exfalso; (try dsimp only at h0); exact absurd (Nat.zero_mod _) h0)
  | succ n => exact (dif_neg h0).trans ((dif_neg h9).trans rfl)
theorem stAt0_last (c : Dev nD) (t : Fin cfg0.N) (h0 : ¬t.val % 10 = 0) (h9 : t.val % 10 = 9) :
    stAt0 V c t.val t.isLt = (outLast0 c (grid0.coords t) (mA0 t) (hA0 t) (mH0 t) (hH0 t) (mB0 t) (hB0 t) (mO0 t) (hO0 t) accM0 (Memref.isWhole_whole _) (fun h => h0 ((first0_iff t).mp h)) ((last0_iff t).mpr h9) (blk0 V c 0 t) (blk0 V c 1 t) (blk0 V c 2 t) (prevAcc0 V c t),
      accLast0 c (grid0.coords t) (mA0 t) (hA0 t) (mH0 t) (hH0 t) (mB0 t) (hB0 t) (mO0 t) (hO0 t) accM0 (Memref.isWhole_whole _) (fun h => h0 ((first0_iff t).mp h)) ((last0_iff t).mpr h9) (blk0 V c 0 t) (blk0 V c 1 t) (blk0 V c 2 t) (prevAcc0 V c t)) := by
  obtain ⟨n, hn⟩ := t
  cases n with
  | zero => exact (by exfalso; (try dsimp only at h0); exact absurd (Nat.zero_mod _) h0)
  | succ n => exact (dif_neg h0).trans ((dif_pos h9).trans rfl)

/-! ## The region's invariant -/

/-- Before position `n`: at the very start whatever the launch hands over; afterwards the accumulator at what the
    point before left, the untouched scoped buffers, and the generator register at some state. -/
def Inv0 (c : Dev nD) : (n : ℕ) → n ≤ cfg0.N → sProp 𝕄
  | 0, _ => Pipeline.ΦA spec0 c
  | n + 1, hn => iprop(iprop(owns (c : Thread nD τ) accM0 fullShare ((stAt0 V c n hn).2) ∗ spare0 c) ∗ (∃ r, prngReg c r))

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop(iprop(owns (c : Thread nD τ) accM0 fullShare ((stAt0 V c n hn).2) ∗ spare0 c) ∗ (∃ r, prngReg c r)) := rfl
theorem Inv0_pos (c : Dev nD) (n : ℕ) (h : n ≤ cfg0.N) (hz : n ≠ 0) :
    Inv0 V c n h = iprop(iprop(owns (c : Thread nD τ) accM0 fullShare ((stAt0 V c (n - 1) (by omega)).2) ∗ spare0 c) ∗ (∃ r, prngReg c r)) := by
  cases n with
  | zero => exact absurd rfl hz
  | succ n => rfl

/-! ## The pipeline's proof data -/

/-- Arrays as the region finds them; after the body each input's buffer at its block, the output tile's at `stAt0`;
    the invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (stAt0 V c t.val t.isLt).1
  Φ t := Inv0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_Inv (c : Dev nD) (t : Fin cfg0.N) : (dat0 V c).Φ t.castSucc = Inv0 V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = (stAt0 V c t.val t.isLt).1 := by dsimp only [dat0]
theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-! ## The body's obligation at a grid point -/

def pre0 (c : Dev nD) (t : Fin cfg0.N) : sProp 𝕄 :=
  iprop((dat0 V c).Φ t.castSucc ∗ (dat0 V c).owesAt () t.castSucc
    ∗ (∃ d, owns (c : Thread nD τ) (mA0 t) fullShare ((dat0 V c).before 0 t d))
    ∗ (∃ d, owns (c : Thread nD τ) (mH0 t) fullShare ((dat0 V c).before 1 t d))
    ∗ (∃ d, owns (c : Thread nD τ) (mB0 t) fullShare ((dat0 V c).before 2 t d))
    ∗ (∃ d, owns (c : Thread nD τ) (mO0 t) fullShare ((dat0 V c).before 3 t d)))

def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) : (dat0 V c).leavesExact 0 t = owns (c : Thread nD τ) (mA0 t) fullShare (blk0 V c 0 t) := by
  unfold Dat.leavesExact; rw [live0_0 t, dat0_after0]
theorem leaves0_1 (c : Dev nD) (t : Fin cfg0.N) : (dat0 V c).leavesExact 1 t = owns (c : Thread nD τ) (mH0 t) fullShare (blk0 V c 1 t) := by
  unfold Dat.leavesExact; rw [live0_1 t, dat0_after1]
theorem leaves0_2 (c : Dev nD) (t : Fin cfg0.N) : (dat0 V c).leavesExact 2 t = owns (c : Thread nD τ) (mB0 t) fullShare (blk0 V c 2 t) := by
  unfold Dat.leavesExact; rw [live0_2 t, dat0_after2]

set_option maxHeartbeats 4800000 in
/-- At every grid point the body, called on the point's buffers with the invariant, runs to its end and hands back
    what the proof data say: which of the three runs applies is decided by the column block `t % 10`. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).owesAt () t.succ = (dat0 V c).owesAt () t.castSucc from rfl]
  rw [show (dat0 V c).Φ t.succ = Inv0 V c (t.val + 1) t.isLt from rfl, Inv0_succ]
  rw [leaves0_0, leaves0_1, leaves0_2]
  have hN : t.val < 100 := lt_of_lt_of_eq t.isLt (show cfg0.N = 100 from N_0)
  by_cases h0 : t.val % 10 = 0
  · have h9 : ¬t.val % 10 = 9 := by omega
    rw [Dat.leavesExact_idle (dat0 V c) 3 t (rest0_3 t (fun h => h9 ((last0_iff t).mp h))) (keep0_3 t (fun h => h9 ((last0_iff t).mp h)))]
    rw [stAt0_first V c t h0]
    unfold accFirst0; (try dsimp only)
    by_cases hz : t.val = 0
    · rw [dat0_Inv V c t, Inv0_zero V c _ _ hz]
      iintro ⟨HF, Ho, ⟨%d0, H0⟩, ⟨%d1, H1⟩, ⟨%d2, H2⟩, ⟨%d3, H3⟩⟩
      ihave HF' := (PhiA0_open c) $$ HF
      icases HF' with ⟨⟨HS, Hsp⟩, Hg⟩
      iapply ((runFirst0 c (grid0.coords t) (mA0 t) (hA0 t) (mH0 t) (hH0 t) (mB0 t) (hB0 t) (mO0 t) (hO0 t) accM0 (Memref.isWhole_whole _) ((first0_iff t).mpr h0) (fun h => h9 ((last0_iff t).mp h)) (blk0 V c 0 t) (blk0 V c 1 t) (blk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst0_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
    · rw [dat0_Inv V c t, Inv0_pos V c _ _ hz]
      iintro ⟨⟨⟨HS, Hsp⟩, Hg⟩, Ho, ⟨%d0, H0⟩, ⟨%d1, H1⟩, ⟨%d2, H2⟩, ⟨%d3, H3⟩⟩
      iapply ((runFirst0 c (grid0.coords t) (mA0 t) (hA0 t) (mH0 t) (hH0 t) (mB0 t) (hB0 t) (mO0 t) (hO0 t) accM0 (Memref.isWhole_whole _) ((first0_iff t).mpr h0) (fun h => h9 ((last0_iff t).mp h)) (blk0 V c 0 t) (blk0 V c 1 t) (blk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst0_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
  · have hz : t.val ≠ 0 := by omega
    by_cases h9 : t.val % 10 = 9
    · rw [show (dat0 V c).leavesExact 3 t = owns (c : Thread nD τ) (mO0 t) fullShare ((dat0 V c).after 3 t) from by
        unfold Dat.leavesExact; rw [live0_3 t ((last0_iff t).mpr h9)], dat0_after3]
      rw [stAt0_last V c t h0 h9]
      unfold outLast0 accLast0; (try dsimp only)
      rw [dat0_Inv V c t, Inv0_pos V c _ _ hz]
      iintro ⟨⟨⟨HS, Hsp⟩, Hg⟩, Ho, ⟨%d0, H0⟩, ⟨%d1, H1⟩, ⟨%d2, H2⟩, ⟨%d3, H3⟩⟩
      iapply ((runLast0 c (grid0.coords t) (mA0 t) (hA0 t) (mH0 t) (hH0 t) (mB0 t) (hB0 t) (mO0 t) (hO0 t) accM0 (Memref.isWhole_whole _) (fun h => h0 ((first0_iff t).mp h)) ((last0_iff t).mpr h9) (blk0 V c 0 t) (blk0 V c 1 t) (blk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hsp Hg]
      · isplitl [HS Hsp]
        · isplitl [HS]
          · unfold owns; iexists _; isplitr
            swap; · iexact HS
            ipureintro; exact View.read_writes_of_cover _ _ _ _ _ (accLast0_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast0_cover c _ _ _ _ _ _ _ _ _ _ _ _ _ _ _ _ _)
    · rw [Dat.leavesExact_idle (dat0 V c) 3 t (rest0_3 t (fun h => h9 ((last0_iff t).mp h))) (keep0_3 t (fun h => h9 ((last0_iff t).mp h)))]
      rw [stAt0_mid V c t h0 h9]
      unfold accMid0; (try dsimp only)
      rw [dat0_Inv V c t, Inv0_pos V c _ _ hz]
      iintro ⟨⟨⟨HS, Hsp⟩, Hg⟩, Ho, ⟨%d0, H0⟩, ⟨%d1, H1⟩, ⟨%d2, H2⟩, ⟨%d3, H3⟩⟩
      iapply ((runMid0 c (grid0.coords t) (mA0 t) (hA0 t) (mH0 t) (hH0 t) (mB0 t) (hB0 t) (mO0 t) (hO0 t) accM0 (Memref.isWhole_whole _) (fun h => h0 ((first0_iff t).mp h)) (fun h => h9 ((last0_iff t).mp h)) (blk0 V c 0 t) (blk0 V c 1 t) (blk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accMid0_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3

/-- The library's body obligation, at every point. -/
theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem enter0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After the last point the invariant gives it back, the accumulator's contents forgotten. -/
theorem leave0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 100 := N_0; omega)]
  refine BIBase.Entails.trans ?_ (PhiA0_close c)
  iintro ⟨⟨HS, Hsp⟩, Hg⟩
  isplitl [HS Hsp]
  · isplitl [HS]
    · iexists _; iexact HS
    iexact Hsp
  iexact Hg

end Cert.KernelIdeal.Fr

end
-- ==== Proof.KI1Runs.lean ====
/-
  The aggregation kernel of the second layer (grid 10 × 10: row tile i, column block k; point t = 10 i + k), seen from
  the pipeline that calls it: which grid points reset the accumulator (k = 0), which write the output tile (k = 9),
  where the output window rests, the blocks the three input windows hold at a point, and the scoped buffers the
  kernel does not touch.  Everything the three whole-body runs of the kernel and the region's proof data share.
-/
import proofs.«417435_j16149077033111_3_alg».proof.Proof.Gen.KernelIdeal.Launch
import proofs.«417435_j16149077033111_3_alg».proof.Proof.Gen.KernelIdeal.Skeleton
import proofs.«417435_j16149077033111_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's unscoped buffers hold when the region is entered
variable (V : (c : Dev nD) → (b : Ref sig .tc) → Buf (Elt F) ((c : Thread nD τ).loc b))

/-! ## The blocks the windows hold -/

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's buffer holds its block at every point (it is fetched at every point). -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The feature matrix, fetched once, is still in its buffer at every later point: its block index never moves. -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The same for the bias row. -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two branches of the body, decided over the grid -/

/-- "This is the first column block" (k = 0): the accumulator is reset. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 10 = 0 :=
  (by decide +kernel : ∀ t : Fin grid1.N, first1 (grid1.coords t) ↔ t.val % 10 = 0)
/-- "This is the last column block" (k = 9): the output tile is written. -/
abbrev last1 (i : grid1.Coords) : Prop := k1_cond2 i = 1#1
theorem last1_iff : ∀ t : Fin cfg1.N, last1 (grid1.coords t) ↔ t.val % 10 = 9 :=
  (by decide +kernel : ∀ t : Fin grid1.N, last1 (grid1.coords t) ↔ t.val % 10 = 9)

/-! ## Where the windows rest -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last column block the output window rests: nothing is stored into it and it is not written back. -/
theorem rest1_3 : ∀ t : Fin cfg1.N, ¬last1 (grid1.coords t) → cfg1.idle 3 (grid1.coords t) = true := by decide +kernel
theorem keep1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## The memrefs the body is called with -/

/-- One buffer of the output window, through which its contents are stated. -/
abbrev outV1 : View sig .tc .vmem S1024x128 .f32 := (Memref.whole cc1_stg3_0 : Memref sig .tc .vmem S1024x128 .f32).view
abbrev mA1 (t : Fin cfg1.N) : Memref sig .tc .vmem S1024x1024 .f32 := win1_0.stage (cfg1.slots t 0)
abbrev hA1 (t : Fin cfg1.N) : (mA1 t).IsWhole := hstage1_0 ((cfg1.slots t 0).cast nbuf1_0)
abbrev mH1 (t : Fin cfg1.N) : Memref sig .tc .vmem S10240x128 .f32 := win1_1.stage (cfg1.slots t 1)
abbrev hH1 (t : Fin cfg1.N) : (mH1 t).IsWhole := hstage1_1 ((cfg1.slots t 1).cast nbuf1_1)
abbrev mB1 (t : Fin cfg1.N) : Memref sig .tc .vmem S1x128 .f32 := win1_2.stage (cfg1.slots t 2)
abbrev hB1 (t : Fin cfg1.N) : (mB1 t).IsWhole := hstage1_2 ((cfg1.slots t 2).cast nbuf1_2)
abbrev mO1 (t : Fin cfg1.N) : Memref sig .tc .vmem S1024x128 .f32 := win1_3.stage (cfg1.slots t 3)
abbrev hO1 (t : Fin cfg1.N) : (mO1 t).IsWhole := hstage1_3 ((cfg1.slots t 3).cast nbuf1_3)
/-- The accumulator: a scoped buffer of the kernel's own, carried from one grid point to the next. -/
abbrev accM1 : Memref sig .tc .vmem S1024x128 .f32 := Memref.whole cc1_scratch0
abbrev accV1 : View sig .tc .vmem S1024x128 .f32 := accM1.view

/-- The scoped buffers this kernel never touches (the other kernel's), each whole at some contents. -/
def spare1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the region hands the body besides the windows, opened: the accumulator at some contents, the untouched scoped
    buffers, and the generator register at some state. -/
theorem PhiA1_open (c : Dev nD) :
    (Pipeline.ΦA spec1 c : sProp 𝕄)
      ⊢ iprop(iprop((∃ d, owns (c : Thread nD τ) accM1 fullShare d) ∗ spare1 c) ∗ (∃ r, prngReg c r)) := by
  unfold Pipeline.ΦA spare1; rw [scopedRest1_eq]; simp only [accM1, owns_whole]
  iintro ⟨⟨H1, H2, H3, H4, H5, H6, H7, H8⟩, Hr⟩
  iframe
/-- And closed again. -/
theorem PhiA1_close (c : Dev nD) :
    iprop(iprop((∃ d, owns (c : Thread nD τ) accM1 fullShare d) ∗ spare1 c) ∗ (∃ r, prngReg c r))
      ⊢ (Pipeline.ΦA spec1 c : sProp 𝕄) := by
  unfold Pipeline.ΦA spare1; rw [scopedRest1_eq]; simp only [accM1, owns_whole]
  iintro ⟨⟨H1, H2, H3, H4, H5, H6, H7, H8⟩, Hr⟩
  iframe

end Cert.KernelIdeal.Fr

end
-- ==== Proof.KI1RunA.lean ====
/-
  The aggregation kernel's body at a grid point of the first column block (k = 0), run whole: the accumulator is
  reset to zero and the first block's product added; the output tile is not touched.  What the stores leave in the
  accumulator is found by the run itself, as a list of written pieces.
-/
import proofs.«417435_j16149077033111_3_alg».proof.Proof.KI1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the adjacency tile, the features and the bias at their contents, the output tile's buffer at
    contents it hands back untouched, the accumulator at anything — the body runs to its end holding the inputs and the
    output buffer as they were and the accumulator with the run's pieces written. -/
noncomputable def runFirst1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i)
    (x0 : Vec F S1024x1024 .f32) (x1 : Vec F S10240x128 .f32) (x2 : Vec F S1x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI1RunB.lean ====
/-
  The aggregation kernel's body at a grid point of a middle column block (0 < k < 9), run whole: the block's product
  is added to the accumulator, which the point before left at known contents; the output tile is not touched.
-/
import proofs.«417435_j16149077033111_3_alg».proof.Proof.KI1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at contents it hands back untouched, the
    accumulator at what the point before left (`acc`) — the body runs to its end holding the inputs and the output buffer
    as they were and the accumulator with the run's pieces written. -/
noncomputable def runMid1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (xo : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.KI1RunC.lean ====
/-
  The aggregation kernel's body at a grid point of the last column block (k = 9), run whole: the block's product is
  added to the accumulator, and the output tile is stored from the finished accumulator and the bias.
-/
import proofs.«417435_j16149077033111_3_alg».proof.Proof.KI1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their contents, the output tile's buffer at anything, the accumulator at what the
    point before left (`acc`) — the body runs to its end holding the inputs as they were and the output buffer and the
    accumulator each with the run's pieces written. -/
noncomputable def runLast1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i)
    (x0 : Vec F S1024x1024 .f32) (x1 : Vec F S10240x128 .f32) (x2 : Vec F S1x128 .f32) (acc : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare acc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Fr

end
-- ==== Proof.KI1Body.lean ====
/-
  The second layer's aggregation region, point by point.  The kernel keeps a running sum in a scoped accumulator across
  the ten column blocks of a row tile: reset and first product at k = 0, one more product at each k, and at k = 9 the
  output tile stored from the finished sum.  Here: what the accumulator and the output tile's buffer hold after each
  grid point (by recursion on the point, from the three whole-body runs), the region's invariant carrying the
  accumulator at exactly those contents, the pipeline's proof data, and the body's obligation at every point.
-/
import proofs.«417435_j16149077033111_3_alg».proof.Proof.KI1RunA
import proofs.«417435_j16149077033111_3_alg».proof.Proof.KI1RunB
import proofs.«417435_j16149077033111_3_alg».proof.Proof.KI1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves, read back -/

/-- The accumulator after a first-block point. -/
def accFirst1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i) (x0 : Vec F S1024x1024 .f32) (x1 : Vec F S10240x128 .f32) (x2 : Vec F S1x128 .f32) : Vec F S1024x128 .f32 :=
  accV1.read (Elt F) (accV1.writes (Elt F) accV1.junk (runFirst1 c i arg2 harg2 arg3 harg3 arg4 harg4 arg5 harg5 arg6 harg6 hf hl x0 x1 x2).2.1)
theorem accFirst1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i) (x0 : Vec F S1024x1024 .f32) (x1 : Vec F S10240x128 .f32) (x2 : Vec F S1x128 .f32) (y : S1024x128.Idx) :
    ∃ pc ∈ (runFirst1 c i arg2 harg2 arg3 harg3 arg4 harg4 arg5 harg5 arg6 harg6 hf hl x0 x1 x2).2.1, y ∈ pc.1.set :=
  View.cover_of_tiledL (runFirst1 c i arg2 harg2 arg3 harg3 arg4 harg4 arg5 harg5 arg6 harg6 hf hl x0 x1 x2).2.1 S1024x128.size (by sl_kernel_rfl) y
/-- The accumulator after a middle-block point. -/
def accMid1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i) (x0 : Vec F S1024x1024 .f32) (x1 : Vec F S10240x128 .f32) (x2 : Vec F S1x128 .f32) (acc : Vec F S1024x128 .f32) : Vec F S1024x128 .f32 :=
  accV1.read (Elt F) (accV1.writes (Elt F) accV1.junk (runMid1 c i arg2 harg2 arg3 harg3 arg4 harg4 arg5 harg5 arg6 harg6 hf hl x0 x1 x2 acc).2.1)
theorem accMid1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i) (x0 : Vec F S1024x1024 .f32) (x1 : Vec F S10240x128 .f32) (x2 : Vec F S1x128 .f32) (acc : Vec F S1024x128 .f32) (y : S1024x128.Idx) :
    ∃ pc ∈ (runMid1 c i arg2 harg2 arg3 harg3 arg4 harg4 arg5 harg5 arg6 harg6 hf hl x0 x1 x2 acc).2.1, y ∈ pc.1.set :=
  View.cover_of_tiledL (runMid1 c i arg2 harg2 arg3 harg3 arg4 harg4 arg5 harg5 arg6 harg6 hf hl x0 x1 x2 acc).2.1 S1024x128.size (by sl_kernel_rfl) y
/-- The accumulator after a last-block point. -/
def accLast1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) : Vec F S1024x128 .f32 :=
  accV1.read (Elt F) (accV1.writes (Elt F) accV1.junk (runLast1 c i arg2 harg2 arg3 harg3 arg4 harg4 arg5 harg5 arg6 harg6 hf hl x0 x1 x2 acc).2.1)
theorem accLast1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) (y : S1024x128.Idx) :
    ∃ pc ∈ (runLast1 c i arg2 harg2 arg3 harg3 arg4 harg4 arg5 harg5 arg6 harg6 hf hl x0 x1 x2 acc).2.1, y ∈ pc.1.set :=
  View.cover_of_tiledL (runLast1 c i arg2 harg2 arg3 harg3 arg4 harg4 arg5 harg5 arg6 harg6 hf hl x0 x1 x2 acc).2.1 S1024x128.size (by sl_kernel_rfl) y
/-- The output tile's buffer after a last-block point. -/
def outLast1 (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) : Vec F S1024x128 .f32 :=
  outV1.read (Elt F) (outV1.writes (Elt F) outV1.junk (runLast1 c i arg2 harg2 arg3 harg3 arg4 harg4 arg5 harg5 arg6 harg6 hf hl x0 x1 x2 acc).1)
theorem outLast1_cover (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) (y : S1024x128.Idx) :
    ∃ pc ∈ (runLast1 c i arg2 harg2 arg3 harg3 arg4 harg4 arg5 harg5 arg6 harg6 hf hl x0 x1 x2 acc).1, y ∈ pc.1.set :=
  View.cover_of_tiledL (runLast1 c i arg2 harg2 arg3 harg3 arg4 harg4 arg5 harg5 arg6 harg6 hf hl x0 x1 x2 acc).1 S1024x128.size (by sl_kernel_rfl) y
/-- Where the output window rests nothing consults its buffer: a placeholder. -/
def outRest1 : Vec F S1024x128 .f32 := outV1.read (Elt F) outV1.junk

/-! ## The accumulation, point by point -/

/-- What the output tile's buffer and the accumulator hold after the body at grid position `n`: by the column block
    `n % 10`, the run of that kind at the point's memrefs and blocks, a later block's over what the point before left. -/
def stAt1 (c : Dev nD) : (n : ℕ) → n < cfg1.N → Vec F S1024x128 .f32 × Vec F S1024x128 .f32
  | 0, hn => (outRest1, accFirst1 c (grid1.coords ⟨0, hn⟩) (mA1 ⟨0, hn⟩) (hA1 ⟨0, hn⟩) (mH1 ⟨0, hn⟩) (hH1 ⟨0, hn⟩) (mB1 ⟨0, hn⟩) (hB1 ⟨0, hn⟩) (mO1 ⟨0, hn⟩) (hO1 ⟨0, hn⟩) accM1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩))
  | n + 1, hn =>
    if h0 : (n + 1) % 10 = 0 then
      (outRest1, accFirst1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) ((first1_iff ⟨n + 1, hn⟩).mpr h0) (fun h => (fun h => by (try dsimp only at h); omega) ((last1_iff ⟨n + 1, hn⟩).mp h)) (blk1 V c 0 ⟨n + 1, hn⟩) (blk1 V c 1 ⟨n + 1, hn⟩) (blk1 V c 2 ⟨n + 1, hn⟩))
    else if h9 : (n + 1) % 10 = 9 then
      (outLast1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) (fun h => h0 ((first1_iff ⟨n + 1, hn⟩).mp h)) ((last1_iff ⟨n + 1, hn⟩).mpr h9) (blk1 V c 0 ⟨n + 1, hn⟩) (blk1 V c 1 ⟨n + 1, hn⟩) (blk1 V c 2 ⟨n + 1, hn⟩) (stAt1 c n (Nat.lt_of_succ_lt hn)).2,
       accLast1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) (fun h => h0 ((first1_iff ⟨n + 1, hn⟩).mp h)) ((last1_iff ⟨n + 1, hn⟩).mpr h9) (blk1 V c 0 ⟨n + 1, hn⟩) (blk1 V c 1 ⟨n + 1, hn⟩) (blk1 V c 2 ⟨n + 1, hn⟩) (stAt1 c n (Nat.lt_of_succ_lt hn)).2)
    else
      (outRest1, accMid1 c (grid1.coords ⟨n + 1, hn⟩) (mA1 ⟨n + 1, hn⟩) (hA1 ⟨n + 1, hn⟩) (mH1 ⟨n + 1, hn⟩) (hH1 ⟨n + 1, hn⟩) (mB1 ⟨n + 1, hn⟩) (hB1 ⟨n + 1, hn⟩) (mO1 ⟨n + 1, hn⟩) (hO1 ⟨n + 1, hn⟩) accM1 (Memref.isWhole_whole _) (fun h => h0 ((first1_iff ⟨n + 1, hn⟩).mp h)) (fun h => h9 ((last1_iff ⟨n + 1, hn⟩).mp h)) (blk1 V c 0 ⟨n + 1, hn⟩) (blk1 V c 1 ⟨n + 1, hn⟩) (blk1 V c 2 ⟨n + 1, hn⟩) (stAt1 c n (Nat.lt_of_succ_lt hn)).2)

/-- The accumulator before point `t` (for `t` not the very first): what the point before left. -/
abbrev prevAcc1 (c : Dev nD) (t : Fin cfg1.N) : Vec F S1024x128 .f32 :=
  (stAt1 V c (t.val - 1) (Nat.lt_of_le_of_lt (Nat.sub_le _ _) t.isLt)).2

theorem stAt1_first (c : Dev nD) (t : Fin cfg1.N) (h0 : t.val % 10 = 0) :
    stAt1 V c t.val t.isLt = (outRest1, accFirst1 c (grid1.coords t) (mA1 t) (hA1 t) (mH1 t) (hH1 t) (mB1 t) (hB1 t) (mO1 t) (hO1 t) accM1 (Memref.isWhole_whole _) ((first1_iff t).mpr h0) (fun h => (fun h => by omega) ((last1_iff t).mp h)) (blk1 V c 0 t) (blk1 V c 1 t) (blk1 V c 2 t)) := by
  obtain ⟨n, hn⟩ := t
  cases n with
  | zero => exact rfl
  | succ n => exact (dif_pos h0).trans rfl
theorem stAt1_mid (c : Dev nD) (t : Fin cfg1.N) (h0 : ¬t.val % 10 = 0) (h9 : ¬t.val % 10 = 9) :
    stAt1 V c t.val t.isLt = (outRest1, accMid1 c (grid1.coords t) (mA1 t) (hA1 t) (mH1 t) (hH1 t) (mB1 t) (hB1 t) (mO1 t) (hO1 t) accM1 (Memref.isWhole_whole _) (fun h => h0 ((first1_iff t).mp h)) (fun h => h9 ((last1_iff t).mp h)) (blk1 V c 0 t) (blk1 V c 1 t) (blk1 V c 2 t) (prevAcc1 V c t)) := by
  obtain ⟨n, hn⟩ := t
  cases n with
  | zero => exact (by exfalso; (try dsimp only at h0); exact absurd (Nat.zero_mod _) h0)
  | succ n => exact (dif_neg h0).trans ((dif_neg h9).trans rfl)
theorem stAt1_last (c : Dev nD) (t : Fin cfg1.N) (h0 : ¬t.val % 10 = 0) (h9 : t.val % 10 = 9) :
    stAt1 V c t.val t.isLt = (outLast1 c (grid1.coords t) (mA1 t) (hA1 t) (mH1 t) (hH1 t) (mB1 t) (hB1 t) (mO1 t) (hO1 t) accM1 (Memref.isWhole_whole _) (fun h => h0 ((first1_iff t).mp h)) ((last1_iff t).mpr h9) (blk1 V c 0 t) (blk1 V c 1 t) (blk1 V c 2 t) (prevAcc1 V c t),
      accLast1 c (grid1.coords t) (mA1 t) (hA1 t) (mH1 t) (hH1 t) (mB1 t) (hB1 t) (mO1 t) (hO1 t) accM1 (Memref.isWhole_whole _) (fun h => h0 ((first1_iff t).mp h)) ((last1_iff t).mpr h9) (blk1 V c 0 t) (blk1 V c 1 t) (blk1 V c 2 t) (prevAcc1 V c t)) := by
  obtain ⟨n, hn⟩ := t
  cases n with
  | zero => exact (by exfalso; (try dsimp only at h0); exact absurd (Nat.zero_mod _) h0)
  | succ n => exact (dif_neg h0).trans ((dif_pos h9).trans rfl)

/-! ## The region's invariant -/

/-- Before position `n`: at the very start whatever the launch hands over; afterwards the accumulator at what the
    point before left, the untouched scoped buffers, and the generator register at some state. -/
def Inv1 (c : Dev nD) : (n : ℕ) → n ≤ cfg1.N → sProp 𝕄
  | 0, _ => Pipeline.ΦA spec1 c
  | n + 1, hn => iprop(iprop(owns (c : Thread nD τ) accM1 fullShare ((stAt1 V c n hn).2) ∗ spare1 c) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(iprop(owns (c : Thread nD τ) accM1 fullShare ((stAt1 V c n hn).2) ∗ spare1 c) ∗ (∃ r, prngReg c r)) := rfl
theorem Inv1_pos (c : Dev nD) (n : ℕ) (h : n ≤ cfg1.N) (hz : n ≠ 0) :
    Inv1 V c n h = iprop(iprop(owns (c : Thread nD τ) accM1 fullShare ((stAt1 V c (n - 1) (by omega)).2) ∗ spare1 c) ∗ (∃ r, prngReg c r)) := by
  cases n with
  | zero => exact absurd rfl hz
  | succ n => rfl

/-! ## The pipeline's proof data -/

/-- Arrays as the region finds them; after the body each input's buffer at its block, the output tile's at `stAt1`;
    the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt1 V c t.val t.isLt).1
  Φ t := Inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_Inv (c : Dev nD) (t : Fin cfg1.N) : (dat1 V c).Φ t.castSucc = Inv1 V c t.val (Nat.le_of_lt t.isLt) := by
  dsimp only [dat1]; simp only [Fin.coe_castSucc]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = (stAt1 V c t.val t.isLt).1 := by dsimp only [dat1]
theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d

/-! ## The body's obligation at a grid point -/

def pre1 (c : Dev nD) (t : Fin cfg1.N) : sProp 𝕄 :=
  iprop((dat1 V c).Φ t.castSucc ∗ (dat1 V c).owesAt () t.castSucc
    ∗ (∃ d, owns (c : Thread nD τ) (mA1 t) fullShare ((dat1 V c).before 0 t d))
    ∗ (∃ d, owns (c : Thread nD τ) (mH1 t) fullShare ((dat1 V c).before 1 t d))
    ∗ (∃ d, owns (c : Thread nD τ) (mB1 t) fullShare ((dat1 V c).before 2 t d))
    ∗ (∃ d, owns (c : Thread nD τ) (mO1 t) fullShare ((dat1 V c).before 3 t d)))

def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) : (dat1 V c).leavesExact 0 t = owns (c : Thread nD τ) (mA1 t) fullShare (blk1 V c 0 t) := by
  unfold Dat.leavesExact; rw [live1_0 t, dat1_after0]
theorem leaves1_1 (c : Dev nD) (t : Fin cfg1.N) : (dat1 V c).leavesExact 1 t = owns (c : Thread nD τ) (mH1 t) fullShare (blk1 V c 1 t) := by
  unfold Dat.leavesExact; rw [live1_1 t, dat1_after1]
theorem leaves1_2 (c : Dev nD) (t : Fin cfg1.N) : (dat1 V c).leavesExact 2 t = owns (c : Thread nD τ) (mB1 t) fullShare (blk1 V c 2 t) := by
  unfold Dat.leavesExact; rw [live1_2 t, dat1_after2]

set_option maxHeartbeats 4800000 in
/-- At every grid point the body, called on the point's buffers with the invariant, runs to its end and hands back
    what the proof data say: which of the three runs applies is decided by the column block `t % 10`. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2]
  have hN : t.val < 100 := lt_of_lt_of_eq t.isLt (show cfg1.N = 100 from N_1)
  by_cases h0 : t.val % 10 = 0
  · have h9 : ¬t.val % 10 = 9 := by omega
    rw [Dat.leavesExact_idle (dat1 V c) 3 t (rest1_3 t (fun h => h9 ((last1_iff t).mp h))) (keep1_3 t (fun h => h9 ((last1_iff t).mp h)))]
    rw [stAt1_first V c t h0]
    unfold accFirst1; (try dsimp only)
    by_cases hz : t.val = 0
    · rw [dat1_Inv V c t, Inv1_zero V c _ _ hz]
      iintro ⟨HF, Ho, ⟨%d0, H0⟩, ⟨%d1, H1⟩, ⟨%d2, H2⟩, ⟨%d3, H3⟩⟩
      ihave HF' := (PhiA1_open c) $$ HF
      icases HF' with ⟨⟨HS, Hsp⟩, Hg⟩
      iapply ((runFirst1 c (grid1.coords t) (mA1 t) (hA1 t) (mH1 t) (hH1 t) (mB1 t) (hB1 t) (mO1 t) (hO1 t) accM1 (Memref.isWhole_whole _) ((first1_iff t).mpr h0) (fun h => h9 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst1_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
    · rw [dat1_Inv V c t, Inv1_pos V c _ _ hz]
      iintro ⟨⟨⟨HS, Hsp⟩, Hg⟩, Ho, ⟨%d0, H0⟩, ⟨%d1, H1⟩, ⟨%d2, H2⟩, ⟨%d3, H3⟩⟩
      iapply ((runFirst1 c (grid1.coords t) (mA1 t) (hA1 t) (mH1 t) (hH1 t) (mB1 t) (hB1 t) (mO1 t) (hO1 t) accM1 (Memref.isWhole_whole _) ((first1_iff t).mpr h0) (fun h => h9 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accFirst1_cover c _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3
  · have hz : t.val ≠ 0 := by omega
    by_cases h9 : t.val % 10 = 9
    · rw [show (dat1 V c).leavesExact 3 t = owns (c : Thread nD τ) (mO1 t) fullShare ((dat1 V c).after 3 t) from by
        unfold Dat.leavesExact; rw [live1_3 t ((last1_iff t).mpr h9)], dat1_after3]
      rw [stAt1_last V c t h0 h9]
      unfold outLast1 accLast1; (try dsimp only)
      rw [dat1_Inv V c t, Inv1_pos V c _ _ hz]
      iintro ⟨⟨⟨HS, Hsp⟩, Hg⟩, Ho, ⟨%d0, H0⟩, ⟨%d1, H1⟩, ⟨%d2, H2⟩, ⟨%d3, H3⟩⟩
      iapply ((runLast1 c (grid1.coords t) (mA1 t) (hA1 t) (mH1 t) (hH1 t) (mB1 t) (hB1 t) (mO1 t) (hO1 t) accM1 (Memref.isWhole_whole _) (fun h => h0 ((first1_iff t).mp h)) ((last1_iff t).mpr h9) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hsp Hg]
      · isplitl [HS Hsp]
        · isplitl [HS]
          · unfold owns; iexists _; isplitr
            swap; · iexact HS
            ipureintro; exact View.read_writes_of_cover _ _ _ _ _ (accLast1_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast1_cover c _ _ _ _ _ _ _ _ _ _ _ _ _ _ _ _ _)
    · rw [Dat.leavesExact_idle (dat1 V c) 3 t (rest1_3 t (fun h => h9 ((last1_iff t).mp h))) (keep1_3 t (fun h => h9 ((last1_iff t).mp h)))]
      rw [stAt1_mid V c t h0 h9]
      unfold accMid1; (try dsimp only)
      rw [dat1_Inv V c t, Inv1_pos V c _ _ hz]
      iintro ⟨⟨⟨HS, Hsp⟩, Hg⟩, Ho, ⟨%d0, H0⟩, ⟨%d1, H1⟩, ⟨%d2, H2⟩, ⟨%d3, H3⟩⟩
      iapply ((runMid1 c (grid1.coords t) (mA1 t) (hA1 t) (mH1 t) (hH1 t) (mB1 t) (hB1 t) (mO1 t) (hO1 t) accM1 (Memref.isWhole_whole _) (fun h => h0 ((first1_iff t).mp h)) (fun h => h9 ((last1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hsp Hg]
      · isplitl [HS Hsp]
        · isplitl [HS]
          · unfold owns; iexists _; isplitr
            swap; · iexact HS
            ipureintro; exact View.read_writes_of_cover _ _ _ _ _ (accMid1_cover c _ _ _ _ _ _ _ _ _ _ _ _ _ _ _ _ _)
          iexact Hsp
        iexact Hg
      isplitl [Ho]; · iexact Ho
      isplitl [H0]; · iexact H0
      isplitl [H1]; · iexact H1
      isplitl [H2]; · iexact H2
      iexists _; iexact H3

/-- The library's body obligation, at every point. -/
theorem obligation1 (c : Dev nD) : BodyObligation (dat1 (F := F) V c) (defs₀ (F := F)) Variants.none () Set.univ := fun t => by
  rw [bigSep_W1, bigSep_W1]
  exact sound1 V c t

/-- What the launch hands the region is the invariant before the first point. -/
theorem enter1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 100 := N_1; omega)]
  refine BIBase.Entails.trans ?_ (PhiA1_close c)
  iintro ⟨⟨HS, Hsp⟩, Hg⟩
  isplitl [HS Hsp]
  · isplitl [HS]
    · iexists _; iexact HS
    iexact Hsp
  iexact Hg

end Cert.KernelIdeal.Fr

end
-- ==== Proof.KIMain.lean ====
/-
  The whole program as a run: host operations, the first aggregation region, host operations, the second aggregation
  region, host operations.  Each region is entered from the unscoped buffers at known contents and left with its output
  array at what its pipeline's proof data compute and every other buffer as it was; the host stretches transform the
  contents in between.  The result: every weakly fair execution terminates, nothing faulting, and every unscoped buffer
  ends at the last valuation of the chain — from which both the frame (the arguments end unchanged) and the two results'
  contents are read.
-/
import proofs.«417435_j16149077033111_3_alg».proof.Proof.KI0Body
import proofs.«417435_j16149077033111_3_alg».proof.Proof.KI1Body
import proofs.«417435_j16149077033111_3_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The contents each region is entered from -/

/-- The first region's entry: after the five host stretches before it. -/
abbrev In0 : (c : Dev nD) → (b : Ref sig .tc) → Buf (Elt F) ((c : Thread nD τ).loc b) := fun c b => V5 m c b
/-- The second region's entry: after the host stretch between the regions, over what the first region left. -/
abbrev In1 : (c : Dev nD) → (b : Ref sig .tc) → Buf (Elt F) ((c : Thread nD τ).loc b) := fun c b => V7 m outs c b

/-- What the regions leave in their output arrays is what their pipelines compute. -/
def Fits : Prop :=
  (∀ c : Dev nD, outs 6 main_v50 c = (dat0 (In0 m) c).arrAt 3 cfg0.N)
  ∧ (∀ c : Dev nD, outs 8 main_v60 c = (dat1 (In1 m outs) c).arrAt 3 cfg1.N)

/-- The prefetched tables' admissible contents: no pipeline has a table. -/
abbrev adm : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m outs) c

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev Ride (c : Dev nD) : sProp 𝕄 := iprop((∃ r, prngReg c r) ∗ ∃ W, owes (c : Thread nD τ) (0 : CellTallies nD τ sig Unit) W)

/-- The core rides owing nothing. -/
theorem ride_owes (c : Dev nD) : (Ride c : sProp 𝕄) ⊢ iprop(∃ W, owes (c : Thread nD τ) (0 : CellTallies nD τ sig Unit) W) := by
  iintro ⟨-, HO⟩
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arrays at a region's exit -/

theorem exit0_arr (hfit : Fits m outs) (c : Dev nD) (w : Fin cfg0.W) :
    (dat0 (In0 m) c).arrAt w cfg0.N = V6 m outs c (Pipeline.arrRef spec0 w) := by
  fin_cases w
  · exact ((dat0 (In0 m) c).arrAt_in 0 rfl _).trans ((dat0_A (In0 m) c 0).trans (V6_of m outs c _ (by decide)).symm)
  · exact ((dat0 (In0 m) c).arrAt_in 1 rfl _).trans ((dat0_A (In0 m) c 1).trans (V6_of m outs c _ (by decide)).symm)
  · exact ((dat0 (In0 m) c).arrAt_in 2 rfl _).trans ((dat0_A (In0 m) c 2).trans (V6_of m outs c _ (by decide)).symm)
  · exact (hfit.1 c).symm.trans (by simp only [V6, Function.update_self])
theorem exit0_rest (c : Dev nD) : ∀ b, b ∉ Finset.univ.image (Pipeline.arrRef spec0) → V6 m outs c b = V5 m c b :=
  fun b hb => V6_of m outs c b (fun h => hb (Finset.mem_image.mpr ⟨3, Finset.mem_univ _, (List.mem_singleton.mp h).symm⟩))

theorem exit1_arr (hfit : Fits m outs) (c : Dev nD) (w : Fin cfg1.W) :
    (dat1 (In1 m outs) c).arrAt w cfg1.N = V8 m outs c (Pipeline.arrRef spec1 w) := by
  fin_cases w
  · exact ((dat1 (In1 m outs) c).arrAt_in 0 rfl _).trans ((dat1_A (In1 m outs) c 0).trans (V8_of m outs c _ (by decide)).symm)
  · exact ((dat1 (In1 m outs) c).arrAt_in 1 rfl _).trans ((dat1_A (In1 m outs) c 1).trans (V8_of m outs c _ (by decide)).symm)
  · exact ((dat1 (In1 m outs) c).arrAt_in 2 rfl _).trans ((dat1_A (In1 m outs) c 2).trans (V8_of m outs c _ (by decide)).symm)
  · exact (hfit.2 c).symm.trans (by simp only [V8, Function.update_self])
theorem exit1_rest (c : Dev nD) : ∀ b, b ∉ Finset.univ.image (Pipeline.arrRef spec1) → V8 m outs c b = V7 m outs c b :=
  fun b hb => V8_of m outs c b (fun h => hb (Finset.mem_image.mpr ⟨3, Finset.mem_univ _, (List.mem_singleton.mp h).symm⟩))

/-! ## The regions as segments of the run -/

set_option backward.isDefEq.respectTransparency.types false in
/-- The first region: its arrays taken out of the unscoped buffers and put back at the exit contents, the generator
    register into the invariant and out, nothing owed, no semaphore of the kernel's own. -/
def reg0 (hfit : Fits m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (obligation0 (In0 m) c).loose
  hwaits := Pipeline.hwaits_of_owed_zero _ _ _ _ L lv 0 fun _ _ => rfl
  pre c := iprop(StableHlo.held (c : Thread nD τ) (Pipeline.ucRefs τ sig) (V5 m c) ∗ Ride c)
  post c := iprop(StableHlo.held (c : Thread nD τ) (Pipeline.ucRefs τ sig) (V6 m outs c) ∗ Ride c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    refine BIBase.Entails.trans (leave0 (In0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (In0 m c) (fun b => V6 m outs c b) ((pdats m outs 0 c).arrAt · cfg0.N) (exit0_arr m outs hfit c) (exit0_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, the same way. -/
def reg1 (hfit : Fits m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (obligation1 (In1 m outs) c).loose
  hwaits := Pipeline.hwaits_of_owed_zero _ _ _ _ L lv 1 fun _ _ => rfl
  pre c := iprop(StableHlo.held (c : Thread nD τ) (Pipeline.ucRefs τ sig) (V7 m outs c) ∗ Ride c)
  post c := iprop(StableHlo.held (c : Thread nD τ) (Pipeline.ucRefs τ sig) (V8 m outs c) ∗ Ride c)
  X c := iprop(∃ r, prngReg c r)
  Y c := iprop(∃ r, prngReg c r)
  Z c := Pipeline.unscopedRest (Ix := Unit) (Name := ℕ) (U := UR sig nD τ) (Lvl := ℕ) spec1 c (In1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (In1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    refine BIBase.Entails.trans (leave1 (In1 m outs) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (In1 m outs c) (fun b => V8 m outs c b) ((pdats m outs 1 c).arrAt · cfg1.N) (exit1_arr m outs hfit c) (exit1_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting, and
    every unscoped buffer of every core ends at the chain's last contents. -/
theorem run_all (hfit : Fits m outs) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm (pdats m outs) () cellOf_inj emb₁ defs₀ 𝒱₀ L lv m ρ main
    (segs m outs 𝒱₀ L lv (fun _ => Ride) () (pdats m outs) (reg0 m outs hfit) (reg1 m outs hfit))
    (fun c Q => by
      rewrite [main_chain c, Seg.run_eq_chain,
        show (segs m outs 𝒱₀ L lv (fun _ => Ride) () (pdats m outs) (reg0 m outs hfit) (reg1 m outs hfit) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => StableHlo.held (c : Thread nD τ) (Pipeline.ucRefs τ sig) (V9 m outs c))
    (hch := fun c => ⟨.rfl, .rfl, .rfl, .rfl, .rfl, .rfl, .rfl, .rfl, .rfl, sep_mono .rfl (ride_owes c)⟩)
    (hinit := ?_) (QY := fun c s => ∀ b ∈ Pipeline.ucRefs τ sig, s.mem ((c : Thread nD τ).1, b) = V9 m outs c b)
    (hfin := fun c s' => ?_) (hQ := fun _ h => h)
  · -- the launch
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (V9 m outs c) s')
    isplitl [Hh] <;> iassumption

/-- The frame: the six argument arrays end as launched. -/
theorem frame_all (hfit : Fits m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V9_main_arg0 m outs c),
     (h c _ (mem_uc main_arg1 (by decide))).trans (V9_main_arg1 m outs c),
     (h c _ (mem_uc main_arg2 (by decide))).trans (V9_main_arg2 m outs c),
     (h c _ (mem_uc main_arg3 (by decide))).trans (V9_main_arg3 m outs c),
     (h c _ (mem_uc main_arg4 (by decide))).trans (V9_main_arg4 m outs c),
     (h c _ (mem_uc main_arg5 (by decide))).trans (V9_main_arg5 m outs c)⟩) (run_all m ρ outs hfit)

end Cert.KernelIdeal.Fr

end
-- ==== Proof.KIOuts.lean ====
/-
  The contents the two regions leave in their output arrays, named: the first region's output is what its pipeline
  computes from the contents it is entered with; the second's likewise, entered with what the host stretch between the
  regions makes of the first's output.  With these the chain of buffer contents through the program is closed.
-/
import proofs.«417435_j16149077033111_3_alg».proof.Proof.KIMain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first region leaves in its output array. -/
def left0 (c : Dev nD) : Buf (Elt F) ((c : Thread nD τ).loc main_v50) := (dat0 (In0 m) c).arrAt 3 cfg0.N

/-- The family naming only the first region's output. -/
def outsA : Outs (F := F) := fun _ r c => if h : r = main_v50 then h ▸ left0 m c else V5 m c r

theorem outsA_v50 (J : ℕ) (c : Dev nD) : outsA m J main_v50 c = left0 m c := dif_pos rfl

/-- What the second region leaves in its output array. -/
def left1 (c : Dev nD) : Buf (Elt F) ((c : Thread nD τ).loc main_v60) := (dat1 (In1 m (outsA m)) c).arrAt 3 cfg1.N

/-- The family naming both outputs. -/
def outsB : Outs (F := F) := fun J r c => if h : r = main_v60 then h ▸ left1 m c else outsA m J r c

theorem outsB_v60 (J : ℕ) (c : Dev nD) : outsB m J main_v60 c = left1 m c := dif_pos rfl
theorem outsB_v50 (J : ℕ) (c : Dev nD) : outsB m J main_v50 c = left0 m c :=
  (dif_neg (by decide)).trans (outsA_v50 m J c)

/-- The second region is entered with the same contents under either family: only the first output is read. -/
theorem In1_outsB : In1 m (outsB m) = In1 m (outsA m) := by
  funext c b
  show V7 m (outsB m) c b = V7 m (outsA m) c b
  unfold V7 V6
  rw [outsB_v50, outsA_v50]

/-- The named contents are what the pipelines compute. -/
theorem fits : Fits m (outsB m) :=
  ⟨fun c => outsB_v50 m 6 c, fun c => (outsB_v60 m 8 c).trans (by unfold left1; rw [In1_outsB])⟩

end Cert.KernelIdeal.Fr

end
-- ==== Proof.Spec.lean ====
/-
  The mathematics both programs compute, over the extended reals, stated once and free of either program.

  A graph on 10000 nodes is given by 650000 directed edges (row e → col e), each with a weight nrm e.  One
  convolution layer sends node features H : [10000, 128] to
      out[i, q] = act ( Σ_{e : col e = i} H[row e, q] · nrm e  +  b[q] ).
  One program computes this edge by edge (a gather of rows, a scaling, a segment sum: `layerR`); the other first
  builds the dense weighted adjacency matrix A[i, j] = Σ_{e : col e = i, row e = j} nrm e on 10240 × 10240 (`adj`) and
  then multiplies, A · Hpad + b (`layerK`), the product accumulated over ten column blocks of 1024 (`accK`).
  The two agree on the first 10000 rows when every edge's endpoints are nodes (`InRange`) and all numbers are finite:
  distributing the product over the inner sum and exchanging the two sums turns one into the other (`layer_bridge`).
-/
import Idealize.ShloMosaic.PureOps.Ideal
import Idealize.ShloMosaic.Lib.ValueIdx

noncomputable section

open scoped BigOperators

namespace Cert.Spec

open Idealize.ShloMosaic Idealize.ShloMosaic.ValueIdx

/-- The edge list's shape, the dense adjacency's, the padded features', the features', a bias row's, a bias vector's. -/
abbrev SE : Shape := ⟨1, ![650000]⟩
abbrev SA : Shape := ⟨2, ![10240, 10240]⟩
abbrev SP : Shape := ⟨2, ![10240, 128]⟩
abbrev SN : Shape := ⟨2, ![10000, 128]⟩
abbrev SB : Shape := ⟨2, ![1, 128]⟩
abbrev SV : Shape := ⟨1, ![128]⟩

/-- Every entry is a real number (neither infinity). -/
def Finite {S : Shape} (v : S.Idx → EReal) : Prop := ∀ y, v y ≠ ⊤ ∧ v y ≠ ⊥

/-- Every edge's two endpoints, read as signed integers, are nodes. -/
def InRange (rw cl : SE.Idx → BitVec 32) : Prop :=
  ∀ e : Fin 650000, (0 ≤ (rw (ix1 e)).toInt ∧ (rw (ix1 e)).toInt < 10000) ∧ (0 ≤ (cl (ix1 e)).toInt ∧ (cl (ix1 e)).toInt < 10000)

/-- The activation: the positive part, or the identity. -/
def act (relu : Bool) (x : EReal) : EReal := if relu then max x 0 else x

/-- The dense weighted adjacency: entry (i, j) collects the weights of the edges j → i. -/
def adj (rw cl : SE.Idx → BitVec 32) (nrm : SE.Idx → EReal) : SA.Idx → EReal :=
  fun y => 0 + ∑ e : Fin 650000,
    if (cl (ix1 e)).toInt = ((y 0).val : ℤ) ∧ (rw (ix1 e)).toInt = ((y 1).val : ℤ) then nrm (ix1 e) else 0

/-- One layer through the dense matrix: row r of A times column q of h, plus the bias, activated. -/
def layerK (relu : Bool) (A : SA.Idx → EReal) (h : SP.Idx → EReal) (b : SB.Idx → EReal) (r : Fin 10240) (q : Fin 128) : EReal :=
  act relu ((∑ j : Fin 10240, A (ix2 r j) * h (ix2 j q)) + b (ix2 0 q))

/-- One layer edge by edge: the rows H[ρ e] scaled by the weights, summed into their target nodes. -/
def layerR (relu : Bool) (cl : SE.Idx → BitVec 32) (nrm : SE.Idx → EReal) (H : SN.Idx → EReal) (b : SV.Idx → EReal)
    (ρ : Fin 650000 → Fin 10000) (i : Fin 10000) (q : Fin 128) : EReal :=
  act relu ((0 + ∑ e : Fin 650000, if (cl (ix1 e)).toInt = (i.val : ℤ) then H (ix2 (ρ e) q) * nrm (ix1 e) else 0) + b (ix1 q))

/-- Column block k (of width 1024) of the product's sum. -/
def blockSum (A : SA.Idx → EReal) (h : SP.Idx → EReal) (r : Fin 10240) (q : Fin 128) (k : Fin 10) : EReal :=
  ∑ j : Fin 1024, A (ix2 r ⟨1024 * k.val + j.val, by omega⟩) * h (ix2 ⟨1024 * k.val + j.val, by omega⟩ q)

/-- The product's sum accumulated block by block from zero. -/
def accK (A : SA.Idx → EReal) (h : SP.Idx → EReal) (r : Fin 10240) (q : Fin 128) : ℕ → EReal
  | 0 => 0
  | n + 1 => accK A h r q n + (if hn : n < 10 then blockSum A h r q ⟨n, hn⟩ else 0)

end Cert.Spec

end
-- ==== Proof.KI0Array.lean ====
/-
  From the output tiles to the output array of the first layer's aggregation region, over the extended reals.
  The output window (an array of 10240 rows by 128 columns, cut into ten row tiles of 1024 rows) is written back at
  the last column block of each row tile (grid points t with t % 10 = 9), the tile of row-tile index t / 10.  If the
  tile written at each such point holds, at its place (p, q), the value G (1024·(t/10) + p, q) of one function G of the
  array's places, then after the region the whole array holds G: the ten tiles are disjoint in their rows and together
  cover every row, row r lying in the tile of the point 10·(r / 1024) + 9.
-/
import proofs.«417435_j16149077033111_3_alg».proof.Proof.KI0Body
import proofs.«417435_j16149077033111_3_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.Fr
open Idealize.ShloMosaic Idealize.ShloMosaic.ValueIdx Idealize.ShloMosaic.TcCoe
open Idealize.ShloMosaic.Pipeline (Dat Cfg Window)

/-- The output window's tile index at a grid point: the point's row tile on the rows, zero on the columns. -/
private theorem outIndex0 : ∀ t : Fin cfg0.N, win0_3.index t (0 : Fin 2) = t.val / 10 ∧ win0_3.index t (1 : Fin 2) = 0 :=
  (by decide +kernel : ∀ t : Fin grid0.N, win0_3.index t (0 : Fin 2) = t.val / 10 ∧ win0_3.index t (1 : Fin 2) = 0)

/-- A place of the array is in the tile of point t iff its row is among that tile's 1024 rows. -/
private theorem mem_outTile0 (t : Fin cfg0.N) (i : S10240x128.Idx) :
    i ∈ ((cfg0.win 3).blk t).view.set ↔ 1024 * (t.val / 10) ≤ (i 0).val ∧ (i 0).val < 1024 * (t.val / 10) + 1024 := by
  show i ∈ ((View.whole main_v50).slice (win0_3.rect t)).set ↔ _
  rw [View.set_slice_whole, Rect.mem_set_unit]
  obtain ⟨e0, e1⟩ := outIndex0 t
  have h1 : (i 1).val < 128 := (i 1).isLt
  constructor
  · intro h
    have b0 : win0_3.index t (0 : Fin 2) * 1024 ≤ (i 0).val ∧ (i 0).val < win0_3.index t (0 : Fin 2) * 1024 + 1024 := h 0
    omega
  · intro h a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 128 ≤ (i 1).val ∧ (i 1).val < win0_3.index t (1 : Fin 2) * 128 + 128; omega

/-- THE ARRAY FROM ITS TILES.  If at every last-column-block point the output tile's buffer holds the values of G on
    that tile's rows, the output array after the region holds G. -/
theorem array0 (V : (c : Dev nD) → (b : Ref sig .tc) → Buf (Elt Ideal) ((c : Thread nD τ).loc b)) (c : Dev nD)
    (G : Fin 10240 → Fin 128 → EReal)
    (htile : ∀ (t : Fin cfg0.N) (h9 : t.val % 10 = 9) (p : Fin 1024) (q : Fin 128),
        (stAt0 V c t.val t.isLt).1 (ix2 p q) = G ⟨1024 * (t.val / 10) + p.val, by have := t.isLt; have : cfg0.N = 100 := N_0; omega⟩ q)
    (r : Fin 10240) (q : Fin 128) :
    ((dat0 V c).arrAt 3 cfg0.N : S10240x128.Idx → EReal) (ix2 r q) = G r q := by
  have hN : cfg0.N = 100 := N_0
  have key := (dat0 V c).arrAt_eq_of_cover 3 (fun y : S10240x128.Idx => G (y 0) (y 1))
    (fun t hf => by
      have h9 : t.val % 10 = 9 := (flush0_3 t).mp hf
      have ht : t.val < 100 := lt_of_lt_of_eq t.isLt hN
      show (cfg0.win 3).cut (grid0.coords t) ((dat0 V c).after 3 t) = _
      rw [dat0_after3]
      funext y
      have hy0 : (y 0).val < 1024 := (y 0).isLt
      have hy1 : (y 1).val < 128 := (y 1).isLt
      obtain ⟨e0, e1⟩ := outIndex0 t
      have hx : win0_3.xinj (grid0.coords t) y = ix2 ⟨(y 0).val, hy0⟩ ⟨(y 1).val, hy1⟩ := by
        funext a
        match a with
        | ⟨0, _⟩ => rfl
        | ⟨1, _⟩ => rfl
      show (stAt0 V c t.val t.isLt).1 (win0_3.xinj (grid0.coords t) y)
        = G ((((cfg0.win 3).blk t).view.emb y) 0) ((((cfg0.win 3).blk t).view.emb y) 1)
      rw [hx, htile t h9 ⟨(y 0).val, hy0⟩ ⟨(y 1).val, hy1⟩]
      have a0 : (((cfg0.win 3).blk t).view.emb y) 0 = (⟨1024 * (t.val / 10) + (y 0).val, by omega⟩ : Fin 10240) := by
        apply Fin.ext
        show win0_3.index t (0 : Fin 2) * 1024 + 1 * (y 0).val = 1024 * (t.val / 10) + (y 0).val
        omega
      have a1 : (((cfg0.win 3).blk t).view.emb y) 1 = (⟨(y 1).val, hy1⟩ : Fin 128) := by
        apply Fin.ext
        show win0_3.index t (1 : Fin 2) * 128 + 1 * (y 1).val = (y 1).val
        omega
      rw [a0, a1])
    (fun i => by
      have hi0 : (i 0).val < 10240 := (i 0).isLt
      refine ⟨⟨10 * ((i 0).val / 1024) + 9, by omega⟩, (flush0_3 _).mpr (by show (10 * ((i 0).val / 1024) + 9) % 10 = 9; omega), ?_⟩
      rw [mem_outTile0]
      show 1024 * ((10 * ((i 0).val / 1024) + 9) / 10) ≤ (i 0).val ∧ (i 0).val < 1024 * ((10 * ((i 0).val / 1024) + 9) / 10) + 1024
      omega)
  exact congrFun key (ix2 r q)

end Cert.KernelIdeal.Fr

end
-- ==== Proof.KI1Array.lean ====
/-
  From the output tiles to the output array of the second layer's aggregation region, over the extended reals.
  The output window (an array of 10240 rows by 128 columns, cut into ten row tiles of 1024 rows) is written back at
  the last column block of each row tile (grid points t with t % 10 = 9), the tile of row-tile index t / 10.  If the
  tile written at each such point holds, at its place (p, q), the value G (1024·(t/10) + p, q) of one function G of the
  array's places, then after the region the whole array holds G: the ten tiles are disjoint in their rows and together
  cover every row, row r lying in the tile of the point 10·(r / 1024) + 9.
-/
import proofs.«417435_j16149077033111_3_alg».proof.Proof.KI1Body
import proofs.«417435_j16149077033111_3_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.Fr
open Idealize.ShloMosaic Idealize.ShloMosaic.ValueIdx Idealize.ShloMosaic.TcCoe
open Idealize.ShloMosaic.Pipeline (Dat Cfg Window)

/-- The output window's tile index at a grid point: the point's row tile on the rows, zero on the columns. -/
private theorem outIndex0 : ∀ t : Fin cfg1.N, win1_3.index t (0 : Fin 2) = t.val / 10 ∧ win1_3.index t (1 : Fin 2) = 0 :=
  (by decide +kernel : ∀ t : Fin grid1.N, win1_3.index t (0 : Fin 2) = t.val / 10 ∧ win1_3.index t (1 : Fin 2) = 0)

/-- A place of the array is in the tile of point t iff its row is among that tile's 1024 rows. -/
private theorem mem_outTile0 (t : Fin cfg1.N) (i : S10240x128.Idx) :
    i ∈ ((cfg1.win 3).blk t).view.set ↔ 1024 * (t.val / 10) ≤ (i 0).val ∧ (i 0).val < 1024 * (t.val / 10) + 1024 := by
  show i ∈ ((View.whole main_v60).slice (win1_3.rect t)).set ↔ _
  rw [View.set_slice_whole, Rect.mem_set_unit]
  obtain ⟨e0, e1⟩ := outIndex0 t
  have h1 : (i 1).val < 128 := (i 1).isLt
  constructor
  · intro h
    have b0 : win1_3.index t (0 : Fin 2) * 1024 ≤ (i 0).val ∧ (i 0).val < win1_3.index t (0 : Fin 2) * 1024 + 1024 := h 0
    omega
  · intro h a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 128 ≤ (i 1).val ∧ (i 1).val < win1_3.index t (1 : Fin 2) * 128 + 128; omega

/-- THE ARRAY FROM ITS TILES.  If at every last-column-block point the output tile's buffer holds the values of G on
    that tile's rows, the output array after the region holds G. -/
theorem array1 (V : (c : Dev nD) → (b : Ref sig .tc) → Buf (Elt Ideal) ((c : Thread nD τ).loc b)) (c : Dev nD)
    (G : Fin 10240 → Fin 128 → EReal)
    (htile : ∀ (t : Fin cfg1.N) (h9 : t.val % 10 = 9) (p : Fin 1024) (q : Fin 128),
        (stAt1 V c t.val t.isLt).1 (ix2 p q) = G ⟨1024 * (t.val / 10) + p.val, by have := t.isLt; have : cfg1.N = 100 := N_1; omega⟩ q)
    (r : Fin 10240) (q : Fin 128) :
    ((dat1 V c).arrAt 3 cfg1.N : S10240x128.Idx → EReal) (ix2 r q) = G r q := by
  have hN : cfg1.N = 100 := N_1
  have key := (dat1 V c).arrAt_eq_of_cover 3 (fun y : S10240x128.Idx => G (y 0) (y 1))
    (fun t hf => by
      have h9 : t.val % 10 = 9 := (flush1_3 t).mp hf
      have ht : t.val < 100 := lt_of_lt_of_eq t.isLt hN
      show (cfg1.win 3).cut (grid1.coords t) ((dat1 V c).after 3 t) = _
      rw [dat1_after3]
      funext y
      have hy0 : (y 0).val < 1024 := (y 0).isLt
      have hy1 : (y 1).val < 128 := (y 1).isLt
      obtain ⟨e0, e1⟩ := outIndex0 t
      have hx : win1_3.xinj (grid1.coords t) y = ix2 ⟨(y 0).val, hy0⟩ ⟨(y 1).val, hy1⟩ := by
        funext a
        match a with
        | ⟨0, _⟩ => rfl
        | ⟨1, _⟩ => rfl
      show (stAt1 V c t.val t.isLt).1 (win1_3.xinj (grid1.coords t) y)
        = G ((((cfg1.win 3).blk t).view.emb y) 0) ((((cfg1.win 3).blk t).view.emb y) 1)
      rw [hx, htile t h9 ⟨(y 0).val, hy0⟩ ⟨(y 1).val, hy1⟩]
      have a0 : (((cfg1.win 3).blk t).view.emb y) 0 = (⟨1024 * (t.val / 10) + (y 0).val, by omega⟩ : Fin 10240) := by
        apply Fin.ext
        show win1_3.index t (0 : Fin 2) * 1024 + 1 * (y 0).val = 1024 * (t.val / 10) + (y 0).val
        omega
      have a1 : (((cfg1.win 3).blk t).view.emb y) 1 = (⟨(y 1).val, hy1⟩ : Fin 128) := by
        apply Fin.ext
        show win1_3.index t (1 : Fin 2) * 128 + 1 * (y 1).val = (y 1).val
        omega
      rw [a0, a1])
    (fun i => by
      have hi0 : (i 0).val < 10240 := (i 0).isLt
      refine ⟨⟨10 * ((i 0).val / 1024) + 9, by omega⟩, (flush1_3 _).mpr (by show (10 * ((i 0).val / 1024) + 9) % 10 = 9; omega), ?_⟩
      rw [mem_outTile0]
      show 1024 * ((10 * ((i 0).val / 1024) + 9) / 10) ≤ (i 0).val ∧ (i 0).val < 1024 * ((10 * ((i 0).val / 1024) + 9) / 10) + 1024
      omega)
  exact congrFun key (ix2 r q)

end Cert.KernelIdeal.Fr

end
-- ==== Proof.KPay.lean ====
/- What the idealized kernel stores, read at one index, over the extended reals.

   Each of the two kernels (the first aggregation kernel, which ends in a rectifier, and the second, which
   does not) writes three values:
   * the accumulator's initial value, which is 0 everywhere (pay1_apply0, pay1_apply1);
   * the accumulator's update: the old accumulator plus a block product. The kernel splits each operand x into
     a high part (x rounded to the narrow format) and a low part (x minus that rounding widened back) and adds
     the four products high*high + high*low + low*high + low*low. Over the extended reals the rounding is the
     identity, so the low part is x - x; for a FINITE x this is 0 (for an infinite x it is not: in the extended
     reals the difference of an infinity with itself is not 0, hence the finiteness hypotheses). The three
     products with a low part then vanish term by term and what is left is the plain sum over the contraction
     index j of a(p, j) * h(j, q) (pay2_apply0, pay2_apply1);
   * the result: the accumulator plus the bias row broadcast over all rows, under max(., 0) in the first
     kernel (pay3_apply0) and as it is in the second (pay3_apply1).
   Shape casts to the same shape are the identity; a block product into the zero constant, read at (p, q), is
   the sum over the one contraction axis, re-indexed from the contraction shape's index to 0 ≤ j < 1024. -/
import proofs.«417435_j16149077033111_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import Mathlib.Data.EReal.Operations

noncomputable section

namespace Cert.KPay

open Cert.KernelIdeal Cert.KernelIdeal.Gen Idealize.ShloMosaic Idealize.ShloMosaic.ValueIdx

/-- The first kernel's initial accumulator: the zero scalar broadcast, so 0 at every index. -/
theorem pay1_apply0 (y : S1024x128.Idx) : k0_pay1 (F := Ideal) y = 0 := by
  unfold k0_pay1
  refine (congrFun (shapeCast_self _ _) y).trans ?_
  show Scalar.ofBits (F := Ideal) .f32 0x00000000#32 = 0
  exact Ideal.ofBits_zero_f32

/-- The second kernel's initial accumulator: 0 at every index. -/
theorem pay1_apply1 (y : S1024x128.Idx) : k1_pay1 (F := Ideal) y = 0 := by
  unfold k1_pay1
  refine (congrFun (shapeCast_self _ _) y).trans ?_
  show Scalar.ofBits (F := Ideal) .f32 0x00000000#32 = 0
  exact Ideal.ofBits_zero_f32

/-- The block product's left operand index at output index `i` and contraction index `q`: its row is the output's row. -/
theorem lhs_kdot_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- Its column is the contraction coordinate. -/
theorem lhs_kdot_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand index: its row is the contraction coordinate. -/
theorem rhs_kdot_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- Its column is the output's column. -/
theorem rhs_kdot_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A [1024,1024] × [1024,128] block product into the zero constant, read at (p, q): the sum over j of a(p, j) * b(j, q).
    The sum over the contraction shape's index is carried to a sum over `Fin 1024` along the bijection that reads
    the one coordinate. -/
theorem kdot_apply (a : FVec Ideal S1024x1024 .bf16) (b : FVec Ideal S1024x128 .bf16) (p : Fin 1024) (q : Fin 128) :
    matmul dot_S1024x1024_S1024x128_S1024x128_1_0_0_1_n_n none a b (constant (F := Ideal) S1024x128 .f32 0x00000000#32) (ix2 p q)
      = ∑ j : Fin 1024, a (ix2 p j) * b (ix2 j q) := by
  refine (Ideal.matmul_constant_zero_apply dot_S1024x1024_S1024x128_S1024x128_1_0_0_1_n_n none a b (ix2 p q)).trans ?_
  rw [← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun ax => Fin.ext (by
    match ax with
    | ⟨0, _⟩ => exact lhs_kdot_0 _ _
    | ⟨1, _⟩ => exact (lhs_kdot_1 _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun ax => Fin.ext (by
    match ax with
    | ⟨0, _⟩ => exact (rhs_kdot_0 _ _).trans hk
    | ⟨1, _⟩ => exact rhs_kdot_1 _ _)
  rw [el, er]

/-- A finite extended real minus itself is zero. -/
private theorem sub_self_fin (x : EReal) (h : x ≠ ⊤ ∧ x ≠ ⊥) : x - x = 0 := EReal.sub_self h.1 h.2

/-- A sum of products whose right factors all vanish. -/
private theorem sum_mul_zero (f g : Fin 1024 → EReal) (hg : ∀ j, g j = 0) : ∑ j : Fin 1024, f j * g j = 0 :=
  Finset.sum_eq_zero fun j _ => by rw [hg j, mul_zero]

private theorem sum_zero_mul (f g : Fin 1024 → EReal) (hf : ∀ j, f j = 0) : ∑ j : Fin 1024, f j * g j = 0 :=
  Finset.sum_eq_zero fun j _ => by rw [hf j, zero_mul]

/-- The four products of the split operands. With the rounding the identity, the low parts are `a - a` and `b - b`,
    which vanish at every index because the entries are finite; the three sums with a low factor are sums of zeros,
    and the high * high sum is the plain block product. -/
theorem four_dots (a : FVec Ideal S1024x1024 .f32) (b : FVec Ideal S1024x128 .f32)
    (ha : ∀ y, a y ≠ ⊤ ∧ a y ≠ ⊥) (hb : ∀ y, b y ≠ ⊤ ∧ b y ≠ ⊥) (p : Fin 1024) (q : Fin 128) :
    addf (addf (addf
      (matmul dot_S1024x1024_S1024x128_S1024x128_1_0_0_1_n_n none (truncf .bf16 a bitsLt_bf16_f32) (truncf .bf16 b bitsLt_bf16_f32) (constant (F := Ideal) S1024x128 .f32 0x00000000#32))
      (matmul dot_S1024x1024_S1024x128_S1024x128_1_0_0_1_n_n none (truncf .bf16 a bitsLt_bf16_f32) (truncf .bf16 (subf b b) bitsLt_bf16_f32) (constant (F := Ideal) S1024x128 .f32 0x00000000#32)))
      (matmul dot_S1024x1024_S1024x128_S1024x128_1_0_0_1_n_n none (truncf .bf16 (subf a a) bitsLt_bf16_f32) (truncf .bf16 b bitsLt_bf16_f32) (constant (F := Ideal) S1024x128 .f32 0x00000000#32)))
      (matmul dot_S1024x1024_S1024x128_S1024x128_1_0_0_1_n_n none (truncf .bf16 (subf a a) bitsLt_bf16_f32) (truncf .bf16 (subf b b) bitsLt_bf16_f32) (constant (F := Ideal) S1024x128 .f32 0x00000000#32))
      (ix2 p q)
      = ∑ j : Fin 1024, a (ix2 p j) * b (ix2 j q) := by
  show matmul _ none _ _ _ (ix2 p q) + matmul _ none _ _ _ (ix2 p q) + matmul _ none _ _ _ (ix2 p q) + matmul _ none _ _ _ (ix2 p q) = _
  rw [kdot_apply, kdot_apply, kdot_apply, kdot_apply]
  have z2 : ∑ j : Fin 1024, (truncf .bf16 a bitsLt_bf16_f32 : FVec Ideal S1024x1024 .bf16) (ix2 p j) * (truncf .bf16 (subf b b) bitsLt_bf16_f32 : FVec Ideal S1024x128 .bf16) (ix2 j q) = 0 :=
    sum_mul_zero _ _ fun j => sub_self_fin _ (hb _)
  have z3 : ∑ j : Fin 1024, (truncf .bf16 (subf a a) bitsLt_bf16_f32 : FVec Ideal S1024x1024 .bf16) (ix2 p j) * (truncf .bf16 b bitsLt_bf16_f32 : FVec Ideal S1024x128 .bf16) (ix2 j q) = 0 :=
    sum_zero_mul _ _ fun j => sub_self_fin _ (ha _)
  have z4 : ∑ j : Fin 1024, (truncf .bf16 (subf a a) bitsLt_bf16_f32 : FVec Ideal S1024x1024 .bf16) (ix2 p j) * (truncf .bf16 (subf b b) bitsLt_bf16_f32 : FVec Ideal S1024x128 .bf16) (ix2 j q) = 0 :=
    sum_zero_mul _ _ fun j => sub_self_fin _ (ha _)
  rw [z2, z3, z4, add_zero, add_zero, add_zero]
  rfl

/-- The first kernel's accumulator update at (p, q): the old accumulator plus the block product's entry. -/
theorem pay2_apply0 (v3 : Vec Ideal S1024x1024 .f32) (v12 v18 : Vec Ideal S1024x128 .f32)
    (h3 : ∀ y, v3 y ≠ ⊤ ∧ v3 y ≠ ⊥) (h12 : ∀ y, v12 y ≠ ⊤ ∧ v12 y ≠ ⊥) (p : Fin 1024) (q : Fin 128) :
    k0_pay2 v3 v12 v18 (ix2 p q) = v18 (ix2 p q) + ∑ j : Fin 1024, v3 (ix2 p j) * v12 (ix2 j q) := by
  unfold k0_pay2
  refine (congrFun (shapeCast_self _ _) (ix2 p q)).trans ?_
  have e3 : shapeCast S1024x1024 v3 shapeCasts_S1024x1024_S1024x1024 = v3 := shapeCast_self _ _
  have e12 : shapeCast S1024x128 v12 shapeCasts_S1024x128_S1024x128 = v12 := shapeCast_self _ _
  simp only [e3, e12]
  exact congrArg (v18 (ix2 p q) + ·) (four_dots v3 v12 h3 h12 p q)

/-- The second kernel's accumulator update at (p, q): the same. -/
theorem pay2_apply1 (v3 : Vec Ideal S1024x1024 .f32) (v12 v18 : Vec Ideal S1024x128 .f32)
    (h3 : ∀ y, v3 y ≠ ⊤ ∧ v3 y ≠ ⊥) (h12 : ∀ y, v12 y ≠ ⊤ ∧ v12 y ≠ ⊥) (p : Fin 1024) (q : Fin 128) :
    k1_pay2 v3 v12 v18 (ix2 p q) = v18 (ix2 p q) + ∑ j : Fin 1024, v3 (ix2 p j) * v12 (ix2 j q) := by
  unfold k1_pay2
  refine (congrFun (shapeCast_self _ _) (ix2 p q)).trans ?_
  have e3 : shapeCast S1024x1024 v3 shapeCasts_S1024x1024_S1024x1024 = v3 := shapeCast_self _ _
  have e12 : shapeCast S1024x128 v12 shapeCasts_S1024x128_S1024x128 = v12 := shapeCast_self _ _
  simp only [e3, e12]
  exact congrArg (v18 (ix2 p q) + ·) (four_dots v3 v12 h3 h12 p q)

/-- The first kernel's result at (p, q): accumulator plus the bias row's entry at q, under max with 0. -/
theorem pay3_apply0 (v33 : Vec Ideal S1024x128 .f32) (v34 : Vec Ideal S1x128 .f32) (p : Fin 1024) (q : Fin 128) :
    k0_pay3 v33 v34 (ix2 p q) = max (v33 (ix2 p q) + v34 (ix2 0 q)) 0 := by
  unfold k0_pay3
  have e : shapeCast S1x128 v34 shapeCasts_S1x128_S1x128 = v34 := shapeCast_self _ _
  simp only [e]
  show max (v33 (ix2 p q) + broadcastTo S1024x128 v34 broadcasts_S1x128_S1024x128 (ix2 p q)) (Scalar.ofBits (F := Ideal) .f32 0x00000000#32) = _
  rw [broadcastTo_1b_ab_apply v34 broadcasts_S1x128_S1024x128 p q]
  exact congrArg (max _ ·) Ideal.ofBits_zero_f32

/-- The second kernel's result at (p, q): accumulator plus the bias row's entry at q. -/
theorem pay3_apply1 (v33 : Vec Ideal S1024x128 .f32) (v34 : Vec Ideal S1x128 .f32) (p : Fin 1024) (q : Fin 128) :
    k1_pay3 v33 v34 (ix2 p q) = v33 (ix2 p q) + v34 (ix2 0 q) := by
  unfold k1_pay3
  have e : shapeCast S1x128 v34 shapeCasts_S1x128_S1x128 = v34 := shapeCast_self _ _
  simp only [e]
  show v33 (ix2 p q) + broadcastTo S1024x128 v34 broadcasts_S1x128_S1024x128 (ix2 p q) = _
  rw [broadcastTo_1b_ab_apply v34 broadcasts_S1x128_S1024x128 p q]

end Cert.KPay

end
-- ==== Proof.SpecLaws.lean ====
/-
  Laws of the layer's two forms (Proof/Spec.lean): ten column blocks make the whole product sum; finiteness is kept by
  sums, products and the positive part; the dense form's rows below 10000 are the edge form's.
-/
import proofs.«417435_j16149077033111_3_alg».proof.Proof.Spec
import Mathlib.Data.EReal.Basic
import Mathlib.Data.EReal.Operations
import Mathlib.Data.Fintype.BigOperators
import Mathlib.Logic.Equiv.Fin.Basic
import Mathlib.Algebra.BigOperators.Fin

noncomputable section

open scoped BigOperators

namespace Cert.Spec

open Idealize.ShloMosaic Idealize.ShloMosaic.ValueIdx

/-! ## Regrouping a sum into equal blocks -/

/-- Position j of block k lies inside the whole range. -/
private theorem block_lt {m n : ℕ} (k : Fin m) (j : Fin n) : n * k.val + j.val < m * n := by
  calc n * k.val + j.val < n * k.val + n := Nat.add_lt_add_left j.isLt _
    _ = n * (k.val + 1) := (Nat.mul_succ _ _).symm
    _ ≤ n * m := Nat.mul_le_mul_left _ k.isLt
    _ = m * n := Nat.mul_comm _ _

/-- A sum over m·n positions is the sum over m blocks of the sums over the n positions of each block. -/
private theorem sum_blocks {M : Type} [AddCommMonoid M] {N : ℕ} (m n : ℕ) (hN : m * n = N) (f : Fin N → M) :
    ∑ i, f i = ∑ k : Fin m, ∑ j : Fin n, f ⟨n * k.val + j.val, hN ▸ block_lt k j⟩ := by
  subst hN
  rw [← (finProdFinEquiv (m := m) (n := n)).sum_comp f, Fintype.sum_prod_type]
  refine Finset.sum_congr rfl fun k _ => Finset.sum_congr rfl fun j _ => ?_
  congr 1
  apply Fin.ext
  simp only [finProdFinEquiv_apply_val]
  exact Nat.add_comm _ _

/-- The accumulation after n steps is the sum of the first n blocks (blocks past the tenth are empty). -/
private theorem accK_eq_sum_range (A : SA.Idx → EReal) (h : SP.Idx → EReal) (r : Fin 10240) (q : Fin 128) (n : ℕ) :
    accK A h r q n = ∑ k ∈ Finset.range n, (if hn : k < 10 then blockSum A h r q ⟨k, hn⟩ else 0) := by
  induction n with
  | zero => rfl
  | succ n ih => rw [Finset.sum_range_succ, ← ih]; rfl

/-- Ten blocks make the whole sum (only regrouping: no finiteness needed). -/
theorem accK_ten (A : SA.Idx → EReal) (h : SP.Idx → EReal) (r : Fin 10240) (q : Fin 128) :
    accK A h r q 10 = ∑ j : Fin 10240, A (ix2 r j) * h (ix2 j q) := by
  rw [accK_eq_sum_range, ← Finset.sum_fin_eq_sum_range (fun k : Fin 10 => blockSum A h r q k)]
  rw [sum_blocks 10 1024 (by norm_num) (fun j : Fin 10240 => A (ix2 r j) * h (ix2 j q))]
  rfl

/-! ## Finiteness is kept by everything the programs do -/

theorem finite_add {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩
theorem finite_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩
theorem finite_max_zero {x : EReal} (hx : x ≠ ⊤ ∧ x ≠ ⊥) : max x 0 ≠ ⊤ ∧ max x 0 ≠ ⊥ := by
  rcases max_choice x 0 with h | h <;> rw [h]
  · exact hx
  · exact ⟨EReal.zero_ne_top, EReal.zero_ne_bot⟩
theorem finite_zero : (0 : EReal) ≠ ⊤ ∧ (0 : EReal) ≠ ⊥ :=
  ⟨EReal.zero_ne_top, EReal.zero_ne_bot⟩
theorem finite_sum {ι : Type} (s : Finset ι) (f : ι → EReal) (hf : ∀ i ∈ s, f i ≠ ⊤ ∧ f i ≠ ⊥) :
    (∑ i ∈ s, f i) ≠ ⊤ ∧ (∑ i ∈ s, f i) ≠ ⊥ := by
  classical
  revert hf
  refine Finset.induction_on s ?_ ?_
  · intro _; rw [Finset.sum_empty]; exact finite_zero
  · intro a t ha ih hf
    rw [Finset.sum_insert ha]
    exact finite_add (hf a (Finset.mem_insert_self a t)) (ih fun i hi => hf i (Finset.mem_insert_of_mem hi))
theorem finite_act (relu : Bool) {x : EReal} (hx : x ≠ ⊤ ∧ x ≠ ⊥) : act relu x ≠ ⊤ ∧ act relu x ≠ ⊥ := by
  unfold act
  cases relu
  · exact hx
  · exact finite_max_zero hx
/-- A finite number minus itself is zero. -/
theorem sub_self_of_finite {x : EReal} (hx : x ≠ ⊤ ∧ x ≠ ⊥) : x - x = 0 := by
  lift x to ℝ using hx
  rw [← EReal.coe_sub, sub_self, EReal.coe_zero]

theorem adj_finite (rw cl : SE.Idx → BitVec 32) (nrm : SE.Idx → EReal) (hn : Finite nrm) : Finite (adj rw cl nrm) := by
  intro y
  unfold adj
  refine finite_add finite_zero (finite_sum _ _ fun e _ => ?_)
  split_ifs
  · exact hn _
  · exact finite_zero

theorem layerK_finite (relu : Bool) (A : SA.Idx → EReal) (h : SP.Idx → EReal) (b : SB.Idx → EReal)
    (hA : Finite A) (hh : Finite h) (hb : Finite b) (r : Fin 10240) (q : Fin 128) :
    layerK relu A h b r q ≠ ⊤ ∧ layerK relu A h b r q ≠ ⊥ := by
  unfold layerK
  exact finite_act relu (finite_add (finite_sum _ _ fun j _ => finite_mul (hA _) (hh _)) (hb _))

/-! ## The two forms of a layer agree -/

/-- A finite extended real is a real number. -/
private theorem exists_real {x : EReal} (hx : x ≠ ⊤ ∧ x ≠ ⊥) : ∃ t : ℝ, x = (t : EReal) := by
  lift x to ℝ using hx
  exact ⟨x, rfl⟩

/-- The embedding of the reals commutes with finite sums. -/
private theorem coe_sum {ι : Type} (s : Finset ι) (a : ι → ℝ) :
    ∑ i ∈ s, (a i : EReal) = ((∑ i ∈ s, a i : ℝ) : EReal) := by
  classical
  refine Finset.induction_on s ?_ ?_
  · rw [Finset.sum_empty, Finset.sum_empty, EReal.coe_zero]
  · intro x t hx ih
    rw [Finset.sum_insert hx, Finset.sum_insert hx, ih, EReal.coe_add]

/-- The exchange of sums over the reals: for each edge the inner sum over the columns keeps the single column that is
    the edge's source node. -/
private theorem real_bridge (rw cl : SE.Idx → BitVec 32) (ρ : Fin 650000 → Fin 10000)
    (hρ : ∀ e, ((ρ e).val : ℤ) = (rw (ix1 e)).toInt) (f : Fin 650000 → ℝ) (g : Fin 10240 → ℝ) (i : Fin 10000) :
    ∑ j : Fin 10240, (∑ e : Fin 650000,
        if (cl (ix1 e)).toInt = (i.val : ℤ) ∧ (rw (ix1 e)).toInt = (j.val : ℤ) then f e else 0) * g j
      = ∑ e : Fin 650000, if (cl (ix1 e)).toInt = (i.val : ℤ) then g ⟨(ρ e).val, by omega⟩ * f e else 0 := by
  simp only [Finset.sum_mul]
  rw [Finset.sum_comm]
  refine Finset.sum_congr rfl fun e _ => ?_
  by_cases hc : (cl (ix1 e)).toInt = (i.val : ℤ)
  · simp only [hc, true_and, if_true]
    rw [Finset.sum_eq_single (⟨(ρ e).val, by omega⟩ : Fin 10240)]
    · rw [if_pos (hρ e).symm]; exact mul_comm _ _
    · intro j _ hj
      rw [if_neg, zero_mul]
      intro hh
      apply hj
      apply Fin.ext
      have := hρ e
      show j.val = (ρ e).val
      omega
    · intro hx; exact absurd (Finset.mem_univ _) hx
  · simp only [hc, false_and, if_false, zero_mul, Finset.sum_const_zero]

/-- THE BRIDGE.  With every endpoint a node, the weights and the padded features finite, the padded features equal
    to the features on the first 10000 rows, the row index `ρ e` the edge's source node and the two biases the same
    numbers: the dense form's row i (i < 10000) is the edge form's. -/
theorem layer_bridge (relu : Bool) (rw cl : SE.Idx → BitVec 32) (nrm : SE.Idx → EReal)
    (hp : SP.Idx → EReal) (H : SN.Idx → EReal) (bK : SB.Idx → EReal) (bR : SV.Idx → EReal) (ρ : Fin 650000 → Fin 10000)
    (hr : InRange rw cl) (hρ : ∀ e, ((ρ e).val : ℤ) = (rw (ix1 e)).toInt)
    (hn : Finite nrm) (hhp : Finite hp)
    (hH : ∀ (j : Fin 10000) (q : Fin 128), hp (ix2 ⟨j.val, by omega⟩ q) = H (ix2 j q))
    (hb : ∀ q : Fin 128, bK (ix2 0 q) = bR (ix1 q))
    (i : Fin 10000) (q : Fin 128) :
    layerK relu (adj rw cl nrm) hp bK ⟨i.val, by omega⟩ q = layerR relu cl nrm H bR ρ i q := by
  have _ := hr
  choose f hf using fun e : Fin 650000 => exists_real (hn (ix1 e))
  choose g hg using fun j : Fin 10240 => exists_real (hhp (ix2 j q))
  unfold layerK layerR adj
  rw [hb q]
  refine congrArg (fun x => act relu (x + bR (ix1 q))) ?_
  have hL : ∀ j : Fin 10240,
      (0 + ∑ e : Fin 650000,
        if (cl (ix1 e)).toInt = (i.val : ℤ) ∧ (rw (ix1 e)).toInt = (j.val : ℤ) then nrm (ix1 e) else 0) * hp (ix2 j q)
      = (((∑ e : Fin 650000,
        if (cl (ix1 e)).toInt = (i.val : ℤ) ∧ (rw (ix1 e)).toInt = (j.val : ℤ) then f e else 0) * g j : ℝ) : EReal) := by
    intro j
    have hI : ∀ e : Fin 650000,
        (if (cl (ix1 e)).toInt = (i.val : ℤ) ∧ (rw (ix1 e)).toInt = (j.val : ℤ) then nrm (ix1 e) else 0)
        = ((if (cl (ix1 e)).toInt = (i.val : ℤ) ∧ (rw (ix1 e)).toInt = (j.val : ℤ) then f e else 0 : ℝ) : EReal) := by
      intro e
      rw [hf e]
      split_ifs <;> simp
    rw [zero_add, Finset.sum_congr rfl fun e _ => hI e, coe_sum, hg j, EReal.coe_mul]
  have hR : ∀ e : Fin 650000,
      (if (cl (ix1 e)).toInt = (i.val : ℤ) then H (ix2 (ρ e) q) * nrm (ix1 e) else 0)
      = ((if (cl (ix1 e)).toInt = (i.val : ℤ) then g ⟨(ρ e).val, by omega⟩ * f e else 0 : ℝ) : EReal) := by
    intro e
    rw [← hH (ρ e) q, hg, hf e]
    split_ifs <;> simp
  show ∑ j : Fin 10240, (0 + ∑ e : Fin 650000,
        if (cl (ix1 e)).toInt = (i.val : ℤ) ∧ (rw (ix1 e)).toInt = (j.val : ℤ) then nrm (ix1 e) else 0) * hp (ix2 j q)
      = 0 + ∑ e : Fin 650000, if (cl (ix1 e)).toInt = (i.val : ℤ) then H (ix2 (ρ e) q) * nrm (ix1 e) else 0
  rw [zero_add, Finset.sum_congr rfl fun j _ => hL j, Finset.sum_congr rfl fun e _ => hR e, coe_sum, coe_sum,
    real_bridge rw cl ρ hρ f g i]

end Cert.Spec

end
-- ==== Proof.KI0Value.lean ====
/- The value the first layer's aggregation region leaves in an output tile, over the extended reals.

   The kernel walks a grid of 10 row tiles i by 10 column blocks k (point t = 10 i + k).  At every point it adds to a
   carried accumulator the product of the adjacency tile (i, k), [1024, 1024], with rows 1024 k … 1024 k + 1023 of the
   feature matrix, [1024, 128]; at k = 0 the accumulator is first reset to zero; at k = 9 the output tile is stored as
   max(accumulator + bias row, 0).

   Here, in this order:
   * the printed index maps decided over the grid, and each window's block read at an index as an entry of the
     window's array (block coordinate = block index × block size + coordinate inside the block);
   * what each of the three whole-body runs leaves in the accumulator and in the output tile's buffer, as the
     kernel's payloads of the loaded blocks (one covering store each; the reset then the update at k = 0);
   * at the extended reals, with the adjacency and the features finite: after point t = 10 i + k the accumulator
     holds, at (p, q), the sum of the first k + 1 column blocks of row 1024 i + p of the product (induction on the
     point; the payload's block product at an index is the plain sum because the split operands' low parts vanish
     on finite entries);
   * so at k = 9 the output tile holds, at (p, q), row 1024 i + p of the layer through the dense matrix: ten blocks
     make the whole sum, then the bias and the positive part. -/
import proofs.«417435_j16149077033111_3_alg».proof.Proof.KI0Body
import proofs.«417435_j16149077033111_3_alg».proof.Proof.KPay
import proofs.«417435_j16149077033111_3_alg».proof.Proof.Spec
import proofs.«417435_j16149077033111_3_alg».proof.Proof.SpecLaws
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.ValueIdx Idealize.ShloMosaic.TcCoe Idealize.ShloMosaic.Tactic Idealize.SL.Sem

variable {F : FTy → Type} [FloatOps F]

/-- The zero offsets, however spelt. -/
theorem hz2 : (![0, 0] : Fin 2 → Nat) = fun _ => 0 := funext fun a => by fin_cases a <;> rfl

-- what the unscoped buffers hold when the region is entered
variable (V : (c : Dev nD) → (b : Ref sig .tc) → Buf (Elt F) ((c : Thread nD τ).loc b))

/-! ## Blocks read at an index -/

/-- The printed index maps over the grid: point t = 10 i + k sits at row tile i, column block k. -/
theorem idx_facts0 : ∀ t : Fin cfg0.N, win0_0.index t (0 : Fin 2) = t.val / 10 ∧ win0_0.index t (1 : Fin 2) = t.val % 10
    ∧ win0_1.index t (0 : Fin 2) = 0 ∧ win0_1.index t (1 : Fin 2) = 0
    ∧ win0_2.index t (0 : Fin 2) = 0 ∧ win0_2.index t (1 : Fin 2) = 0
    ∧ ((grid0.coords t) 1).val = t.val % 10 ∧ ((grid0.coords t) 0).val = t.val / 10 :=
  (by decide +kernel : ∀ t : Fin grid0.N, _)

/-- The adjacency, the features and the bias row as the region finds them, and the three input windows' blocks at a
    point, each at its literal type. -/
abbrev arrA (c : Dev nD) : Vec F S10240x10240 .f32 := V c main_v46
abbrev arrH (c : Dev nD) : Vec F S10240x128 .f32 := V c main_v48
abbrev arrB (c : Dev nD) : Vec F S1x128 .f32 := V c main_v49
abbrev blkA (c : Dev nD) (t : Fin cfg0.N) : Vec F S1024x1024 .f32 := blk0 V c 0 t
abbrev blkH (c : Dev nD) (t : Fin cfg0.N) : Vec F S10240x128 .f32 := blk0 V c 1 t
abbrev blkB (c : Dev nD) (t : Fin cfg0.N) : Vec F S1x128 .f32 := blk0 V c 2 t

/-- Entry (p, j) of the adjacency tile at point t = 10 i + k is entry (1024 i + p, 1024 k + j) of the adjacency. -/
theorem blkA_apply (c : Dev nD) (t : Fin cfg0.N) (p j : Fin 1024) (r s : Fin 10240)
    (hr : r.val = 1024 * (t.val / 10) + p.val) (hs : s.val = 1024 * (t.val % 10) + j.val) :
    blkA V c t (ix2 p j) = arrA V c (ix2 r s) := by
  obtain ⟨e0, e1, -⟩ := idx_facts0 t
  show V c main_v46 (((cfg0.win 0).blk t).view.emb (ix2 p j)) = V c main_v46 (ix2 r s)
  refine congrArg (V c main_v46) (funext fun a => Fin.ext ?_)
  match a with
  | ⟨0, _⟩ => show win0_0.index t (0 : Fin 2) * 1024 + 1 * p.val = r.val; omega
  | ⟨1, _⟩ => show win0_0.index t (1 : Fin 2) * 1024 + 1 * j.val = s.val; omega

/-- The feature window holds the whole matrix at every point. -/
theorem blkH_apply (c : Dev nD) (t : Fin cfg0.N) (r : Fin 10240) (q : Fin 128) :
    blkH V c t (ix2 r q) = arrH V c (ix2 r q) := by
  obtain ⟨-, -, e0, e1, -⟩ := idx_facts0 t
  show V c main_v48 (((cfg0.win 1).blk t).view.emb (ix2 r q)) = V c main_v48 (ix2 r q)
  refine congrArg (V c main_v48) (funext fun a => Fin.ext ?_)
  match a with
  | ⟨0, _⟩ => show win0_1.index t (0 : Fin 2) * 10240 + 1 * r.val = r.val; omega
  | ⟨1, _⟩ => show win0_1.index t (1 : Fin 2) * 128 + 1 * q.val = q.val; omega

/-- The bias window holds the whole row at every point. -/
theorem blkB_apply (c : Dev nD) (t : Fin cfg0.N) (q : Fin 128) :
    blkB V c t (ix2 0 q) = arrB V c (ix2 0 q) := by
  obtain ⟨-, -, -, -, e0, e1, -⟩ := idx_facts0 t
  show V c main_v49 (((cfg0.win 2).blk t).view.emb (ix2 0 q)) = V c main_v49 (ix2 0 q)
  refine congrArg (V c main_v49) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The rows the body loads of the feature matrix at column block k = (i 1): rows 1024 k … 1024 k + 1023. -/
abbrev rows0 (i : grid0.Coords) (x1 : Vec F S10240x128 .f32) : Vec F S1024x128 .f32 :=
  View.ld x1 (Rect.unit (s := S10240x128) (k0_off1 i) S1024x128.size (k0_off1_inb i))

/-- The load's offsets over the grid: row 1024 k, column 0. -/
theorem off1_facts : ∀ t : Fin cfg0.N, k0_off1 (grid0.coords t) = ![1024 * (t.val % 10), 0] :=
  (by decide +kernel : ∀ t : Fin grid0.N, _)

/-- Entry (p, q) of the loaded rows at point t = 10 i + k is entry (1024 k + p, q) of the matrix loaded from. -/
theorem rows0_apply (t : Fin cfg0.N) (x1 : Vec F S10240x128 .f32) (p : Fin 1024) (q : Fin 128) (r : Fin 10240)
    (hr : r.val = 1024 * (t.val % 10) + p.val) :
    rows0 (grid0.coords t) x1 (ix2 p q) = x1 (ix2 r q) := by
  show x1 ((Rect.unit (s := S10240x128) (k0_off1 (grid0.coords t)) S1024x128.size (k0_off1_inb (grid0.coords t))).idx (ix2 p q)) = x1 (ix2 r q)
  refine congrArg x1 (funext fun a => Fin.ext ?_)
  have e := off1_facts t
  match a with
  | ⟨0, _⟩ => show (k0_off1 (grid0.coords t)) 0 + 1 * p.val = r.val; rw [e]; show 1024 * (t.val % 10) + 1 * p.val = r.val; omega
  | ⟨1, _⟩ => show (k0_off1 (grid0.coords t)) 1 + 1 * q.val = q.val; rw [e]; show 0 + 1 * q.val = q.val; omega

/-! ## What each run leaves, as the kernel's payloads of the loaded blocks -/

/-- A middle column block: the accumulator ends at the update of what it held. -/
theorem accMid0_eq (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : ¬last0 i) (x0 : Vec F S1024x1024 .f32) (x1 : Vec F S10240x128 .f32) (x2 : Vec F S1x128 .f32) (acc : Vec F S1024x128 .f32) :
    accMid0 c i arg2 harg2 arg3 harg3 arg4 harg4 arg5 harg5 arg6 harg6 hf hl x0 x1 x2 acc = k0_pay2 x0 (rows0 i x1) acc := by
  unfold accMid0
  rw [View.read_writes_eq_canon _ _ _ (accMid0_cover c i arg2 harg2 arg3 harg3 arg4 harg4 arg5 harg5 arg6 harg6 hf hl x0 x1 x2 acc)]
  unfold runMid0
  dsimp only
  sl_unfold_words
  rw [View.canon_unit_zero hz2]
  simp only [View.readAt_eq_ld, harg2.read_unread, harg3.read_unread, harg6.read_unread, View.ld_unit_zero (S := S1024x1024) hz2, View.ld_unit_zero (S := S1024x128) hz2]
  rfl

/-- The first column block: the accumulator is reset to the zero block, read back, and updated. -/
theorem accFirst0_eq (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first0 i) (hl : ¬last0 i) (x0 : Vec F S1024x1024 .f32) (x1 : Vec F S10240x128 .f32) (x2 : Vec F S1x128 .f32) :
    accFirst0 c i arg2 harg2 arg3 harg3 arg4 harg4 arg5 harg5 arg6 harg6 hf hl x0 x1 x2 = k0_pay2 x0 (rows0 i x1) k0_pay1 := by
  unfold accFirst0
  rw [View.read_writes_eq_canon _ _ _ (accFirst0_cover c i arg2 harg2 arg3 harg3 arg4 harg4 arg5 harg5 arg6 harg6 hf hl x0 x1 x2)]
  unfold runFirst0
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x1024) hz2, View.ld_unit_zero (S := S1024x128) hz2]
  rfl

/-- The last column block: the accumulator is updated as at every block. -/
theorem accLast0_eq (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) :
    accLast0 c i arg2 harg2 arg3 harg3 arg4 harg4 arg5 harg5 arg6 harg6 hf hl x0 x1 x2 acc = k0_pay2 x0 (rows0 i x1) acc := by
  unfold accLast0
  rw [View.read_writes_eq_canon _ _ _ (accLast0_cover c i arg2 harg2 arg3 harg3 arg4 harg4 arg5 harg5 arg6 harg6 hf hl x0 x1 x2 acc)]
  unfold runLast0
  dsimp only
  sl_unfold_words
  rw [View.canon_unit_zero hz2]
  simp only [View.readAt_eq_ld, harg2.read_unread, harg3.read_unread, harg6.read_unread, View.ld_unit_zero (S := S1024x1024) hz2, View.ld_unit_zero (S := S1024x128) hz2]
  rfl

/-- The last column block: the output tile is stored from the updated accumulator, read back, and the bias row. -/
theorem outLast0_eq (c : Dev nD) (i : grid0.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first0 i) (hl : last0 i) (x0 : Vec F S1024x1024 .f32) (x1 : Vec F S10240x128 .f32) (x2 : Vec F S1x128 .f32) (acc : Vec F S1024x128 .f32) :
    outLast0 c i arg2 harg2 arg3 harg3 arg4 harg4 arg5 harg5 arg6 harg6 hf hl x0 x1 x2 acc = k0_pay3 (k0_pay2 x0 (rows0 i x1) acc) x2 := by
  unfold outLast0
  rw [View.read_writes_eq_canon _ _ _ (outLast0_cover c i arg2 harg2 arg3 harg3 arg4 harg4 arg5 harg5 arg6 harg6 hf hl x0 x1 x2 acc)]
  unfold runLast0
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x1024) hz2, View.ld_unit_zero (S := S1024x128) hz2, View.ld_unit_zero (S := S1x128) hz2]
  rfl

/-! ## The value, at the extended reals -/

section Value

variable (V : (c : Dev nD) → (b : Ref sig .tc) → Buf (Elt Ideal) ((c : Thread nD τ).loc b))

/-- Entries of an adjacency tile are entries of the adjacency: finite with it. -/
theorem blkA_finite (c : Dev nD) (hA : ∀ y, arrA V c y ≠ ⊤ ∧ arrA V c y ≠ ⊥) (t : Fin cfg0.N) :
    ∀ y, blkA V c t y ≠ ⊤ ∧ blkA V c t y ≠ ⊥ :=
  fun y => hA (((cfg0.win 0).blk t).view.emb y)

/-- Entries of the loaded rows are entries of the feature matrix: finite with it. -/
theorem rows_finite (c : Dev nD) (hh : ∀ y, arrH V c y ≠ ⊤ ∧ arrH V c y ≠ ⊥) (t : Fin cfg0.N) :
    ∀ y, rows0 (grid0.coords t) (blkH V c t) y ≠ ⊤ ∧ rows0 (grid0.coords t) (blkH V c t) y ≠ ⊥ :=
  fun y => hh (((cfg0.win 1).blk t).view.emb ((Rect.unit (s := S10240x128) (k0_off1 (grid0.coords t)) S1024x128.size (k0_off1_inb (grid0.coords t))).idx y))

/-- One accumulation step at point t = 10 i + k, row p of the tile, column q: an accumulator holding the first k
    blocks' sum of row 1024 i + p, plus the tile's row times the loaded rows' column, holds the first k + 1 blocks' sum. -/
theorem acc_step (c : Dev nD) (t : Fin cfg0.N) (p : Fin 1024) (q : Fin 128) (r : Fin 10240)
    (hr : r.val = 1024 * (t.val / 10) + p.val) (a : EReal)
    (ha : a = Cert.Spec.accK (arrA V c) (arrH V c) r q (t.val % 10)) :
    a + ∑ j : Fin 1024, blkA V c t (ix2 p j) * rows0 (grid0.coords t) (blkH V c t) (ix2 j q)
      = Cert.Spec.accK (arrA V c) (arrH V c) r q (t.val % 10 + 1) := by
  subst ha
  have hk : t.val % 10 < 10 := Nat.mod_lt _ (by decide)
  show _ = Cert.Spec.accK (arrA V c) (arrH V c) r q (t.val % 10)
    + (if hn : t.val % 10 < 10 then Cert.Spec.blockSum (arrA V c) (arrH V c) r q ⟨t.val % 10, hn⟩ else 0)
  rw [dif_pos hk]
  refine congrArg (Cert.Spec.accK (arrA V c) (arrH V c) r q (t.val % 10) + ·) ?_
  unfold Cert.Spec.blockSum
  refine Finset.sum_congr rfl fun j _ => ?_
  exact congrArg₂ (· * ·) (blkA_apply V c t p j r _ hr rfl) ((rows0_apply t _ j q _ rfl).trans (blkH_apply V c t _ q))

/-- THE ACCUMULATOR after point n = 10 i + k holds, at (p, q), the first k + 1 column blocks' sum of row 1024 i + p of
    the product: by induction on the point. -/
theorem acc_inv (c : Dev nD) (hA : ∀ y, arrA V c y ≠ ⊤ ∧ arrA V c y ≠ ⊥) (hh : ∀ y, arrH V c y ≠ ⊤ ∧ arrH V c y ≠ ⊥) :
    ∀ (n : ℕ) (hn : n < cfg0.N) (p : Fin 1024) (q : Fin 128) (r : Fin 10240), r.val = 1024 * (n / 10) + p.val →
      (stAt0 V c n hn).2 (ix2 p q) = Cert.Spec.accK (arrA V c) (arrH V c) r q (n % 10 + 1) := by
  intro n
  induction n with
  | zero =>
    intro hn p q r hr
    let t : Fin cfg0.N := ⟨0, hn⟩
    have h0 : t.val % 10 = 0 := Nat.zero_mod _
    have hf : first0 (grid0.coords t) := (first0_iff t).mpr h0
    have hl : ¬last0 (grid0.coords t) := fun h => by have := (last0_iff t).mp h; omega
    rw [stAt0_first V c t h0]; dsimp only
    refine (congrFun (accFirst0_eq (F := Ideal) c (grid0.coords t) (mA0 t) (hA0 t) (mH0 t) (hH0 t) (mB0 t) (hB0 t) (mO0 t) (hO0 t) accM0 (Memref.isWhole_whole _) hf hl (blkA V c t) (blkH V c t) (blkB V c t)) (ix2 p q)).trans ?_
    refine (KPay.pay2_apply0 (blkA V c t) (rows0 (grid0.coords t) (blkH V c t)) (k0_pay1 (F := Ideal)) (blkA_finite V c hA t) (rows_finite V c hh t) p q).trans ?_
    exact acc_step V c t p q r hr _ (by rw [KPay.pay1_apply0, h0]; rfl)
  | succ n ih =>
    intro hn p q r hr
    have hN : cfg0.N = 100 := N_0
    let t : Fin cfg0.N := ⟨n + 1, hn⟩
    by_cases h0 : t.val % 10 = 0
    · have hf : first0 (grid0.coords t) := (first0_iff t).mpr h0
      have hl : ¬last0 (grid0.coords t) := fun h => by have := (last0_iff t).mp h; omega
      rw [stAt0_first V c t h0]; dsimp only
      refine (congrFun (accFirst0_eq (F := Ideal) c (grid0.coords t) (mA0 t) (hA0 t) (mH0 t) (hH0 t) (mB0 t) (hB0 t) (mO0 t) (hO0 t) accM0 (Memref.isWhole_whole _) hf hl (blkA V c t) (blkH V c t) (blkB V c t)) (ix2 p q)).trans ?_
      refine (KPay.pay2_apply0 (blkA V c t) (rows0 (grid0.coords t) (blkH V c t)) (k0_pay1 (F := Ideal)) (blkA_finite V c hA t) (rows_finite V c hh t) p q).trans ?_
      exact acc_step V c t p q r hr _ (by rw [KPay.pay1_apply0, h0]; rfl)
    · have hf : ¬first0 (grid0.coords t) := fun h => h0 ((first0_iff t).mp h)
      have hprev : prevAcc0 V c t (ix2 p q) = Cert.Spec.accK (arrA V c) (arrH V c) r q (t.val % 10) :=
        (ih (Nat.lt_of_succ_lt hn) p q r (by have : t.val = n + 1 := rfl; omega)).trans
          (congrArg (Cert.Spec.accK (arrA V c) (arrH V c) r q) (by have : t.val = n + 1 := rfl; omega))
      by_cases h9 : t.val % 10 = 9
      · have hl : last0 (grid0.coords t) := (last0_iff t).mpr h9
        rw [stAt0_last V c t h0 h9]; dsimp only
        refine (congrFun (accLast0_eq (F := Ideal) c (grid0.coords t) (mA0 t) (hA0 t) (mH0 t) (hH0 t) (mB0 t) (hB0 t) (mO0 t) (hO0 t) accM0 (Memref.isWhole_whole _) hf hl (blkA V c t) (blkH V c t) (blkB V c t) (prevAcc0 V c t)) (ix2 p q)).trans ?_
        refine (KPay.pay2_apply0 (blkA V c t) (rows0 (grid0.coords t) (blkH V c t)) (prevAcc0 V c t) (blkA_finite V c hA t) (rows_finite V c hh t) p q).trans ?_
        exact acc_step V c t p q r hr _ hprev
      · have hl : ¬last0 (grid0.coords t) := fun h => h9 ((last0_iff t).mp h)
        rw [stAt0_mid V c t h0 h9]; dsimp only
        refine (congrFun (accMid0_eq (F := Ideal) c (grid0.coords t) (mA0 t) (hA0 t) (mH0 t) (hH0 t) (mB0 t) (hB0 t) (mO0 t) (hO0 t) accM0 (Memref.isWhole_whole _) hf hl (blkA V c t) (blkH V c t) (blkB V c t) (prevAcc0 V c t)) (ix2 p q)).trans ?_
        refine (KPay.pay2_apply0 (blkA V c t) (rows0 (grid0.coords t) (blkH V c t)) (prevAcc0 V c t) (blkA_finite V c hA t) (rows_finite V c hh t) p q).trans ?_
        exact acc_step V c t p q r hr _ hprev

/-- THE OUTPUT TILE at a point of the last column block: row 1024 i + p of the layer through the dense matrix. -/
theorem tile0 (c : Dev nD)
    (hA : ∀ y, arrA V c y ≠ ⊤ ∧ arrA V c y ≠ ⊥)
    (hh : ∀ y, arrH V c y ≠ ⊤ ∧ arrH V c y ≠ ⊥)
    (t : Fin cfg0.N) (h9 : t.val % 10 = 9) (p : Fin 1024) (q : Fin 128) :
    (stAt0 V c t.val t.isLt).1 (ix2 p q)
      = Cert.Spec.layerK true (V c main_v46) (V c main_v48) (V c main_v49)
          ⟨1024 * (t.val / 10) + p.val, by have := t.isLt; have : cfg0.N = 100 := N_0; omega⟩ q := by
  have hN : cfg0.N = 100 := N_0
  have h0 : ¬t.val % 10 = 0 := by omega
  have hf : ¬first0 (grid0.coords t) := fun h => h0 ((first0_iff t).mp h)
  have hl : last0 (grid0.coords t) := (last0_iff t).mpr h9
  have hlt : 1024 * (t.val / 10) + p.val < 10240 := by have := t.isLt; omega
  have hprev : prevAcc0 V c t (ix2 p q) = Cert.Spec.accK (arrA V c) (arrH V c) ⟨1024 * (t.val / 10) + p.val, hlt⟩ q (t.val % 10) :=
    (acc_inv V c hA hh (t.val - 1) (Nat.lt_of_le_of_lt (Nat.sub_le _ _) t.isLt) p q ⟨1024 * (t.val / 10) + p.val, hlt⟩
      (by show 1024 * (t.val / 10) + p.val = 1024 * ((t.val - 1) / 10) + p.val; omega)).trans
      (congrArg (Cert.Spec.accK (arrA V c) (arrH V c) ⟨1024 * (t.val / 10) + p.val, hlt⟩ q) (by omega))
  rw [stAt0_last V c t h0 h9]; dsimp only
  refine (congrFun (outLast0_eq (F := Ideal) c (grid0.coords t) (mA0 t) (hA0 t) (mH0 t) (hH0 t) (mB0 t) (hB0 t) (mO0 t) (hO0 t) accM0 (Memref.isWhole_whole _) hf hl (blkA V c t) (blkH V c t) (blkB V c t) (prevAcc0 V c t)) (ix2 p q)).trans ?_
  refine (KPay.pay3_apply0 (k0_pay2 (blkA V c t) (rows0 (grid0.coords t) (blkH V c t)) (prevAcc0 V c t)) (blkB V c t) p q).trans ?_
  have hacc : k0_pay2 (blkA V c t) (rows0 (grid0.coords t) (blkH V c t)) (prevAcc0 V c t) (ix2 p q)
      = Cert.Spec.accK (arrA V c) (arrH V c) ⟨1024 * (t.val / 10) + p.val, hlt⟩ q 10 :=
    ((KPay.pay2_apply0 (blkA V c t) (rows0 (grid0.coords t) (blkH V c t)) (prevAcc0 V c t) (blkA_finite V c hA t) (rows_finite V c hh t) p q).trans
      (acc_step V c t p q ⟨1024 * (t.val / 10) + p.val, hlt⟩ rfl _ hprev)).trans
      (congrArg (Cert.Spec.accK (arrA V c) (arrH V c) ⟨1024 * (t.val / 10) + p.val, hlt⟩ q) (by omega))
  rw [hacc, blkB_apply V c t q, Cert.Spec.accK_ten]
  unfold Cert.Spec.layerK Cert.Spec.act
  rw [if_pos rfl]

end Value

end Cert.KernelIdeal.Fr

end
-- ==== Proof.KI1Value.lean ====
/- The value the second layer's aggregation region leaves in an output tile, over the extended reals.

   The second kernel is the first one without the positive part: a grid of 10 row tiles i by 10 column blocks k
   (point t = 10 i + k); at every point the carried accumulator gains the product of the adjacency tile (i, k),
   [1024, 1024], with rows 1024 k … 1024 k + 1023 of the second layer's feature matrix, [1024, 128]; at k = 0 the
   accumulator is first reset to zero; at k = 9 the output tile is stored as accumulator + bias row.

   Here, in this order:
   * the printed index maps decided over the grid, and each window's block read at an index as an entry of the
     window's array (block coordinate = block index × block size + coordinate inside the block);
   * what each of the three whole-body runs leaves in the accumulator and in the output tile's buffer, as the
     kernel's payloads of the loaded blocks (one covering store each; the reset then the update at k = 0);
   * at the extended reals, with the adjacency and the features finite: after point t = 10 i + k the accumulator
     holds, at (p, q), the sum of the first k + 1 column blocks of row 1024 i + p of the product (induction on the
     point);
   * so at k = 9 the output tile holds, at (p, q), row 1024 i + p of the layer through the dense matrix with the
     identity as activation: ten blocks make the whole sum, then the bias. -/
import proofs.«417435_j16149077033111_3_alg».proof.Proof.KI1Body
import proofs.«417435_j16149077033111_3_alg».proof.Proof.KPay
import proofs.«417435_j16149077033111_3_alg».proof.Proof.Spec
import proofs.«417435_j16149077033111_3_alg».proof.Proof.SpecLaws
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.ValueIdx Idealize.ShloMosaic.TcCoe Idealize.ShloMosaic.Tactic Idealize.SL.Sem

variable {F : FTy → Type} [FloatOps F]

/-- The zero offsets, however spelt. -/
theorem hz2_1 : (![0, 0] : Fin 2 → Nat) = fun _ => 0 := funext fun a => by fin_cases a <;> rfl

-- what the unscoped buffers hold when the region is entered
variable (V : (c : Dev nD) → (b : Ref sig .tc) → Buf (Elt F) ((c : Thread nD τ).loc b))

/-! ## Blocks read at an index -/

/-- The printed index maps over the grid: point t = 10 i + k sits at row tile i, column block k. -/
theorem idx_facts1 : ∀ t : Fin cfg1.N, win1_0.index t (0 : Fin 2) = t.val / 10 ∧ win1_0.index t (1 : Fin 2) = t.val % 10
    ∧ win1_1.index t (0 : Fin 2) = 0 ∧ win1_1.index t (1 : Fin 2) = 0
    ∧ win1_2.index t (0 : Fin 2) = 0 ∧ win1_2.index t (1 : Fin 2) = 0
    ∧ ((grid1.coords t) 1).val = t.val % 10 ∧ ((grid1.coords t) 0).val = t.val / 10 :=
  (by decide +kernel : ∀ t : Fin grid1.N, _)

/-- The adjacency, the second layer's features and bias row as the region finds them, and the three input windows'
    blocks at a point, each at its literal type. -/
abbrev arrA1 (c : Dev nD) : Vec F S10240x10240 .f32 := V c main_v46
abbrev arrH1 (c : Dev nD) : Vec F S10240x128 .f32 := V c main_v58
abbrev arrB1 (c : Dev nD) : Vec F S1x128 .f32 := V c main_v59
abbrev blkA1 (c : Dev nD) (t : Fin cfg1.N) : Vec F S1024x1024 .f32 := blk1 V c 0 t
abbrev blkH1 (c : Dev nD) (t : Fin cfg1.N) : Vec F S10240x128 .f32 := blk1 V c 1 t
abbrev blkB1 (c : Dev nD) (t : Fin cfg1.N) : Vec F S1x128 .f32 := blk1 V c 2 t

/-- Entry (p, j) of the adjacency tile at point t = 10 i + k is entry (1024 i + p, 1024 k + j) of the adjacency. -/
theorem blkA1_apply (c : Dev nD) (t : Fin cfg1.N) (p j : Fin 1024) (r s : Fin 10240)
    (hr : r.val = 1024 * (t.val / 10) + p.val) (hs : s.val = 1024 * (t.val % 10) + j.val) :
    blkA1 V c t (ix2 p j) = arrA1 V c (ix2 r s) := by
  obtain ⟨e0, e1, -⟩ := idx_facts1 t
  show V c main_v46 (((cfg1.win 0).blk t).view.emb (ix2 p j)) = V c main_v46 (ix2 r s)
  refine congrArg (V c main_v46) (funext fun a => Fin.ext ?_)
  match a with
  | ⟨0, _⟩ => show win1_0.index t (0 : Fin 2) * 1024 + 1 * p.val = r.val; omega
  | ⟨1, _⟩ => show win1_0.index t (1 : Fin 2) * 1024 + 1 * j.val = s.val; omega

/-- The feature window holds the whole matrix at every point. -/
theorem blkH1_apply (c : Dev nD) (t : Fin cfg1.N) (r : Fin 10240) (q : Fin 128) :
    blkH1 V c t (ix2 r q) = arrH1 V c (ix2 r q) := by
  obtain ⟨-, -, e0, e1, -⟩ := idx_facts1 t
  show V c main_v58 (((cfg1.win 1).blk t).view.emb (ix2 r q)) = V c main_v58 (ix2 r q)
  refine congrArg (V c main_v58) (funext fun a => Fin.ext ?_)
  match a with
  | ⟨0, _⟩ => show win1_1.index t (0 : Fin 2) * 10240 + 1 * r.val = r.val; omega
  | ⟨1, _⟩ => show win1_1.index t (1 : Fin 2) * 128 + 1 * q.val = q.val; omega

/-- The bias window holds the whole row at every point. -/
theorem blkB1_apply (c : Dev nD) (t : Fin cfg1.N) (q : Fin 128) :
    blkB1 V c t (ix2 0 q) = arrB1 V c (ix2 0 q) := by
  obtain ⟨-, -, -, -, e0, e1, -⟩ := idx_facts1 t
  show V c main_v59 (((cfg1.win 2).blk t).view.emb (ix2 0 q)) = V c main_v59 (ix2 0 q)
  refine congrArg (V c main_v59) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The rows the body loads of the feature matrix at column block k = (i 1): rows 1024 k … 1024 k + 1023. -/
abbrev rows1 (i : grid1.Coords) (x1 : Vec F S10240x128 .f32) : Vec F S1024x128 .f32 :=
  View.ld x1 (Rect.unit (s := S10240x128) (k1_off1 i) S1024x128.size (k1_off1_inb i))

/-- The load's offsets over the grid: row 1024 k, column 0. -/
theorem off1_facts1 : ∀ t : Fin cfg1.N, k1_off1 (grid1.coords t) = ![1024 * (t.val % 10), 0] :=
  (by decide +kernel : ∀ t : Fin grid1.N, _)

/-- Entry (p, q) of the loaded rows at point t = 10 i + k is entry (1024 k + p, q) of the matrix loaded from. -/
theorem rows1_apply (t : Fin cfg1.N) (x1 : Vec F S10240x128 .f32) (p : Fin 1024) (q : Fin 128) (r : Fin 10240)
    (hr : r.val = 1024 * (t.val % 10) + p.val) :
    rows1 (grid1.coords t) x1 (ix2 p q) = x1 (ix2 r q) := by
  show x1 ((Rect.unit (s := S10240x128) (k1_off1 (grid1.coords t)) S1024x128.size (k1_off1_inb (grid1.coords t))).idx (ix2 p q)) = x1 (ix2 r q)
  refine congrArg x1 (funext fun a => Fin.ext ?_)
  have e := off1_facts1 t
  match a with
  | ⟨0, _⟩ => show (k1_off1 (grid1.coords t)) 0 + 1 * p.val = r.val; rw [e]; show 1024 * (t.val % 10) + 1 * p.val = r.val; omega
  | ⟨1, _⟩ => show (k1_off1 (grid1.coords t)) 1 + 1 * q.val = q.val; rw [e]; show 0 + 1 * q.val = q.val; omega

/-! ## What each run leaves, as the kernel's payloads of the loaded blocks -/

/-- A middle column block: the accumulator ends at the update of what it held. -/
theorem accMid1_eq (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : ¬last1 i) (x0 : Vec F S1024x1024 .f32) (x1 : Vec F S10240x128 .f32) (x2 : Vec F S1x128 .f32) (acc : Vec F S1024x128 .f32) :
    accMid1 c i arg2 harg2 arg3 harg3 arg4 harg4 arg5 harg5 arg6 harg6 hf hl x0 x1 x2 acc = k1_pay2 x0 (rows1 i x1) acc := by
  unfold accMid1
  rw [View.read_writes_eq_canon _ _ _ (accMid1_cover c i arg2 harg2 arg3 harg3 arg4 harg4 arg5 harg5 arg6 harg6 hf hl x0 x1 x2 acc)]
  unfold runMid1
  dsimp only
  sl_unfold_words
  rw [View.canon_unit_zero hz2_1]
  simp only [View.readAt_eq_ld, harg2.read_unread, harg3.read_unread, harg6.read_unread, View.ld_unit_zero (S := S1024x1024) hz2_1, View.ld_unit_zero (S := S1024x128) hz2_1]
  rfl

/-- The first column block: the accumulator is reset to the zero block, read back, and updated. -/
theorem accFirst1_eq (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : first1 i) (hl : ¬last1 i) (x0 : Vec F S1024x1024 .f32) (x1 : Vec F S10240x128 .f32) (x2 : Vec F S1x128 .f32) :
    accFirst1 c i arg2 harg2 arg3 harg3 arg4 harg4 arg5 harg5 arg6 harg6 hf hl x0 x1 x2 = k1_pay2 x0 (rows1 i x1) k1_pay1 := by
  unfold accFirst1
  rw [View.read_writes_eq_canon _ _ _ (accFirst1_cover c i arg2 harg2 arg3 harg3 arg4 harg4 arg5 harg5 arg6 harg6 hf hl x0 x1 x2)]
  unfold runFirst1
  dsimp only
  sl_unfold_words
  rw [View.canon_cons_unit_zero (S := S1024x128) hz2_1, View.readCov_unit_zero (S := S1024x128) _ hz2_1]
  simp only [View.readAt_eq_ld, harg2.read_unread, harg3.read_unread, View.ld_unit_zero (S := S1024x1024) hz2_1, View.ld_unit_zero (S := S1024x128) hz2_1]
  rfl

/-- The last column block: the accumulator is updated as at every block. -/
theorem accLast1_eq (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) :
    accLast1 c i arg2 harg2 arg3 harg3 arg4 harg4 arg5 harg5 arg6 harg6 hf hl x0 x1 x2 acc = k1_pay2 x0 (rows1 i x1) acc := by
  unfold accLast1
  rw [View.read_writes_eq_canon _ _ _ (accLast1_cover c i arg2 harg2 arg3 harg3 arg4 harg4 arg5 harg5 arg6 harg6 hf hl x0 x1 x2 acc)]
  unfold runLast1
  dsimp only
  sl_unfold_words
  rw [View.canon_unit_zero hz2_1]
  simp only [View.readAt_eq_ld, harg2.read_unread, harg3.read_unread, harg6.read_unread, View.ld_unit_zero (S := S1024x1024) hz2_1, View.ld_unit_zero (S := S1024x128) hz2_1]
  rfl

/-- The last column block: the output tile is stored from the updated accumulator, read back, and the bias row. -/
theorem outLast1_eq (c : Dev nD) (i : grid1.Coords) (arg2 : Memref sig .tc .vmem S1024x1024 .f32) (harg2 : arg2.IsWhole) (arg3 : Memref sig .tc .vmem S10240x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hf : ¬first1 i) (hl : last1 i) (x0 : Vec F S1024x1024 .f32) (x1 : Vec F S10240x128 .f32) (x2 : Vec F S1x128 .f32) (acc : Vec F S1024x128 .f32) :
    outLast1 c i arg2 harg2 arg3 harg3 arg4 harg4 arg5 harg5 arg6 harg6 hf hl x0 x1 x2 acc = k1_pay3 (k1_pay2 x0 (rows1 i x1) acc) x2 := by
  unfold outLast1
  rw [View.read_writes_eq_canon _ _ _ (outLast1_cover c i arg2 harg2 arg3 harg3 arg4 harg4 arg5 harg5 arg6 harg6 hf hl x0 x1 x2 acc)]
  unfold runLast1
  dsimp only
  sl_unfold_words
  rw [View.canon_unit_zero hz2_1]
  simp only [View.readAt_eq_ld, harg2.read_unread, harg3.read_unread, harg4.read_unread, harg6.read_unread, View.readCov_unit_zero (S := S1024x128) _ hz2_1, View.ld_unit_zero (S := S1024x1024) hz2_1, View.ld_unit_zero (S := S1024x128) hz2_1, View.ld_unit_zero (S := S1x128) hz2_1]
  rfl

/-! ## The value, at the extended reals -/

section Value

variable (V : (c : Dev nD) → (b : Ref sig .tc) → Buf (Elt Ideal) ((c : Thread nD τ).loc b))

/-- Entries of an adjacency tile are entries of the adjacency: finite with it. -/
theorem blkA1_finite (c : Dev nD) (hA : ∀ y, arrA1 V c y ≠ ⊤ ∧ arrA1 V c y ≠ ⊥) (t : Fin cfg1.N) :
    ∀ y, blkA1 V c t y ≠ ⊤ ∧ blkA1 V c t y ≠ ⊥ :=
  fun y => hA (((cfg1.win 0).blk t).view.emb y)

/-- Entries of the loaded rows are entries of the feature matrix: finite with it. -/
theorem rows1_finite (c : Dev nD) (hh : ∀ y, arrH1 V c y ≠ ⊤ ∧ arrH1 V c y ≠ ⊥) (t : Fin cfg1.N) :
    ∀ y, rows1 (grid1.coords t) (blkH1 V c t) y ≠ ⊤ ∧ rows1 (grid1.coords t) (blkH1 V c t) y ≠ ⊥ :=
  fun y => hh (((cfg1.win 1).blk t).view.emb ((Rect.unit (s := S10240x128) (k1_off1 (grid1.coords t)) S1024x128.size (k1_off1_inb (grid1.coords t))).idx y))

/-- One accumulation step at point t = 10 i + k, row p of the tile, column q: an accumulator holding the first k
    blocks' sum of row 1024 i + p, plus the tile's row times the loaded rows' column, holds the first k + 1 blocks' sum. -/
theorem acc_step1 (c : Dev nD) (t : Fin cfg1.N) (p : Fin 1024) (q : Fin 128) (r : Fin 10240)
    (hr : r.val = 1024 * (t.val / 10) + p.val) (a : EReal)
    (ha : a = Cert.Spec.accK (arrA1 V c) (arrH1 V c) r q (t.val % 10)) :
    a + ∑ j : Fin 1024, blkA1 V c t (ix2 p j) * rows1 (grid1.coords t) (blkH1 V c t) (ix2 j q)
      = Cert.Spec.accK (arrA1 V c) (arrH1 V c) r q (t.val % 10 + 1) := by
  subst ha
  have hk : t.val % 10 < 10 := Nat.mod_lt _ (by decide)
  show _ = Cert.Spec.accK (arrA1 V c) (arrH1 V c) r q (t.val % 10)
    + (if hn : t.val % 10 < 10 then Cert.Spec.blockSum (arrA1 V c) (arrH1 V c) r q ⟨t.val % 10, hn⟩ else 0)
  rw [dif_pos hk]
  refine congrArg (Cert.Spec.accK (arrA1 V c) (arrH1 V c) r q (t.val % 10) + ·) ?_
  unfold Cert.Spec.blockSum
  refine Finset.sum_congr rfl fun j _ => ?_
  exact congrArg₂ (· * ·) (blkA1_apply V c t p j r _ hr rfl) ((rows1_apply t _ j q _ rfl).trans (blkH1_apply V c t _ q))

/-- THE ACCUMULATOR after point n = 10 i + k holds, at (p, q), the first k + 1 column blocks' sum of row 1024 i + p of
    the product: by induction on the point. -/
theorem acc_inv1 (c : Dev nD) (hA : ∀ y, arrA1 V c y ≠ ⊤ ∧ arrA1 V c y ≠ ⊥) (hh : ∀ y, arrH1 V c y ≠ ⊤ ∧ arrH1 V c y ≠ ⊥) :
    ∀ (n : ℕ) (hn : n < cfg1.N) (p : Fin 1024) (q : Fin 128) (r : Fin 10240), r.val = 1024 * (n / 10) + p.val →
      (stAt1 V c n hn).2 (ix2 p q) = Cert.Spec.accK (arrA1 V c) (arrH1 V c) r q (n % 10 + 1) := by
  intro n
  induction n with
  | zero =>
    intro hn p q r hr
    let t : Fin cfg1.N := ⟨0, hn⟩
    have h0 : t.val % 10 = 0 := Nat.zero_mod _
    have hf : first1 (grid1.coords t) := (first1_iff t).mpr h0
    have hl : ¬last1 (grid1.coords t) := fun h => by have := (last1_iff t).mp h; omega
    rw [stAt1_first V c t h0]; dsimp only
    refine (congrFun (accFirst1_eq (F := Ideal) c (grid1.coords t) (mA1 t) (hA1 t) (mH1 t) (hH1 t) (mB1 t) (hB1 t) (mO1 t) (hO1 t) accM1 (Memref.isWhole_whole _) hf hl (blkA1 V c t) (blkH1 V c t) (blkB1 V c t)) (ix2 p q)).trans ?_
    refine (KPay.pay2_apply1 (blkA1 V c t) (rows1 (grid1.coords t) (blkH1 V c t)) (k1_pay1 (F := Ideal)) (blkA1_finite V c hA t) (rows1_finite V c hh t) p q).trans ?_
    exact acc_step1 V c t p q r hr _ (by rw [KPay.pay1_apply1, h0]; rfl)
  | succ n ih =>
    intro hn p q r hr
    have hN : cfg1.N = 100 := N_1
    let t : Fin cfg1.N := ⟨n + 1, hn⟩
    by_cases h0 : t.val % 10 = 0
    · have hf : first1 (grid1.coords t) := (first1_iff t).mpr h0
      have hl : ¬last1 (grid1.coords t) := fun h => by have := (last1_iff t).mp h; omega
      rw [stAt1_first V c t h0]; dsimp only
      refine (congrFun (accFirst1_eq (F := Ideal) c (grid1.coords t) (mA1 t) (hA1 t) (mH1 t) (hH1 t) (mB1 t) (hB1 t) (mO1 t) (hO1 t) accM1 (Memref.isWhole_whole _) hf hl (blkA1 V c t) (blkH1 V c t) (blkB1 V c t)) (ix2 p q)).trans ?_
      refine (KPay.pay2_apply1 (blkA1 V c t) (rows1 (grid1.coords t) (blkH1 V c t)) (k1_pay1 (F := Ideal)) (blkA1_finite V c hA t) (rows1_finite V c hh t) p q).trans ?_
      exact acc_step1 V c t p q r hr _ (by rw [KPay.pay1_apply1, h0]; rfl)
    · have hf : ¬first1 (grid1.coords t) := fun h => h0 ((first1_iff t).mp h)
      have hprev : prevAcc1 V c t (ix2 p q) = Cert.Spec.accK (arrA1 V c) (arrH1 V c) r q (t.val % 10) :=
        (ih (Nat.lt_of_succ_lt hn) p q r (by have : t.val = n + 1 := rfl; omega)).trans
          (congrArg (Cert.Spec.accK (arrA1 V c) (arrH1 V c) r q) (by have : t.val = n + 1 := rfl; omega))
      by_cases h9 : t.val % 10 = 9
      · have hl : last1 (grid1.coords t) := (last1_iff t).mpr h9
        rw [stAt1_last V c t h0 h9]; dsimp only
        refine (congrFun (accLast1_eq (F := Ideal) c (grid1.coords t) (mA1 t) (hA1 t) (mH1 t) (hH1 t) (mB1 t) (hB1 t) (mO1 t) (hO1 t) accM1 (Memref.isWhole_whole _) hf hl (blkA1 V c t) (blkH1 V c t) (blkB1 V c t) (prevAcc1 V c t)) (ix2 p q)).trans ?_
        refine (KPay.pay2_apply1 (blkA1 V c t) (rows1 (grid1.coords t) (blkH1 V c t)) (prevAcc1 V c t) (blkA1_finite V c hA t) (rows1_finite V c hh t) p q).trans ?_
        exact acc_step1 V c t p q r hr _ hprev
      · have hl : ¬last1 (grid1.coords t) := fun h => h9 ((last1_iff t).mp h)
        rw [stAt1_mid V c t h0 h9]; dsimp only
        refine (congrFun (accMid1_eq (F := Ideal) c (grid1.coords t) (mA1 t) (hA1 t) (mH1 t) (hH1 t) (mB1 t) (hB1 t) (mO1 t) (hO1 t) accM1 (Memref.isWhole_whole _) hf hl (blkA1 V c t) (blkH1 V c t) (blkB1 V c t) (prevAcc1 V c t)) (ix2 p q)).trans ?_
        refine (KPay.pay2_apply1 (blkA1 V c t) (rows1 (grid1.coords t) (blkH1 V c t)) (prevAcc1 V c t) (blkA1_finite V c hA t) (rows1_finite V c hh t) p q).trans ?_
        exact acc_step1 V c t p q r hr _ hprev

/-- THE OUTPUT TILE at a point of the last column block: row 1024 i + p of the layer through the dense matrix, the
    activation the identity. -/
theorem tile1 (c : Dev nD)
    (hA : ∀ y, arrA1 V c y ≠ ⊤ ∧ arrA1 V c y ≠ ⊥)
    (hh : ∀ y, arrH1 V c y ≠ ⊤ ∧ arrH1 V c y ≠ ⊥)
    (t : Fin cfg1.N) (h9 : t.val % 10 = 9) (p : Fin 1024) (q : Fin 128) :
    (stAt1 V c t.val t.isLt).1 (ix2 p q)
      = Cert.Spec.layerK false (V c main_v46) (V c main_v58) (V c main_v59)
          ⟨1024 * (t.val / 10) + p.val, by have := t.isLt; have : cfg1.N = 100 := N_1; omega⟩ q := by
  have hN : cfg1.N = 100 := N_1
  have h0 : ¬t.val % 10 = 0 := by omega
  have hf : ¬first1 (grid1.coords t) := fun h => h0 ((first1_iff t).mp h)
  have hl : last1 (grid1.coords t) := (last1_iff t).mpr h9
  have hlt : 1024 * (t.val / 10) + p.val < 10240 := by have := t.isLt; omega
  have hprev : prevAcc1 V c t (ix2 p q) = Cert.Spec.accK (arrA1 V c) (arrH1 V c) ⟨1024 * (t.val / 10) + p.val, hlt⟩ q (t.val % 10) :=
    (acc_inv1 V c hA hh (t.val - 1) (Nat.lt_of_le_of_lt (Nat.sub_le _ _) t.isLt) p q ⟨1024 * (t.val / 10) + p.val, hlt⟩
      (by show 1024 * (t.val / 10) + p.val = 1024 * ((t.val - 1) / 10) + p.val; omega)).trans
      (congrArg (Cert.Spec.accK (arrA1 V c) (arrH1 V c) ⟨1024 * (t.val / 10) + p.val, hlt⟩ q) (by omega))
  rw [stAt1_last V c t h0 h9]; dsimp only
  refine (congrFun (outLast1_eq (F := Ideal) c (grid1.coords t) (mA1 t) (hA1 t) (mH1 t) (hH1 t) (mB1 t) (hB1 t) (mO1 t) (hO1 t) accM1 (Memref.isWhole_whole _) hf hl (blkA1 V c t) (blkH1 V c t) (blkB1 V c t) (prevAcc1 V c t)) (ix2 p q)).trans ?_
  refine (KPay.pay3_apply1 (k1_pay2 (blkA1 V c t) (rows1 (grid1.coords t) (blkH1 V c t)) (prevAcc1 V c t)) (blkB1 V c t) p q).trans ?_
  have hacc : k1_pay2 (blkA1 V c t) (rows1 (grid1.coords t) (blkH1 V c t)) (prevAcc1 V c t) (ix2 p q)
      = Cert.Spec.accK (arrA1 V c) (arrH1 V c) ⟨1024 * (t.val / 10) + p.val, hlt⟩ q 10 :=
    ((KPay.pay2_apply1 (blkA1 V c t) (rows1 (grid1.coords t) (blkH1 V c t)) (prevAcc1 V c t) (blkA1_finite V c hA t) (rows1_finite V c hh t) p q).trans
      (acc_step1 V c t p q ⟨1024 * (t.val / 10) + p.val, hlt⟩ rfl _ hprev)).trans
      (congrArg (Cert.Spec.accK (arrA1 V c) (arrH1 V c) ⟨1024 * (t.val / 10) + p.val, hlt⟩ q) (by omega))
  rw [hacc, blkB1_apply V c t q, Cert.Spec.accK_ten]
  unfold Cert.Spec.layerK Cert.Spec.act
  rw [if_neg Bool.false_ne_true]

end Value

end Cert.KernelIdeal.Fr

end
-- ==== Proof.LibPairScatter.lean ====
/-
  A scatter-add of scalars at pairs of indices, read at an index, over the extended reals.

  What accumulating a VECTOR of updates upd : [E] into a matrix x : [N, M] at positions given by a two-column
  table of indices idx : [E, 2] lowers to: a stablehlo.scatter with an add body that has no update window axis
  (update_window_dims []), whose two operand axes are both inserted (inserted_window_dims [0, 1]) and both
  addressed by the index vector (scatter_dims_to_operand_dims [0, 1], index_vector_dim 1): update e is added to
  the element (idx[e, 0], idx[e, 1]) of the operand. Over the extended reals element (v, c) of the result is the
  operand's plus the sum of upd[e] over the positions e whose two indices, read as signed integers and NOT
  clamped, are v and c: an update one of whose signed indices is no coordinate of the operand is dropped.
-/
import Idealize.ShloMosaic.PureOps.Ideal
import Idealize.ShloMosaic.Lib.ValueIdx
import Idealize.ShloMosaic.Lib.ValueIdxRank1

noncomputable section

open scoped BigOperators

namespace Cert.LibPairScatter

open Idealize.ShloMosaic Idealize.ShloMosaic.ValueIdx

/-! ## The coordinates of the landing index

For an update index (e). Both operand axes are inserted, so both window coordinates are 0; both are addressed by
the index vector, axis 0 by its component 0 and axis 1 by its component 1, so the windows start at the signed words
idx[e, 0] and idx[e, 1]. Each fact is read off the record once its four lists are the stated literals. -/

section Coordinates

variable {N M E w : Nat}
  (s : ScatterDims (⟨2, ![N, M]⟩ : Shape) (⟨2, ![E, 2]⟩ : Shape) (⟨1, ![E]⟩ : Shape))
  (huw : s.updateWindowDims = []) (hiw : s.insertedWindowDims = [0, 1])
  (hsd : s.scatterDimsToOperandDims = [0, 1]) (hiv : s.indexVectorDim = 1)

include huw hiw hsd hiv

/-- On the operand's first axis the window starts at the signed first index of the update. -/
theorem start_fst (idx : IVec (⟨2, ![E, 2]⟩ : Shape) w) (e : Fin E) :
    s.start (ix1 e) idx 0 = (idx (ix2 e (0 : Fin 2))).toInt := by
  obtain ⟨uw, iw, sd, iv, wf⟩ := s
  subst huw hiw hsd hiv
  unfold ScatterDims.start
  rw [dif_pos (show (0 : Fin 2) ∈ ([0, 1] : List (Fin 2)) by decide)]
  refine congrArg (fun i => (idx i).toInt) ?_
  funext b
  refine Fin.ext ?_
  match b with
  | ⟨0, _⟩ => rfl
  | ⟨1, _⟩ => rfl

/-- On the operand's second axis the window starts at the signed second index of the update. -/
theorem start_snd (idx : IVec (⟨2, ![E, 2]⟩ : Shape) w) (e : Fin E) :
    s.start (ix1 e) idx 1 = (idx (ix2 e (1 : Fin 2))).toInt := by
  obtain ⟨uw, iw, sd, iv, wf⟩ := s
  subst huw hiw hsd hiv
  unfold ScatterDims.start
  rw [dif_pos (show (1 : Fin 2) ∈ ([0, 1] : List (Fin 2)) by decide)]
  refine congrArg (fun i => (idx i).toInt) ?_
  funext b
  refine Fin.ext ?_
  match b with
  | ⟨0, _⟩ => rfl
  | ⟨1, _⟩ => rfl

/-- Both operand axes are inserted: every window coordinate is 0. -/
theorem window_zero (e : Fin E) (a : Fin 2) : s.window (ix1 e) a = 0 := by
  obtain ⟨uw, iw, sd, iv, wf⟩ := s
  subst huw hiw hsd hiv
  match a with
  | ⟨0, _⟩ => rfl
  | ⟨1, _⟩ => rfl

/-! ## Where an update lands -/

/-- WHERE AN UPDATE LANDS: update e lands on (v, c) exactly when its two signed indices are v and c. Left to right
    the landing index exists, so both starts are nonnegative and their toNat are v and c; right to left both
    coordinates are in range (v < N, c < M) and the index built from them is (v, c). -/
theorem resultIdx?_eq_some_iff (idx : IVec (⟨2, ![E, 2]⟩ : Shape) w) (e : Fin E) (v : Fin N) (c : Fin M) :
    s.resultIdx? (ix1 e) idx = some (ix2 v c)
      ↔ (idx (ix2 e (0 : Fin 2))).toInt = (v.val : ℤ) ∧ (idx (ix2 e (1 : Fin 2))).toInt = (c.val : ℤ) := by
  have h0 := start_fst s huw hiw hsd hiv idx e
  have h1 := start_snd s huw hiw hsd hiv idx e
  have w0 := window_zero s huw hiw hsd hiv e 0
  have w1 := window_zero s huw hiw hsd hiv e 1
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      have r1 := (hr 1).1
      simp only [h0, h1, w0, w1] at e0 e1 r0 r1
      change _ = v.val at e0
      change _ = c.val at e1
      exact ⟨by omega, by omega⟩
    · exact absurd h (by simp)
  · rintro ⟨hv, hc⟩
    have hr : ∀ a, 0 ≤ s.start (ix1 e) idx a + s.window (ix1 e) a ∧
        s.start (ix1 e) idx a + s.window (ix1 e) a < (⟨2, ![N, M]⟩ : Shape).size a := by
      intro a
      match a with
      | ⟨0, _⟩ =>
        show 0 ≤ s.start (ix1 e) idx 0 + s.window (ix1 e) 0 ∧
          s.start (ix1 e) idx 0 + s.window (ix1 e) 0 < (N : ℤ)
        rw [h0, w0, hv]; have := v.isLt; omega
      | ⟨1, _⟩ =>
        show 0 ≤ s.start (ix1 e) idx 1 + s.window (ix1 e) 1 ∧
          s.start (ix1 e) idx 1 + s.window (ix1 e) 1 < (M : ℤ)
        rw [h1, w1, hc]; have := c.isLt; omega
    rw [dif_pos hr]
    refine congrArg some ?_
    funext a
    refine Fin.ext ?_
    match a with
    | ⟨0, _⟩ =>
      show (s.start (ix1 e) idx 0 + s.window (ix1 e) 0).toNat = v.val
      rw [h0, w0, hv]; omega
    | ⟨1, _⟩ =>
      show (s.start (ix1 e) idx 1 + s.window (ix1 e) 1).toNat = c.val
      rw [h1, w1, hc]; omega

end Coordinates

/-! ## The sum over the landing updates -/

/-- The sum of the updates that land on (v, c) is the sum over all positions e of upd[e] guarded by "the two signed
    indices of e are v and c": the filtered sum is a sum of guarded terms over all update indices, which are the
    positions themselves; the guard is the landing condition. -/
theorem sum_landing {N M E w : Nat}
    (s : ScatterDims (⟨2, ![N, M]⟩ : Shape) (⟨2, ![E, 2]⟩ : Shape) (⟨1, ![E]⟩ : Shape))
    (huw : s.updateWindowDims = []) (hiw : s.insertedWindowDims = [0, 1])
    (hsd : s.scatterDimsToOperandDims = [0, 1]) (hiv : s.indexVectorDim = 1)
    (idx : IVec (⟨2, ![E, 2]⟩ : Shape) w) (upd : (⟨1, ![E]⟩ : Shape).Idx → EReal) (v : Fin N) (c : Fin M) :
    (∑ j ∈ Finset.univ.filter (fun j => s.resultIdx? j idx = some (ix2 v c)), upd j)
      = ∑ e : Fin E, if (idx (ix2 e (0 : Fin 2))).toInt = (v.val : ℤ) ∧ (idx (ix2 e (1 : Fin 2))).toInt = (c.val : ℤ)
          then upd (ix1 e) else 0 := by
  rw [Finset.sum_filter, ← Equiv.sum_comp (idxEquiv1 (n := E)).symm]
  refine Finset.sum_congr rfl fun e _ => ?_
  exact if_congr (resultIdx?_eq_some_iff s huw hiw hsd hiv idx e v c) rfl rfl

/-- THE SCATTER-ADD OF SCALARS AT INDEX PAIRS READ AT (v, c): for any dimension-number record of this form, the
    operand's element plus the sum over the positions e whose two signed indices are v and c of the update upd[e]. -/
theorem pairScatterAdd_apply {φ : FTy} {N M E w : Nat}
    (s : ScatterDims (⟨2, ![N, M]⟩ : Shape) (⟨2, ![E, 2]⟩ : Shape) (⟨1, ![E]⟩ : Shape))
    (huw : s.updateWindowDims = []) (hiw : s.insertedWindowDims = [0, 1])
    (hsd : s.scatterDimsToOperandDims = [0, 1]) (hiv : s.indexVectorDim = 1)
    (x : FVec Ideal (⟨2, ![N, M]⟩ : Shape) φ) (idx : IVec (⟨2, ![E, 2]⟩ : Shape) w)
    (upd : FVec Ideal (⟨1, ![E]⟩ : Shape) φ) (v : Fin N) (c : Fin M) :
    Host.scatterAdd s x idx upd (ix2 v c)
      = x (ix2 v c) + ∑ e : Fin E,
          if (idx (ix2 e (0 : Fin 2))).toInt = (v.val : ℤ) ∧ (idx (ix2 e (1 : Fin 2))).toInt = (c.val : ℤ)
            then upd (ix1 e) else 0 := by
  exact congrArg (x (ix2 v c) + ·) (sum_landing s huw hiw hsd hiv idx upd v c)

end Cert.LibPairScatter

end
-- ==== Proof.KHostA.lean ====
/-
  The host-side graph preprocessing of the program that multiplies by a dense adjacency matrix, over the extended
  reals.

  Before its first matrix product that program computes, from the 2 x 640000 table of edge endpoints, the 650000 edge
  sources (row) and targets (col) with the 10000 self-loops appended, the symmetric normalisation weight of every edge
  (nrm e = deg^{-1/2}[row e] * deg^{-1/2}[col e], deg the weighted in-degree), and scatters the weights into a
  10240 x 10240 matrix of zeros at the positions (col e, row e). Here: the endpoints and the weights are, term for
  term, the ones the edge-by-edge program computes from the same table; and when every endpoint is a node, the
  matrix scattered is the dense weighted adjacency A[i, j] = sum of nrm e over the edges e with col e = i and
  row e = j.
-/
import proofs.«417435_j16149077033111_3_alg».proof.Proof.Gen.KernelIdeal.Regions
import proofs.«417435_j16149077033111_3_alg».proof.Proof.RefRead
import proofs.«417435_j16149077033111_3_alg».proof.Proof.Spec
import proofs.«417435_j16149077033111_3_alg».proof.Proof.LibPairScatter
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KHostA

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-! ## The edge endpoints and weights are the edge-by-edge program's

The first 31 operations of the two programs are the same operations on the same names, so each of these three
arrays is, as a term of the endpoint table, the same composition on both sides. The weights' term is long: the
equation is proved for any float values and read at the extended reals. -/

set_option maxRecDepth 8192 in
/-- The edge sources, self-loops appended. -/
theorem V5_row : (V5 m c main_v5 : S650000.Idx → BitVec 32)
    = Cert.ReferenceIdeal.ReadP.val_main_v5 (F := Ideal) (m ((c.tc : Thread nD τ).loc main_arg1)) := by
  rw [V5_of m c main_v5 (by decide), V4_of m c main_v5 (by decide), V3_of m c main_v5 (by decide), V2_of m c main_v5 (by decide)]
  dsimp only [V1, V0]
  after_results
  rfl

set_option maxRecDepth 8192 in
/-- The edge targets, self-loops appended. -/
theorem V5_col : (V5 m c main_v6 : S650000.Idx → BitVec 32)
    = Cert.ReferenceIdeal.ReadP.val_main_v6 (F := Ideal) (m ((c.tc : Thread nD τ).loc main_arg1)) := by
  rw [V5_of m c main_v6 (by decide), V4_of m c main_v6 (by decide), V3_of m c main_v6 (by decide), V2_of m c main_v6 (by decide)]
  dsimp only [V1, V0]
  after_results
  rfl

set_option maxRecDepth 8192 in
/-- The edge weights, for any float values. -/
theorem V5_norm_gen {F : FTy → Type} [FloatOps F] (m : (ℓ : Loc nD τ sig) → Buf (Elt F) ℓ) (c : Dev nD) :
    (V5 m c main_v31 : (⟨S650000, .f32⟩ : BufTy).Contents (Elt F))
      = Cert.ReferenceIdeal.ReadP.val_main_v31 (F := F) (m ((c.tc : Thread nD τ).loc main_arg1)) := by
  rw [V5_of m c main_v31 (by decide), V4_of m c main_v31 (by decide)]
  dsimp only [V3, V2, V1, V0]
  after_results_simp
  rfl

/-- The edge weights, over the extended reals. -/
theorem V5_norm : (V5 m c main_v31 : S650000.Idx → EReal)
    = Cert.ReferenceIdeal.ReadP.val_main_v31 (F := Ideal) (m ((c.tc : Thread nD τ).loc main_arg1)) :=
  V5_norm_gen m c

/-! ## The matrix scattered, as a term of the endpoints and the weights -/

set_option maxRecDepth 8192 in
/-- The matrix the program scatters, as a term of its edge endpoints and weights: the weights added into zeros at the
    positions whose first coordinate is the edge's target and second its source, each endpoint first wrapped
    (a negative one has 10240 added). -/
theorem V5_adj_term_gen {F : FTy → Type} [FloatOps F] (m : (ℓ : Loc nD τ sig) → Buf (Elt F) ℓ) (c : Dev nD) :
    (V5 m c main_v46 : (⟨S10240x10240, .f32⟩ : BufTy).Contents (Elt F))
      = Host.scatterAdd scatter_S10240x10240_S650000x2_S650000_n_01_01_1
          (broadcastInDim S10240x10240 ![] bcast_S_S10240x10240 (constant (F := F) S_ .f32 0x00000000#32))
          (concatenate S650000x2 1
            [⟨S650000x1, broadcastInDim S650000x1 ![0] bcast_S650000_S650000x1_0
                (select (cmpi .slt (V5 m c main_v6 : (⟨S650000, .i32⟩ : BufTy).Contents (Elt F))
                          (broadcastInDim S650000 ![] bcast_S_S650000 (constantI S_ 32 0#32)))
                        (addi (V5 m c main_v6 : (⟨S650000, .i32⟩ : BufTy).Contents (Elt F))
                          (broadcastInDim S650000 ![] bcast_S_S650000 (constantI S_ 32 10240#32)))
                        (V5 m c main_v6 : (⟨S650000, .i32⟩ : BufTy).Contents (Elt F)))⟩,
             ⟨S650000x1, broadcastInDim S650000x1 ![0] bcast_S650000_S650000x1_0
                (select (cmpi .slt (V5 m c main_v5 : (⟨S650000, .i32⟩ : BufTy).Contents (Elt F))
                          (broadcastInDim S650000 ![] bcast_S_S650000 (constantI S_ 32 0#32)))
                        (addi (V5 m c main_v5 : (⟨S650000, .i32⟩ : BufTy).Contents (Elt F))
                          (broadcastInDim S650000 ![] bcast_S_S650000 (constantI S_ 32 10240#32)))
                        (V5 m c main_v5 : (⟨S650000, .i32⟩ : BufTy).Contents (Elt F)))⟩]
            concatenates_S650000x1_S650000x1_S650000x2_d1)
          (V5 m c main_v31 : (⟨S650000, .f32⟩ : BufTy).Contents (Elt F)) := by
  rw [V5_of m c main_v46 (by decide), V4_of m c main_v46 (by decide),
    V5_of m c main_v31 (by decide), V4_of m c main_v31 (by decide),
    V5_of m c main_v6 (by decide), V4_of m c main_v6 (by decide), V3_of m c main_v6 (by decide),
    V5_of m c main_v5 (by decide), V4_of m c main_v5 (by decide), V3_of m c main_v5 (by decide)]
  dsimp only [V3]
  generalize V2 m c = W
  after_results_simp
  rfl

/-! ## Reading the term's pieces at an index -/

/-- A signed word that is not negative is left alone by the wrap "if negative, add 10240". -/
theorem wrap_of_nonneg (x : BitVec 32) (h : 0 ≤ x.toInt) :
    Scalar.select (IntOp.cmpi .slt x 0#32) (IntOp.addi x 10240#32) x = x := by
  have h0 : (0#32 : BitVec 32).toInt = 0 := by decide
  have hs : x.slt 0#32 = false := Bool.eq_false_iff.2 fun hs => by
    rw [BitVec.slt_iff_toInt_lt, h0] at hs; omega
  have hc : IntOp.cmpi .slt x 0#32 = 0#1 := by
    show BitVec.ofBool (x.slt 0#32) = 0#1
    rw [hs]; rfl
  rw [hc, select_zero]

/-- The wrapped endpoint column read at an edge whose endpoint is not negative: the endpoint itself. -/
theorem wrapped_apply (A : S650000.Idx → BitVec 32) (e : Fin 650000) (h : 0 ≤ (A (ix1 e)).toInt) :
    select (cmpi .slt A (broadcastInDim S650000 ![] bcast_S_S650000 (constantI S_ 32 0#32)))
      (addi A (broadcastInDim S650000 ![] bcast_S_S650000 (constantI S_ 32 10240#32))) A (ix1 e) = A (ix1 e) :=
  wrap_of_nonneg _ h

/-- A column of 650000 words laid out as a 650000 x 1 table, read at row e: the column's word e. -/
theorem column_apply (A : S650000.Idx → BitVec 32) (e : Fin 650000) :
    broadcastInDim S650000x1 ![0] bcast_S650000_S650000x1_0 A (ix2 e (0 : Fin 1)) = A (ix1 e) :=
  broadcastInDim_apply _ bcast_S650000_S650000x1_0 A _ (ix1 e) (fun a => match a with
    | ⟨0, _⟩ => by show e.val = if (650000 : Nat) = 1 then 0 else e.val; rw [if_neg (by decide)])

/-- The two-column index table, read at (e, 0): the first column's word e. -/
theorem pair_fst (A B : S650000.Idx → BitVec 32) (e : Fin 650000) :
    concatenate S650000x2 1
      [⟨S650000x1, broadcastInDim S650000x1 ![0] bcast_S650000_S650000x1_0 A⟩,
       ⟨S650000x1, broadcastInDim S650000x1 ![0] bcast_S650000_S650000x1_0 B⟩]
      concatenates_S650000x1_S650000x1_S650000x2_d1 (ix2 e (0 : Fin 2)) = A (ix1 e) :=
  (concatenate_pair_apply_left (t := S650000x2) (s₁ := S650000x1) (s₂ := S650000x1) (1 : Fin 2)
    (broadcastInDim S650000x1 ![0] bcast_S650000_S650000x1_0 A) (broadcastInDim S650000x1 ![0] bcast_S650000_S650000x1_0 B)
    concatenates_S650000x1_S650000x1_S650000x2_d1 (ix2 e (0 : Fin 2)) rfl
    (ix2 e (0 : Fin 1)) (fun b => match b with | ⟨0, _⟩ => rfl | ⟨1, _⟩ => rfl)).trans (column_apply A e)

/-- The two-column index table, read at (e, 1): the second column's word e. -/
theorem pair_snd (A B : S650000.Idx → BitVec 32) (e : Fin 650000) :
    concatenate S650000x2 1
      [⟨S650000x1, broadcastInDim S650000x1 ![0] bcast_S650000_S650000x1_0 A⟩,
       ⟨S650000x1, broadcastInDim S650000x1 ![0] bcast_S650000_S650000x1_0 B⟩]
      concatenates_S650000x1_S650000x1_S650000x2_d1 (ix2 e (1 : Fin 2)) = B (ix1 e) :=
  (concatenate_pair_apply_right (t := S650000x2) (s₁ := S650000x1) (s₂ := S650000x1) (1 : Fin 2)
    (broadcastInDim S650000x1 ![0] bcast_S650000_S650000x1_0 A) (broadcastInDim S650000x1 ![0] bcast_S650000_S650000x1_0 B)
    concatenates_S650000x1_S650000x1_S650000x2_d1 (ix2 e (1 : Fin 2)) rfl rfl
    (ix2 e (0 : Fin 1)) (fun b => match b with | ⟨0, _⟩ => fun _ => rfl | ⟨1, _⟩ => fun hb => absurd rfl hb) rfl).trans
    (column_apply B e)

/-- The matrix of zeros the weights are added into, read anywhere: zero. -/
theorem zeros_apply (y : S10240x10240.Idx) :
    broadcastInDim S10240x10240 ![] bcast_S_S10240x10240 (constant (F := Ideal) S_ .f32 0x00000000#32) y = 0 :=
  Ideal.ofBits_zero_f32

/-! ## The matrix scattered is the dense weighted adjacency -/

/-- When every edge's endpoints are nodes, entry (i, j) of the matrix scattered is the sum of the weights of the edges
    with target i and source j: the scatter-add read at (i, j) is zero plus the sum of the weights guarded by "the
    wrapped target is i and the wrapped source is j", and a node is not negative, so the wrap leaves it alone. -/
theorem V5_adj (hr : Cert.Spec.InRange (V5 m c main_v5) (V5 m c main_v6)) (i j : Fin 10240) :
    V5 m c main_v46 (ValueIdx.ix2 i j)
      = Cert.Spec.adj (V5 m c main_v5) (V5 m c main_v6) (V5 m c main_v31) (ValueIdx.ix2 i j) := by
  refine (congrFun (V5_adj_term_gen m c) (ix2 i j)).trans ?_
  refine (Cert.LibPairScatter.pairScatterAdd_apply (φ := .f32) (N := 10240) (M := 10240) (E := 650000)
    scatter_S10240x10240_S650000x2_S650000_n_01_01_1 rfl rfl rfl rfl _ _ _ i j).trans ?_
  unfold Cert.Spec.adj
  refine congrArg₂ (· + ·) (zeros_apply _) (Finset.sum_congr rfl fun e _ => if_congr (and_congr ?_ ?_) rfl rfl)
  · rw [pair_fst, wrapped_apply _ e (hr e).2.1]
  · rw [pair_snd, wrapped_apply _ e (hr e).1.1]

end Cert.KHostA

end
-- ==== Proof.KHostB.lean ====
/-
  The dense-adjacency program's host-side values between and after its two aggregation kernels, read at an index,
  over the extended reals.

  * The node features x : [10000, 128] are padded with 240 zero rows to [10240, 128] and multiplied by the first
    weight matrix: entry (j, q) of the product is Σ_k xpad[j, k] · W1[k, q], where xpad[j, k] is x[j, k] on the rows
    j < 10000 and 0 below them (V5_h1).
  * A bias vector b : [128] reshaped to one row [1, 128] reads b[q] at (0, q) (V5_b1, V7_b2).
  * The dense adjacency matrix is not written between the first projection and the second kernel (V7_adj).
  * The first kernel's output is multiplied by the row mask (1 on rows below 10000, 0 on the padding rows: an iota
    compared, as signed words, with 10000, converted to a real and broadcast along the columns) and the masked matrix is
    multiplied by the second weight matrix (V7_h2).
  * The two results are the first 10000 rows of the masked first output and of the second kernel's output
    (V9_x1, V9_x2).

  Each value is first written as the operations' term over the previous stage's contents, then read at an index with
  the layout and arithmetic laws; the contraction of a product is re-indexed by its one contracted coordinate. No index
  set is enumerated.
-/
import proofs.«417435_j16149077033111_3_alg».proof.Proof.Gen.KernelIdeal.Regions
import proofs.«417435_j16149077033111_3_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws
import Idealize.ShloMosaic.Lib.StableHlo.Run

noncomputable section

open scoped BigOperators
open Cert.KernelIdeal Cert.KernelIdeal.Gen Idealize.ShloMosaic Idealize.ShloMosaic.ValueIdx
open Idealize.ShloMosaic.StableHlo Idealize.ShloMosaic.TcCoe

namespace Cert.KHostB

variable (m : (ℓ : Loc nD τ sig) → Buf (Elt Ideal) ℓ) (outs : Outs (F := Ideal)) (c : Dev nD)

/-! ## The launch contents of the arguments and the two kernel outputs, at their literal types -/

/-- The node features. -/
abbrev a0 : S10000x128.Idx → EReal := m ((c.tc : Thread nD τ).loc main_arg0)
/-- The first layer's weights. -/
abbrev a2 : S128x128.Idx → EReal := m ((c.tc : Thread nD τ).loc main_arg2)
/-- The first layer's bias. -/
abbrev a3 : S128.Idx → EReal := m ((c.tc : Thread nD τ).loc main_arg3)
/-- The second layer's weights. -/
abbrev a4 : S128x128.Idx → EReal := m ((c.tc : Thread nD τ).loc main_arg4)
/-- The second layer's bias. -/
abbrev a5 : S128.Idx → EReal := m ((c.tc : Thread nD τ).loc main_arg5)
/-- What the first aggregation leaves in its output array. -/
abbrev o6 : S10240x128.Idx → EReal := outs 6 main_v50 c
/-- What the second aggregation leaves in its output array. -/
abbrev o8 : S10240x128.Idx → EReal := outs 8 main_v60 c

/-! ## The two dense projections' contraction, read at an index -/

theorem dot_lhs0 (i : S10240x128.Idx) (q : dot_S10240x128_S128x128_S10240x128_1_0_0_1_n_n.contr.Idx) :
    (dot_S10240x128_S128x128_S10240x128_1_0_0_1_n_n.lhsIdx i q 0).val = (i 0).val := by
  unfold DotDims.lhsIdx
  rw [dif_neg (show ¬(0 : Fin S10240x128.rank) ∈ dot_S10240x128_S128x128_S10240x128_1_0_0_1_n_n.lhsBatch by decide),
    dif_pos (show (0 : Fin S10240x128.rank) ∈ dot_S10240x128_S128x128_S10240x128_1_0_0_1_n_n.lhsNonContracting by decide)]
  rfl
theorem dot_lhs1 (i : S10240x128.Idx) (q : dot_S10240x128_S128x128_S10240x128_1_0_0_1_n_n.contr.Idx) :
    (dot_S10240x128_S128x128_S10240x128_1_0_0_1_n_n.lhsIdx i q 1).val = (q ⟨0, by decide⟩).val :=
  dot_S10240x128_S128x128_S10240x128_1_0_0_1_n_n.lhsIdx_val_of_single rfl i q
theorem dot_rhs0 (i : S10240x128.Idx) (q : dot_S10240x128_S128x128_S10240x128_1_0_0_1_n_n.contr.Idx) :
    (dot_S10240x128_S128x128_S10240x128_1_0_0_1_n_n.rhsIdx i q 0).val = (q ⟨0, by decide⟩).val :=
  dot_S10240x128_S128x128_S10240x128_1_0_0_1_n_n.rhsIdx_val_of_single rfl i q
theorem dot_rhs1 (i : S10240x128.Idx) (q : dot_S10240x128_S128x128_S10240x128_1_0_0_1_n_n.contr.Idx) :
    (dot_S10240x128_S128x128_S10240x128_1_0_0_1_n_n.rhsIdx i q 1).val = (i 1).val := by
  unfold DotDims.rhsIdx
  rw [dif_neg (show ¬(1 : Fin S128x128.rank) ∈ dot_S10240x128_S128x128_S10240x128_1_0_0_1_n_n.rhsBatch by decide),
    dif_pos (show (1 : Fin S128x128.rank) ∈ dot_S10240x128_S128x128_S10240x128_1_0_0_1_n_n.rhsNonContracting by decide)]
  rfl

/-- A [10240,128] × [128,128] product at entry (j, q): the sum over the 128 contracted columns. -/
theorem dot_apply (x : FVec Ideal S10240x128 .f32) (w : FVec Ideal S128x128 .f32) (j : Fin 10240) (q : Fin 128) :
    Host.dotGeneral (F := Ideal) dot_S10240x128_S128x128_S10240x128_1_0_0_1_n_n (some .fp32) x w (ix2 j q)
      = ∑ k : Fin 128, x (ix2 j k) * w (ix2 k q) := by
  simp only [Host.dotGeneral]
  rw [Ideal.dotGeneral_apply, ← Equiv.sum_comp (contrEquiv1 dot_S10240x128_S128x128_S10240x128_1_0_0_1_n_n 128 rfl rfl).symm]
  refine Finset.sum_congr rfl fun k _ => ?_
  have hk := contrEquiv1_symm_val dot_S10240x128_S128x128_S10240x128_1_0_0_1_n_n 128 rfl rfl k
  have el : dot_S10240x128_S128x128_S10240x128_1_0_0_1_n_n.lhsIdx (ix2 j q)
      ((contrEquiv1 dot_S10240x128_S128x128_S10240x128_1_0_0_1_n_n 128 rfl rfl).symm k) = ix2 j k :=
    funext fun a => Fin.ext (by
      match a with
      | ⟨0, _⟩ => exact dot_lhs0 _ _
      | ⟨1, _⟩ => exact (dot_lhs1 _ _).trans hk)
  have er : dot_S10240x128_S128x128_S10240x128_1_0_0_1_n_n.rhsIdx (ix2 j q)
      ((contrEquiv1 dot_S10240x128_S128x128_S10240x128_1_0_0_1_n_n 128 rfl rfl).symm k) = ix2 k q :=
    funext fun a => Fin.ext (by
      match a with
      | ⟨0, _⟩ => exact (dot_rhs0 _ _).trans hk
      | ⟨1, _⟩ => exact dot_rhs1 _ _)
  rw [el, er]

/-- The feature matrix with 240 zero rows appended, at entry (j, k): the matrix's entry on its own rows, the padding
    value below them. -/
theorem pad_rows_apply (x : FVec Ideal S10000x128 .f32) (v : S_.Idx → EReal) (j : Fin 10240) (k : Fin 128) :
    pad S10240x128 ![0, 0] ![240, 0] ![0, 0] x v pads_S10000x128_S10240x128_02400_000 h_S_ (ix2 j k)
      = if h : j.val < 10000 then x (ix2 ⟨j.val, h⟩ k) else v (Shape.Idx.first h_S_) := by
  by_cases h : j.val < 10000
  · rw [dif_pos h]
    refine pad_apply_of_inside _ _ _ x v _ h_S_ _ _ fun a => ?_
    match a with
    | ⟨0, _⟩ => show j.val = 0 + j.val * (0 + 1); omega
    | ⟨1, _⟩ => show k.val = 0 + k.val * (0 + 1); omega
  · rw [dif_neg h]
    refine pad_apply_of_not_inside _ _ _ x v _ h_S_ _ 0 fun hin => h ?_
    have h3 : ((ix2 j k : S10240x128.Idx) ((0 : Fin S10000x128.rank).cast pads_S10000x128_S10240x128_02400_000.1)).val = j.val := rfl
    have := hin.2.2
    rw [h3] at this
    simpa using this

/-! ## What the launch arguments hold at each stage: no host stretch writes an argument -/

theorem V4_arg0 : V4 m c main_arg0 = m ((c.tc : Thread nD τ).loc main_arg0) :=
  (V4_of m c main_arg0 (by decide)).trans <| (V3_of m c main_arg0 (by decide)).trans <|
    (V2_of m c main_arg0 (by decide)).trans <| (V1_of m c main_arg0 (by decide))
theorem V3_arg0 : V3 m c main_arg0 = m ((c.tc : Thread nD τ).loc main_arg0) :=
  (V3_of m c main_arg0 (by decide)).trans <| (V2_of m c main_arg0 (by decide)).trans <| (V1_of m c main_arg0 (by decide))
theorem V4_arg2 : V4 m c main_arg2 = m ((c.tc : Thread nD τ).loc main_arg2) :=
  (V4_of m c main_arg2 (by decide)).trans <| (V3_of m c main_arg2 (by decide)).trans <|
    (V2_of m c main_arg2 (by decide)).trans <| (V1_of m c main_arg2 (by decide))
theorem V4_arg3 : V4 m c main_arg3 = m ((c.tc : Thread nD τ).loc main_arg3) :=
  (V4_of m c main_arg3 (by decide)).trans <| (V3_of m c main_arg3 (by decide)).trans <|
    (V2_of m c main_arg3 (by decide)).trans <| (V1_of m c main_arg3 (by decide))
theorem V6_arg4 : V6 m outs c main_arg4 = m ((c.tc : Thread nD τ).loc main_arg4) :=
  (V6_of m outs c main_arg4 (by decide)).trans <| (V5_of m c main_arg4 (by decide)).trans <|
    (V4_of m c main_arg4 (by decide)).trans <| (V3_of m c main_arg4 (by decide)).trans <|
    (V2_of m c main_arg4 (by decide)).trans <| (V1_of m c main_arg4 (by decide))
theorem V6_arg5 : V6 m outs c main_arg5 = m ((c.tc : Thread nD τ).loc main_arg5) :=
  (V6_of m outs c main_arg5 (by decide)).trans <| (V5_of m c main_arg5 (by decide)).trans <|
    (V4_of m c main_arg5 (by decide)).trans <| (V3_of m c main_arg5 (by decide)).trans <|
    (V2_of m c main_arg5 (by decide)).trans <| (V1_of m c main_arg5 (by decide))

/-! ## The first layer's projection and bias row -/

/-- The zero the padding is filled with, as the third stretch leaves it. -/
theorem V3_c12 : @Eq (S_.Idx → BitVec 32) (V3 m c main_c_12) (constantI S_ 32 0#32) := by
  dsimp only [V3]
  generalize V2 m c = W
  after_results

/-- The padded feature matrix, as the fourth stretch leaves it. -/
theorem V4_v47 :
    @Eq (S10240x128.Idx → EReal) (V4 m c main_v47)
      (pad S10240x128 ![0, 0] ![240, 0] ![0, 0] (V3 m c main_arg0 : S10000x128.Idx → EReal)
          (sitofp (F := Ideal) .f32 (V3 m c main_c_12 : S_.Idx → BitVec 32)) pads_S10000x128_S10240x128_02400_000 h_S_) := by
  dsimp only [V4]
  generalize V3 m c = W
  after_results
  rfl

/-- The first projection, as the fifth stretch leaves it. -/
theorem V5_v48 :
    @Eq (S10240x128.Idx → EReal) (V5 m c main_v48)
      (Host.dotGeneral (F := Ideal) (φ₁ := .f32) (φ₂ := .f32) dot_S10240x128_S128x128_S10240x128_1_0_0_1_n_n (some .fp32)
          (V4 m c main_v47 : S10240x128.Idx → EReal) (V4 m c main_arg2 : S128x128.Idx → EReal)) := by
  dsimp only [V5]
  generalize V4 m c = W
  after_results

/-- The padded feature matrix at an entry: the features on the 10000 rows of the graph's nodes, zero below. -/
theorem V4_v47_apply (j : Fin 10240) (k : Fin 128) :
    @Eq EReal (V4 m c main_v47 (ix2 j k)) (if h : j.val < 10000 then a0 m c (ix2 ⟨j.val, h⟩ k) else 0) := by
  rw [V4_v47, pad_rows_apply, V3_c12, V3_arg0]
  by_cases h : j.val < 10000
  · rw [dif_pos h, dif_pos h]
  · rw [dif_neg h, dif_neg h]
    show (((0#32 : BitVec 32).toInt : ℝ) : EReal) = 0
    simp

/-- The first layer's projection of the padded features, at an entry. -/
theorem V5_h1 (j : Fin 10240) (q : Fin 128) :
    @Eq EReal (V5 m c main_v48 (ix2 j q))
      (∑ k : Fin 128, (if h : j.val < 10000 then a0 m c (ix2 ⟨j.val, h⟩ k) else 0) * a2 m c (ix2 k q)) := by
  refine (congrFun (V5_v48 m c) (ix2 j q)).trans ?_
  rw [dot_apply]
  show @Eq EReal _ _
  refine Finset.sum_congr rfl fun k _ => ?_
  rw [V4_v47_apply, V4_arg2]

/-- The first bias as a one-row matrix, as the fifth stretch leaves it. -/
theorem V5_v49 :
    @Eq (S1x128.Idx → EReal) (V5 m c main_v49) (shapeCast S1x128 (V4 m c main_arg3 : S128.Idx → EReal) shapeCasts_S128_S1x128) := by
  dsimp only [V5]
  generalize V4 m c = W
  after_results
  rfl

/-- The first bias row at an entry. -/
theorem V5_b1 (q : Fin 128) : @Eq EReal (V5 m c main_v49 (ix2 0 q)) (a3 m c (ix1 q)) := by
  refine (congrFun (V5_v49 m c) (ix2 0 q)).trans ?_
  rw [shapeCast_a_1a_apply, V4_arg3]

/-! ## The second layer: the row mask, the masked projection, the bias row -/

/-- The first aggregation's output passes through the adjacency's host stretch unchanged. -/
theorem V6_v50 : @Eq (S10240x128.Idx → EReal) (V6 m outs c main_v50) (o6 outs c) := by
  dsimp only [V6]
  exact Function.update_self _ _ _

/-- The dense adjacency is not touched between the fifth stretch and the second kernel. -/
theorem V7_adj : V7 m outs c main_v46 = V5 m c main_v46 :=
  (V7_of m outs c main_v46 (by decide)).trans (V6_of m outs c main_v46 (by decide))

/-- The mask of the graph's rows: one on the 10000 rows of nodes, zero on the 240 rows of padding. -/
def rowMask : S10240x128.Idx → EReal :=
  broadcastInDim S10240x128 ![0, 1] bcast_S10240x1_S10240x128_0_1
    (uitofp (F := Ideal) .f32
      (broadcastInDim S10240x1 ![0] bcast_S10240_S10240x1_0
        (cmpi .slt (iotaInDim S10240 32 0) (broadcastInDim S10240 ![] bcast_S_S10240 (constantI S_ 32 10000#32)))))

/-- A row number below 10240, as a 32-bit word, is below 10000 as a signed word exactly when it is below 10000. -/
theorem slt_row (j : Nat) (hj : j < 10240) : (BitVec.ofNat 32 j).slt 10000#32 = decide (j < 10000) := by
  have e1 : (10000#32 : BitVec 32).toInt = 10000 := by decide
  have e2 : (BitVec.ofNat 32 j).toInt = (j : ℤ) := by
    rw [BitVec.toInt_eq_toNat_of_lt (by rw [BitVec.toNat_ofNat]; omega), BitVec.toNat_ofNat]
    omega
  rw [BitVec.slt, e1, e2]
  by_cases h : j < 10000
  · rw [decide_eq_true h, decide_eq_true (by omega)]
  · rw [decide_eq_false h, decide_eq_false (by omega)]

theorem rowMask_apply (j : Fin 10240) (q : Fin 128) : rowMask (ix2 j q) = if j.val < 10000 then (1 : EReal) else 0 := by
  unfold rowMask
  rw [broadcastInDim_apply ![0, 1] bcast_S10240x1_S10240x128_0_1 _ (ix2 j q) (ix2 j (0 : Fin 1)) (fun a => by
    match a with
    | ⟨0, _⟩ => exact (if_neg (show ¬ (10240 : ℕ) = 1 by omega)).symm
    | ⟨1, _⟩ => exact (if_pos rfl).symm)]
  show FloatOps.uitofp (F := Ideal) .f32 _ = _
  rw [broadcastInDim_apply ![0] bcast_S10240_S10240x1_0 _ (ix2 j (0 : Fin 1)) (ix1 j) (fun a => by
    match a with
    | ⟨0, _⟩ => exact (if_neg (show ¬ (10240 : ℕ) = 1 by omega)).symm)]
  show (((IntOp.cmpi .slt (BitVec.ofNat 32 j.val) (broadcastInDim S10240 ![] bcast_S_S10240 (constantI S_ 32 10000#32) (ix1 j))).toNat : ℝ) : EReal) = _
  rw [broadcastInDim_scalar_apply, constantI_apply]
  show (((BitVec.ofBool ((BitVec.ofNat 32 j.val).slt 10000#32)).toNat : ℝ) : EReal) = _
  rw [slt_row j.val j.isLt]
  by_cases h : j.val < 10000
  · rw [decide_eq_true h, if_pos h]; simp
  · rw [decide_eq_false h, if_neg h]; simp

/-- The masked first-layer output, as the host stretch after the first kernel leaves it. -/
theorem V7_v57 :
    @Eq (S10240x128.Idx → EReal) (V7 m outs c main_v57) (mulf (F := Ideal) (φ := .f32) (V6 m outs c main_v50 : S10240x128.Idx → EReal) rowMask) := by
  dsimp only [V7]
  generalize V6 m outs c = W
  after_results
  rfl

theorem V7_v57_apply (j : Fin 10240) (k : Fin 128) :
    @Eq EReal (V7 m outs c main_v57 (ix2 j k)) (o6 outs c (ix2 j k) * (if j.val < 10000 then (1 : EReal) else 0)) := by
  refine (congrFun (V7_v57 m outs c) (ix2 j k)).trans ?_
  rw [mulf_apply, rowMask_apply, V6_v50]

/-- The second projection, as the same stretch leaves it. -/
theorem V7_v58 :
    @Eq (S10240x128.Idx → EReal) (V7 m outs c main_v58)
      (Host.dotGeneral (F := Ideal) (φ₁ := .f32) (φ₂ := .f32) dot_S10240x128_S128x128_S10240x128_1_0_0_1_n_n (some .fp32)
          (V7 m outs c main_v57 : S10240x128.Idx → EReal) (V6 m outs c main_arg4 : S128x128.Idx → EReal)) := by
  dsimp only [V7]
  generalize V6 m outs c = W
  after_results

/-- The second layer's projection of the masked first-layer output, at an entry. -/
theorem V7_h2 (j : Fin 10240) (q : Fin 128) :
    @Eq EReal (V7 m outs c main_v58 (ix2 j q))
      (∑ k : Fin 128, (o6 outs c (ix2 j k) * (if j.val < 10000 then (1 : EReal) else 0)) * a4 m c (ix2 k q)) := by
  refine (congrFun (V7_v58 m outs c) (ix2 j q)).trans ?_
  rw [dot_apply]
  show @Eq EReal _ _
  refine Finset.sum_congr rfl fun k _ => ?_
  rw [V7_v57_apply, V6_arg4]

/-- The second bias as a one-row matrix, as the same stretch leaves it. -/
theorem V7_v59 :
    @Eq (S1x128.Idx → EReal) (V7 m outs c main_v59) (shapeCast S1x128 (V6 m outs c main_arg5 : S128.Idx → EReal) shapeCasts_S128_S1x128) := by
  dsimp only [V7]
  generalize V6 m outs c = W
  after_results
  rfl

/-- The second bias row at an entry. -/
theorem V7_b2 (q : Fin 128) : @Eq EReal (V7 m outs c main_v59 (ix2 0 q)) (a5 m c (ix1 q)) := by
  refine (congrFun (V7_v59 m outs c) (ix2 0 q)).trans ?_
  rw [shapeCast_a_1a_apply, V6_arg5]

/-! ## The results: the first 10000 rows -/

/-- The masked first-layer output is not written by the second kernel. -/
theorem V8_v57 : V8 m outs c main_v57 = V7 m outs c main_v57 := V8_of m outs c main_v57 (by decide)

/-- The second aggregation's output, as the second kernel leaves it. -/
theorem V8_v60 : @Eq (S10240x128.Idx → EReal) (V8 m outs c main_v60) (o8 outs c) := by
  dsimp only [V8]
  exact Function.update_self _ _ _

/-- The first result, as the last stretch leaves it. -/
theorem V9_v61 :
    @Eq (S10000x128.Idx → EReal) (V9 m outs c main_v61)
      (extractStridedSlice S10000x128 ![0, 0] (V8 m outs c main_v57 : S10240x128.Idx → EReal) slices_S10240x128_S10000x128_0_0) := by
  dsimp only [V9]
  generalize V8 m outs c = W
  after_results

/-- The second result, as the last stretch leaves it. -/
theorem V9_v62 :
    @Eq (S10000x128.Idx → EReal) (V9 m outs c main_v62)
      (extractStridedSlice S10000x128 ![0, 0] (V8 m outs c main_v60 : S10240x128.Idx → EReal) slices_S10240x128_S10000x128_0_0) := by
  dsimp only [V9]
  generalize V8 m outs c = W
  after_results

/-- The first result at an entry: the first kernel's output on a node's row, times the mask's one. -/
theorem V9_x1 (i : Fin 10000) (q : Fin 128) :
    @Eq EReal (V9 m outs c main_v61 (ix2 i q)) (o6 outs c (ix2 ⟨i.val, by omega⟩ q) * 1) := by
  refine (congrFun (V9_v61 m outs c) (ix2 i q)).trans ?_
  rw [slice2_axis0_apply 0 _ _ i q ⟨i.val, by omega⟩ (by simp), V8_v57, V7_v57_apply, if_pos i.isLt]

/-- The second result at an entry: the second kernel's output on a node's row. -/
theorem V9_x2 (i : Fin 10000) (q : Fin 128) :
    @Eq EReal (V9 m outs c main_v62 (ix2 i q)) (o8 outs c (ix2 ⟨i.val, by omega⟩ q)) := by
  refine (congrFun (V9_v62 m outs c) (ix2 i q)).trans ?_
  rw [slice2_axis0_apply 0 _ _ i q ⟨i.val, by omega⟩ (by simp), V8_v60]

end Cert.KHostB

end
-- ==== Proof.NormFacts.lean ====
/-
  Two facts about the preprocessing of the graph, as the reference performs it on its edge list: two rows of
  640000 node numbers (sources, targets), to each of which the 10000 self loops i → i are appended.

  • The weight of an edge e is  s[row e] · s[col e],  where s[i] is the inverse square root of max(deg i, 1) when
    the weighted in-degree deg i is positive and 0 otherwise.  Every such weight is a real number, whatever the
    edge list holds: the inverse square root of an extended real that is at least 1 is a real number (of +∞ it is
    0), 0 is a real number, and a product of two real numbers is one.  Nothing about the degrees is used.
  • When every endpoint given is a node number (0 ≤ · < 10000, read signed), so is every endpoint of the list
    with the self loops appended: below position 640000 an endpoint is one of those given, and from there on it
    is the position less 640000, a number below 10000.
-/
import proofs.«417435_j16149077033111_3_alg».proof.Proof.RefRead
import proofs.«417435_j16149077033111_3_alg».proof.Proof.Spec
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws
import Mathlib.Data.EReal.Basic
import Mathlib.Tactic.Lift
import Mathlib.Tactic.Linarith

noncomputable section

namespace Cert.NormFacts

open Cert.ReferenceIdeal Cert.ReferenceIdeal.ReadP Idealize.ShloMosaic Idealize.ShloMosaic.ValueIdx

/-! ### The weights are real numbers -/

/-- The inverse square root of an extended real that is at least one is a real number: of +∞ it is 0, and of a
    real r ≥ 1 it is 1 / √r. -/
theorem rsqrt_finite_of_one_le (y : EReal) (hy : 1 ≤ y) : Ideal.rsqrt y ≠ ⊤ ∧ Ideal.rsqrt y ≠ ⊥ := by
  induction y using EReal.rec with
  | bot =>
    have h1 : (⊥ : EReal) < 1 := by rw [← EReal.coe_one]; exact EReal.bot_lt_coe 1
    exact absurd hy (not_le.mpr h1)
  | top => rw [Ideal.rsqrt_top]; exact ⟨EReal.zero_ne_top, EReal.zero_ne_bot⟩
  | coe r =>
    have hr : (1 : ℝ) ≤ r := by exact_mod_cast hy
    rw [Ideal.rsqrt_coe, if_neg (by linarith), if_neg (by linarith)]
    exact ⟨EReal.coe_ne_top _, EReal.coe_ne_bot _⟩

/-- A product of two real numbers is a real number. -/
theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

variable (a1 : IVec S2x640000 32)

/-- Every node's scale s[i] — the inverse square root of max(deg i, 1), or 0 — is a real number. -/
theorem scale_finite (i : S10000.Idx) :
    (val_main_v16 (F := Ideal) a1 i : EReal) ≠ ⊤ ∧ (val_main_v16 (F := Ideal) a1 i : EReal) ≠ ⊥ := by
  rw [val_main_v16_apply]
  unfold Scalar.select
  split
  · rw [val_main_v15_apply, Ideal.hostUnary_rsqrt_def]
    refine rsqrt_finite_of_one_le _ ?_
    rw [val_main_v14_apply, Ideal.maximumf_def, val_main_v13_apply, val_main_cst_2_apply, Ideal.ofBits_def,
      Ideal.ofBits_one_f32]
    exact le_max_right _ _
  · rw [val_main_call0_v1_apply, val_main_call0_v0_apply, val_main_cst_3_apply, Ideal.ofBits_def,
      Ideal.ofBits_zero_f32]
    exact ⟨EReal.zero_ne_top, EReal.zero_ne_bot⟩

/-- The scale gathered at an edge's source is an entry of the scales. -/
theorem src_scale_eq (y : S650000.Idx) :
    val_main_v23 (F := Ideal) a1 y
      = val_main_v16 (F := Ideal) a1
          (gather_S10000_S650000x1_S650000_n_0_n_n_0_1_1.operandIdx y (val_main_v22 (F := Ideal) a1)) := rfl

/-- The scale gathered at an edge's target is an entry of the scales. -/
theorem tgt_scale_eq (y : S650000.Idx) :
    val_main_v30 (F := Ideal) a1 y
      = val_main_v16 (F := Ideal) a1
          (gather_S10000_S650000x1_S650000_n_0_n_n_0_1_1.operandIdx y (val_main_v29 (F := Ideal) a1)) := rfl

/-- Every edge weight is a real number. -/
theorem norm_finite : Cert.Spec.Finite (val_main_v31 (F := Ideal) a1) := by
  intro y
  rw [val_main_v31_apply, Ideal.mulf_def, src_scale_eq, tgt_scale_eq]
  exact mul_finite (scale_finite a1 _) (scale_finite a1 _)

/-! ### The endpoints are node numbers -/

/-- A number below 10000, as a 32-bit word read signed, is itself. -/
theorem toInt_ofNat_small (n : Nat) (hn : n < 10000) : (BitVec.ofNat 32 n).toInt = (n : ℤ) := by
  rw [BitVec.toInt_eq_toNat_cond, BitVec.toNat_ofNat, Nat.mod_eq_of_lt (by omega)]
  split <;> omega

/-- A row of 640000 node numbers followed by the numbers 0 … 9999 holds node numbers only. -/
theorem cat_inRange (hc : Shape.Concatenates [S640000, S10000] S650000 0) (x : S640000.Idx → BitVec 32)
    (hx : ∀ i, 0 ≤ (x i).toInt ∧ (x i).toInt < 10000) (e : Fin 650000) :
    0 ≤ (concatenate S650000 0 [⟨S640000, x⟩, ⟨S10000, val_main_v4 (F := Ideal)⟩] hc (ix1 e)).toInt
      ∧ (concatenate S650000 0 [⟨S640000, x⟩, ⟨S10000, val_main_v4 (F := Ideal)⟩] hc (ix1 e)).toInt < 10000 := by
  by_cases he : e.val < 640000
  · rw [concatenate_pair_apply_left (t := S650000) (s₁ := S640000) (s₂ := S10000) (0 : Fin 1) x
      (val_main_v4 (F := Ideal)) hc (ix1 e) rfl (ix1 (⟨e.val, he⟩ : Fin 640000))
      (fun b => by match b with | ⟨0, _⟩ => rfl)]
    exact hx _
  · have he2 : e.val - 640000 < 10000 := by have := e.isLt; omega
    rw [concatenate_pair_apply_right (t := S650000) (s₁ := S640000) (s₂ := S10000) (0 : Fin 1) x
      (val_main_v4 (F := Ideal)) hc (ix1 e) rfl rfl (ix1 (⟨e.val - 640000, he2⟩ : Fin 10000))
      (fun b hb => absurd (Subsingleton.elim _ _) hb)
      (by show e.val - 640000 + 640000 = e.val; omega)]
    rw [val_main_v4_apply]
    show 0 ≤ (BitVec.ofNat 32 (e.val - 640000)).toInt ∧ (BitVec.ofNat 32 (e.val - 640000)).toInt < 10000
    rw [toInt_ofNat_small _ he2]
    omega

/-- With every given endpoint a node number, every endpoint of the list with the self loops appended is one. -/
theorem rowcol_inRange (h : ∀ y, 0 ≤ (a1 y).toInt ∧ (a1 y).toInt < 10000) :
    Cert.Spec.InRange (val_main_v5 (F := Ideal) a1) (val_main_v6 (F := Ideal) a1) := by
  intro e
  refine ⟨?_, ?_⟩
  · exact cat_inRange _ (val_main_v1 (F := Ideal) a1)
      (fun i => by rw [val_main_v1_apply, val_main_v0_apply]; exact h _) e
  · exact cat_inRange _ (val_main_v3 (F := Ideal) a1)
      (fun i => by rw [val_main_v3_apply, val_main_v2_apply]; exact h _) e

end Cert.NormFacts

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.RValue.lean ====
/-
  What the reference program's two results are, index by index, over the extended reals.

  The reference computes two graph-convolution layers edge by edge. With the 10000 self loops appended, the edge
  list has 650000 edges; each layer multiplies the node features by a weight matrix (`h1_apply`, `h2_apply`: entry
  `(j, q)` of the product is the sum over `k` of the left entry `(j, k)` times the right entry `(k, q)`), gathers
  for every edge the product's row at the edge's source (`gathered_row`: the source word wrapped by 10000 when negative,
  then read signed and clamped into the rows — `srcRow`; for a source word that is a node it is that node,
  `srcRow_val`), scales the row by the edge's weight, scatter-adds the scaled rows from zero into the edges' target
  nodes (a row whose target word is no node is dropped), and adds the bias (`layer_pre`). The first layer ends in the
  positive part and is the program's second result (`x1_apply`); the second layer, from the first's output, has no
  activation and is the first result (`x2_apply`). Both are stated in the edge-by-edge layer form `Cert.Spec.layerR`.
  No step looks at more than one edge at a time: every array is read at one index.
-/
import proofs.«417435_j16149077033111_3_alg».proof.Proof.RefRead
import proofs.«417435_j16149077033111_3_alg».proof.Proof.Spec
import proofs.«417435_j16149077033111_3_alg».proof.Proof.LibRowsScatter
import Idealize.ShloMosaic.Lib.ValueIdx
import Idealize.ShloMosaic.Lib.Pipeline.Value
import Idealize.ShloMosaic.PureOps.Ideal.Laws

noncomputable section

open scoped BigOperators

namespace Cert.RValue

open Cert.ReferenceIdeal Cert.ReferenceIdeal.ReadP Cert.Spec Idealize.ShloMosaic Idealize.ShloMosaic.ValueIdx

/-! ## A gather of whole rows, read at an index -/

/-- A `stablehlo.gather` of whole rows of `x : [N, D]` at a column of start indices `idx : [E, 1]` (offset axis the
    result's second, the operand's row axis collapsed and the one the start index addresses, index vector on axis 1):
    result element `(e, q)` is `x` at row `idx[e, 0]`, read signed and clamped into `[0, N − 1]`, column `q`. -/
theorem rowsGather_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q)
      = x (ix2 ⟨min (idx (ix2 e (0 : Fin 1))).toInt.toNat (N - 1), by omega⟩ q) := by
  have hsl : d.sliceSizes 0 = 1 := d.slice_collapsed 0 (by rw [hcoll]; exact List.mem_singleton.mpr rfl)
  obtain ⟨od, cd, ob, sb, sm, iv, ss, wf⟩ := d
  subst hoff hcoll hob hsim hivd
  unfold Host.gather
  congr 1
  funext a
  refine Fin.ext ?_
  match a with
  | ⟨0, _⟩ =>
    -- the row axis: collapsed and start-indexed, so the clamped start and nothing else
    show GatherDims.start _ (ix2 e q) idx 0 + GatherDims.batchCoord _ (ix2 e q) 0 + GatherDims.offCoord _ (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = min (idx (ix2 e (0 : Fin 1))).toInt.toNat (N - 1)
    rw [show ss 0 = 1 from hsl]
    refine congrArg (fun i => min (idx i).toInt.toNat (N - 1)) ?_
    funext b
    refine Fin.ext ?_
    match b with
    | ⟨0, _⟩ => rfl
    | ⟨1, _⟩ => rfl
  | ⟨1, _⟩ =>
    -- the column axis: no start index, no batching, the result's offset coordinate
    show GatherDims.start _ (ix2 e q) idx 1 + GatherDims.batchCoord _ (ix2 e q) 1 + GatherDims.offCoord _ (ix2 e q) 1 = q.val
    rw [GatherDims.batchCoord_eq_zero _ _ _ List.not_mem_nil]
    unfold GatherDims.start
    rw [dif_neg (fun h => Nat.one_ne_zero (congrArg Fin.val (List.mem_singleton.mp h)))]
    simp only [Nat.add_zero, Nat.zero_add]
    rfl

/-! ## The source row of an edge -/

/-- The gathered source row of edge `e`: the edge's source word, wrapped by 10000 when negative, read signed and
    clamped into `[0, 9999]`. -/
def srcRow (a1 : IVec S2x640000 32) (e : Fin 650000) : Fin 10000 :=
  ⟨min (val_main_v37 (F := Ideal) a1 (ix1 e)).toInt.toNat (10000 - 1), by omega⟩

/-- A nonnegative source word is not wrapped. -/
theorem wrapped_eq (a1 : IVec S2x640000 32) (e : Fin 650000)
    (h : 0 ≤ (val_main_v5 (F := Ideal) a1 (ix1 e)).toInt) :
    val_main_v37 (F := Ideal) a1 (ix1 e) = val_main_v5 (F := Ideal) a1 (ix1 e) := by
  rw [val_main_v37_apply, val_main_v34_apply, val_main_v33_apply, val_main_c_7_apply]
  have hc : IntOp.cmpi .slt (val_main_v5 (F := Ideal) a1 (ix1 e)) 0#32 = 0#1 := by
    unfold IntOp.cmpi
    have h0 : (0#32 : BitVec 32).toInt = 0 := by decide
    have : (val_main_v5 (F := Ideal) a1 (ix1 e)).slt 0#32 = false := by
      simp only [BitVec.slt, h0, decide_eq_false_iff_not, not_lt]; exact h
    rw [this]; rfl
  rw [hc, select_zero]

/-- When the source word is a node, the source row is that node. -/
theorem srcRow_val (a1 : IVec S2x640000 32) (e : Fin 650000)
    (h : 0 ≤ (val_main_v5 (F := Ideal) a1 (ix1 e)).toInt ∧ (val_main_v5 (F := Ideal) a1 (ix1 e)).toInt < 10000) :
    ((srcRow a1 e).val : ℤ) = (val_main_v5 (F := Ideal) a1 (ix1 e)).toInt := by
  have hw := wrapped_eq a1 e h.1
  have hv : (srcRow a1 e).val = min (val_main_v37 (F := Ideal) a1 (ix1 e)).toInt.toNat (10000 - 1) := rfl
  rw [hv, hw]
  omega

/-! ## One layer before its activation -/

/-- The column of a vector of edges: entry `(e, 0)` reads the vector at `e`. -/
theorem idx_col (e : Fin 650000) : idx_main_v44 (ix2 e (0 : Fin 1)) = ix1 e := by
  funext a; match a with | ⟨0, _⟩ => rfl

/-- The weights laid along the rows of the edge-by-feature rectangle: entry `(e, q)` reads the weight of `e`. -/
theorem idx_rows (e : Fin 650000) (q : Fin 128) : idx_main_v40 (idx_main_v41 (ix2 e q)) = ix1 e := by
  funext a; match a with | ⟨0, _⟩ => rfl

/-- The bias laid along the columns of the node-by-feature rectangle: entry `(i, q)` reads the bias at `q`. -/
theorem idx_bias (i : Fin 10000) (q : Fin 128) : idx_main_v46 (idx_main_v47 (ix2 i q)) = ix1 q := by
  funext a; match a with | ⟨0, _⟩ => rfl

/-- The column of start indices: entry `(e, 0)` reads the wrapped source word of `e`. -/
theorem idx_src (e : Fin 650000) : idx_main_v38 (ix2 e (0 : Fin 1)) = ix1 e := by
  funext a; match a with | ⟨0, _⟩ => rfl

/-- THE GATHER OF ROWS READ AT EDGE `e`, FEATURE `q`: row `srcRow e` of the operand, column `q`. -/
theorem gathered_row (a1 : IVec S2x640000 32) (H : FVec Ideal S10000x128 .f32) (e : Fin 650000) (q : Fin 128) :
    Host.gather gather_S10000x128_S650000x1_S650000x128_1_0_n_n_0_1_1128 H (val_main_v38 (F := Ideal) a1) (ix2 e q)
      = H (ix2 (srcRow a1 e) q) := by
  rw [rowsGather_apply (by decide) gather_S10000x128_S650000x1_S650000x128_1_0_n_n_0_1_1128 rfl rfl rfl rfl rfl]
  refine congrArg (fun r => H (ix2 r q)) (Fin.ext ?_)
  show min (val_main_v38 (F := Ideal) a1 (ix2 e (0 : Fin 1))).toInt.toNat (10000 - 1)
    = min (val_main_v37 (F := Ideal) a1 (ix1 e)).toInt.toNat (10000 - 1)
  rw [val_main_v38_apply, idx_src]

/-- The weights broadcast over the features: entry `(e, q)` is the weight of `e`. -/
theorem weight_row (a1 : IVec S2x640000 32) (e : Fin 650000) (q : Fin 128) :
    val_main_v41 (F := Ideal) a1 (ix2 e q) = val_main_v31 (F := Ideal) a1 (ix1 e) := by
  rw [val_main_v41_apply, val_main_v40_apply, idx_rows]

/-- ONE LAYER BEFORE ITS ACTIVATION, read at node `i` and feature `q`: the rows of `H` gathered at the edges' source rows,
    scaled by the edge weights, scatter-added from zero into the edges' target nodes, plus the bias — the sum over the
    edges whose target word is `i` of `H[srcRow e, q] · norm e`, plus `b q`. -/
theorem layer_pre (a1 : IVec S2x640000 32) (H : FVec Ideal S10000x128 .f32) (b : FVec Ideal S128 .f32)
    (i : Fin 10000) (q : Fin 128) :
    addf (F := Ideal) (s := S10000x128) (φ := .f32) (Host.scatterAdd (F := Ideal) (φ := .f32) scatter_S10000x128_S650000x1_S650000x128_1_0_0_1 (val_main_v43 (F := Ideal))
        (val_main_v44 (F := Ideal) a1)
        (mulf (F := Ideal) (s := S650000x128) (φ := .f32) (Host.gather gather_S10000x128_S650000x1_S650000x128_1_0_n_n_0_1_1128 H (val_main_v38 (F := Ideal) a1))
          (val_main_v41 (F := Ideal) a1)))
      (val_main_v47 (F := Ideal) b) (ix2 i q)
    = (0 + ∑ e : Fin 650000, if (val_main_v6 (F := Ideal) a1 (ix1 e)).toInt = (i.val : ℤ)
          then H (ix2 (srcRow a1 e) q) * val_main_v31 (F := Ideal) a1 (ix1 e) else 0) + b (ix1 q) := by
  rw [addf_apply, Cert.LibRowsScatter.rowsScatterAdd_apply _ rfl rfl rfl rfl, val_main_v43_apply,
    val_main_cst_9_apply, val_main_v47_apply, val_main_v46_apply, idx_bias]
  have h0 : (FloatOps.ofBits .f32 0x00000000#32 : Ideal .f32) = 0 := Ideal.ofBits_zero_f32
  rw [h0]
  refine congrArg (fun s => (0 : EReal) + s + b (ix1 q)) (Finset.sum_congr rfl fun e _ => ?_)
  rw [val_main_v44_apply, idx_col, mulf_apply, gathered_row, weight_row]

/-! ## The two results -/

/-- The extended reals' zero is the float zero's value. -/
theorem zero_f32 : (FloatOps.ofBits .f32 0x00000000#32 : Ideal .f32) = 0 := Ideal.ofBits_zero_f32

/-- THE FIRST LAYER'S OUTPUT (the program's second result) at node `i`, feature `q`: the edge-by-edge layer with the
    positive part, over the features times the first weight matrix and the first bias. -/
theorem x1_apply (a0 : FVec Ideal S10000x128 .f32) (a1 : IVec S2x640000 32) (a2 : FVec Ideal S128x128 .f32)
    (a3 : FVec Ideal S128 .f32) (i : Fin 10000) (q : Fin 128) :
    val_main_v49 (F := Ideal) a0 a1 a2 a3 (ix2 i q)
      = layerR true (val_main_v6 (F := Ideal) a1) (val_main_v31 (F := Ideal) a1) (val_main_v32 (F := Ideal) a0 a2) a3
          (srcRow a1) i q := by
  rw [val_main_v49_apply, val_main_call1_v0_apply, val_main_call1_cst_apply, zero_f32]
  unfold val_main_v48 val_main_v45 val_main_v42 val_main_v39
  rw [layer_pre]
  unfold layerR act
  rw [if_pos rfl]
  rfl

/-- THE SECOND LAYER'S OUTPUT (the program's first result) at node `i`, feature `q`: the edge-by-edge layer without
    activation, over the first layer's output times the second weight matrix and the second bias. The second layer's
    zeros, index column, start indices, weight rectangle and bias rectangle are the first layer's, built again. -/
theorem x2_apply (a0 : FVec Ideal S10000x128 .f32) (a1 : IVec S2x640000 32) (a2 : FVec Ideal S128x128 .f32)
    (a3 : FVec Ideal S128 .f32) (a4 : FVec Ideal S128x128 .f32) (a5 : FVec Ideal S128 .f32)
    (i : Fin 10000) (q : Fin 128) :
    val_main_v66 (F := Ideal) a0 a1 a2 a3 a4 a5 (ix2 i q)
      = layerR false (val_main_v6 (F := Ideal) a1) (val_main_v31 (F := Ideal) a1)
          (val_main_v50 (F := Ideal) a0 a1 a2 a3 a4) a5 (srcRow a1) i q := by
  have e61 : val_main_v61 (F := Ideal) = val_main_v43 (F := Ideal) := rfl
  have e62 : val_main_v62 (F := Ideal) a1 = val_main_v44 (F := Ideal) a1 := rfl
  have e56 : val_main_v56 (F := Ideal) a1 = val_main_v38 (F := Ideal) a1 := rfl
  have e59 : val_main_v59 (F := Ideal) a1 = val_main_v41 (F := Ideal) a1 := rfl
  have e65 : val_main_v65 (F := Ideal) a5 = val_main_v47 (F := Ideal) a5 := rfl
  unfold val_main_v66 val_main_v63 val_main_v60 val_main_v57
  rw [e61, e62, e56, e59, e65, layer_pre]
  unfold layerR act
  rw [if_neg Bool.false_ne_true]

/-! ## The two products -/

/-- The features times the first weight matrix, at `(j, q)`. -/
theorem h1_apply (a0 : FVec Ideal S10000x128 .f32) (a2 : FVec Ideal S128x128 .f32) (j : Fin 10000) (q : Fin 128) :
    val_main_v32 (F := Ideal) a0 a2 (ix2 j q) = ∑ k : Fin 128, a0 (ix2 j k) * a2 (ix2 k q) := by
  rw [val_main_v32_apply]
  refine Finset.sum_congr rfl fun k _ => ?_
  have el : lidx_main_v32 (ix2 j q) k = ix2 j k := by
    funext a; match a with | ⟨0, _⟩ => rfl | ⟨1, _⟩ => rfl
  have er : ridx_main_v32 (ix2 j q) k = ix2 k q := by
    funext a; match a with | ⟨0, _⟩ => rfl | ⟨1, _⟩ => rfl
  rw [el, er]

/-- The first layer's output times the second weight matrix, at `(j, q)`. -/
theorem h2_apply (a0 : FVec Ideal S10000x128 .f32) (a1 : IVec S2x640000 32) (a2 : FVec Ideal S128x128 .f32)
    (a3 : FVec Ideal S128 .f32) (a4 : FVec Ideal S128x128 .f32) (j : Fin 10000) (q : Fin 128) :
    val_main_v50 (F := Ideal) a0 a1 a2 a3 a4 (ix2 j q)
      = ∑ k : Fin 128, val_main_v49 (F := Ideal) a0 a1 a2 a3 (ix2 j k) * a4 (ix2 k q) := by
  rw [val_main_v50_apply]
  refine Finset.sum_congr rfl fun k _ => ?_
  have el : lidx_main_v50 (ix2 j q) k = ix2 j k := by
    funext a; match a with | ⟨0, _⟩ => rfl | ⟨1, _⟩ => rfl
  have er : ridx_main_v50 (ix2 j q) k = ix2 k q := by
    funext a; match a with | ⟨0, _⟩ => rfl | ⟨1, _⟩ => rfl
  rw [el, er]

end Cert.RValue

end
-- ==== Proof.KIResult.lean ====
/-
  The bridge between the two programs' results, over the extended reals.

  One program aggregates through a dense matrix: it scatters the edge weights into a 10240 × 10240 adjacency matrix,
  pads the node features to 10240 rows, and in each of its two aggregation regions multiplies the matrix by the
  projected features, block by block, adds the bias and (in the first) takes the positive part. The other aggregates
  edge by edge. Here the first program's two results, read off the last valuation of its run, are shown to be, entry
  by entry, the second program's two stages of the same argument arrays.

  The argument, per layer: the region's output array holds the layer through the dense matrix (the array from its
  tiles, each tile the dense layer's rows); the dense matrix is the weighted adjacency of the edge list with its self
  loops, whose endpoints are nodes when the given ones are; the weights are real numbers, so the matrix's entries
  are; the projected features are real numbers when the arguments are, and on the 10000 rows of nodes they are the
  edge-by-edge program's projection; so on those rows the dense layer is the edge-by-edge layer. The second layer
  starts from the first region's output times a mask that is one on the rows of nodes: on those rows it is the first
  layer's output, which the first step identified. The results are the first 10000 rows of the two outputs.
  No valuation or array is unfolded: every step rewrites with a law of one stage read at an index.
-/
import proofs.«417435_j16149077033111_3_alg».proof.Proof.KI0Array
import proofs.«417435_j16149077033111_3_alg».proof.Proof.KI1Array
import proofs.«417435_j16149077033111_3_alg».proof.Proof.KI0Value
import proofs.«417435_j16149077033111_3_alg».proof.Proof.KI1Value
import proofs.«417435_j16149077033111_3_alg».proof.Proof.KHostA
import proofs.«417435_j16149077033111_3_alg».proof.Proof.KHostB
import proofs.«417435_j16149077033111_3_alg».proof.Proof.NormFacts
import proofs.«417435_j16149077033111_3_alg».proof.Proof.RValue
import proofs.«417435_j16149077033111_3_alg».proof.Proof.SpecLaws
import Idealize.ShloMosaic.Lib.ValueIdx

noncomputable section

open scoped BigOperators

namespace Cert.KIResult

open Cert.KernelIdeal Cert.KernelIdeal.Gen Cert.KernelIdeal.Fr
open Idealize.ShloMosaic Idealize.ShloMosaic.ValueIdx Idealize.ShloMosaic.TcCoe

variable (m : (ℓ : Loc nD τ sig) → Buf (Elt Ideal) ℓ) (outs : Outs (F := Ideal)) (c : Dev nD)

/-! ## The arrays at their literal types -/

/-- The table of edge endpoints at launch. -/
abbrev a1 : S2x640000.Idx → BitVec 32 := m ((c.tc : Thread nD τ).loc main_arg1)
/-- The dense adjacency the first region reads. -/
abbrev adjK : S10240x10240.Idx → EReal := V5 m c main_v46
/-- The padded first projection. -/
abbrev h1K : S10240x128.Idx → EReal := V5 m c main_v48
/-- The first bias row. -/
abbrev b1K : S1x128.Idx → EReal := V5 m c main_v49
/-- The masked second projection. -/
abbrev h2K : S10240x128.Idx → EReal := V7 m outs c main_v58
/-- The second bias row. -/
abbrev b2K : S1x128.Idx → EReal := V7 m outs c main_v59

/-- One is a real number. -/
theorem finite_one : (1 : EReal) ≠ ⊤ ∧ (1 : EReal) ≠ ⊥ := by
  rw [← EReal.coe_one]; exact ⟨EReal.coe_ne_top _, EReal.coe_ne_bot _⟩

/-! ## The graph side: the dense adjacency of the reference's edge list -/

section Graph

variable (hr1 : ∀ y, 0 ≤ (a1 m c y).toInt ∧ (a1 m c y).toInt < 10000)
include hr1

/-- The matrix the first region reads is the dense weighted adjacency of the reference's endpoints and weights. -/
theorem adj_eq :
    adjK m c = Cert.Spec.adj (Cert.ReferenceIdeal.ReadP.val_main_v5 (F := Ideal) (a1 m c))
      (Cert.ReferenceIdeal.ReadP.val_main_v6 (F := Ideal) (a1 m c))
      (Cert.ReferenceIdeal.ReadP.val_main_v31 (F := Ideal) (a1 m c)) := by
  funext y
  obtain ⟨i, j, rfl⟩ : ∃ (i j : Fin 10240), y = ix2 i j := ⟨y 0, y 1, eq_ix2 y⟩
  have hIR : Cert.Spec.InRange (V5 m c main_v5) (V5 m c main_v6) := by
    rw [Cert.KHostA.V5_row m c, Cert.KHostA.V5_col m c]
    exact Cert.NormFacts.rowcol_inRange _ hr1
  have h := Cert.KHostA.V5_adj m c hIR i j
  rw [Cert.KHostA.V5_row m c, Cert.KHostA.V5_col m c, Cert.KHostA.V5_norm m c] at h
  exact h

/-- Its entries are real numbers. -/
theorem adj_fin : Cert.Spec.Finite (adjK m c) := by
  rw [adj_eq m c hr1]
  exact Cert.Spec.adj_finite _ _ _ (Cert.NormFacts.norm_finite _)

end Graph

/-! ## The first layer -/

section Layer1

variable (h6 : outs 6 main_v50 c = (dat0 (fun c b => V5 m c b) c).arrAt 3 cfg0.N)
  (hf0 : ∀ y, Cert.KHostB.a0 m c y ≠ ⊤ ∧ Cert.KHostB.a0 m c y ≠ ⊥)
  (hf2 : ∀ y, Cert.KHostB.a2 m c y ≠ ⊤ ∧ Cert.KHostB.a2 m c y ≠ ⊥)
  (hf3 : ∀ y, Cert.KHostB.a3 m c y ≠ ⊤ ∧ Cert.KHostB.a3 m c y ≠ ⊥)
  (hr1 : ∀ y, 0 ≤ (a1 m c y).toInt ∧ (a1 m c y).toInt < 10000)

include hf0 hf2 in
/-- The padded first projection holds real numbers: a sum of products of features (or zeros) and weights. -/
theorem h1_fin : Cert.Spec.Finite (h1K m c) := by
  intro y
  obtain ⟨j, q, rfl⟩ : ∃ (j : Fin 10240) (q : Fin 128), y = ix2 j q := ⟨y 0, y 1, eq_ix2 y⟩
  rw [show h1K m c (ix2 j q) = _ from Cert.KHostB.V5_h1 m c j q]
  refine Cert.Spec.finite_sum _ _ fun k _ => Cert.Spec.finite_mul ?_ (hf2 _)
  by_cases hj : j.val < 10000
  · rw [dif_pos hj]; exact hf0 _
  · rw [dif_neg hj]; exact Cert.Spec.finite_zero

include hf3 in
/-- The first bias row holds real numbers. -/
theorem b1_fin : Cert.Spec.Finite (b1K m c) := by
  intro y
  obtain ⟨z, q, rfl⟩ : ∃ (z : Fin 1) (q : Fin 128), y = ix2 z q := ⟨y 0, y 1, eq_ix2 y⟩
  obtain rfl : z = 0 := Subsingleton.elim _ _
  rw [show b1K m c (ix2 0 q) = _ from Cert.KHostB.V5_b1 m c q]
  exact hf3 _

include h6 hf0 hf2 hr1 in
/-- What the first region leaves in its output array: the layer through the dense matrix, with the positive part. -/
theorem o6_eq (r : Fin 10240) (q : Fin 128) :
    Cert.KHostB.o6 outs c (ix2 r q) = Cert.Spec.layerK true (adjK m c) (h1K m c) (b1K m c) r q := by
  show (outs 6 main_v50 c : S10240x128.Idx → EReal) (ix2 r q) = _
  rw [h6]
  exact array0 (fun c b => V5 m c b) c (fun r q => Cert.Spec.layerK true (adjK m c) (h1K m c) (b1K m c) r q)
    (fun t h9 p q => tile0 (fun c b => V5 m c b) c (adj_fin m c hr1) (h1_fin m c hf0 hf2) t h9 p q) r q

include h6 hf0 hf2 hf3 hr1 in
/-- The first region's output holds real numbers. -/
theorem o6_fin : ∀ y, Cert.KHostB.o6 outs c y ≠ ⊤ ∧ Cert.KHostB.o6 outs c y ≠ ⊥ := by
  intro y
  obtain ⟨r, q, rfl⟩ : ∃ (r : Fin 10240) (q : Fin 128), y = ix2 r q := ⟨y 0, y 1, eq_ix2 y⟩
  rw [o6_eq m outs c h6 hf0 hf2 hr1 r q]
  exact Cert.Spec.layerK_finite true _ _ _ (adj_fin m c hr1) (h1_fin m c hf0 hf2) (b1_fin m c hf3) r q

include h6 hf0 hf2 hr1 in
/-- On a node's row the first region's output is the reference's first layer: the dense form's row is the edge form's. -/
theorem o6_node (i : Fin 10000) (q : Fin 128) :
    Cert.KHostB.o6 outs c (ix2 ⟨i.val, by omega⟩ q)
      = Cert.ReferenceIdeal.ReadP.val_main_v49 (F := Ideal) (Cert.KHostB.a0 m c) (a1 m c) (Cert.KHostB.a2 m c)
          (Cert.KHostB.a3 m c) (ix2 i q) := by
  have hIR := Cert.NormFacts.rowcol_inRange (a1 m c) hr1
  rw [o6_eq m outs c h6 hf0 hf2 hr1, adj_eq m c hr1, Cert.RValue.x1_apply]
  exact Cert.Spec.layer_bridge true _ _ _ (h1K m c)
    (Cert.ReferenceIdeal.ReadP.val_main_v32 (F := Ideal) (Cert.KHostB.a0 m c) (Cert.KHostB.a2 m c))
    (b1K m c) (Cert.KHostB.a3 m c) (Cert.RValue.srcRow (a1 m c)) hIR
    (fun e => Cert.RValue.srcRow_val (a1 m c) e (hIR e).1)
    (Cert.NormFacts.norm_finite _) (h1_fin m c hf0 hf2)
    (fun j q => by
      rw [show h1K m c (ix2 ⟨j.val, by omega⟩ q) = _ from Cert.KHostB.V5_h1 m c ⟨j.val, by omega⟩ q,
        Cert.RValue.h1_apply]
      refine Finset.sum_congr rfl fun k _ => ?_
      rw [dif_pos j.isLt])
    (fun q => Cert.KHostB.V5_b1 m c q) i q

end Layer1

/-! ## The second layer -/

section Layer2

variable (h6 : outs 6 main_v50 c = (dat0 (fun c b => V5 m c b) c).arrAt 3 cfg0.N)
  (h8 : outs 8 main_v60 c = (dat1 (fun c b => V7 m outs c b) c).arrAt 3 cfg1.N)
  (hf0 : ∀ y, Cert.KHostB.a0 m c y ≠ ⊤ ∧ Cert.KHostB.a0 m c y ≠ ⊥)
  (hf2 : ∀ y, Cert.KHostB.a2 m c y ≠ ⊤ ∧ Cert.KHostB.a2 m c y ≠ ⊥)
  (hf3 : ∀ y, Cert.KHostB.a3 m c y ≠ ⊤ ∧ Cert.KHostB.a3 m c y ≠ ⊥)
  (hf4 : ∀ y, Cert.KHostB.a4 m c y ≠ ⊤ ∧ Cert.KHostB.a4 m c y ≠ ⊥)
  (hf5 : ∀ y, Cert.KHostB.a5 m c y ≠ ⊤ ∧ Cert.KHostB.a5 m c y ≠ ⊥)
  (hr1 : ∀ y, 0 ≤ (a1 m c y).toInt ∧ (a1 m c y).toInt < 10000)

include h6 hf0 hf2 hf3 hf4 hr1 in
/-- The masked second projection holds real numbers: a sum of products of the first region's output, the mask's one or
    zero, and weights. -/
theorem h2_fin : Cert.Spec.Finite (h2K m outs c) := by
  intro y
  obtain ⟨j, q, rfl⟩ : ∃ (j : Fin 10240) (q : Fin 128), y = ix2 j q := ⟨y 0, y 1, eq_ix2 y⟩
  rw [show h2K m outs c (ix2 j q) = _ from Cert.KHostB.V7_h2 m outs c j q]
  refine Cert.Spec.finite_sum _ _ fun k _ =>
    Cert.Spec.finite_mul (Cert.Spec.finite_mul (o6_fin m outs c h6 hf0 hf2 hf3 hr1 _) ?_) (hf4 _)
  by_cases hj : j.val < 10000
  · rw [if_pos hj]; exact finite_one
  · rw [if_neg hj]; exact Cert.Spec.finite_zero

include hr1 in
/-- The matrix the second region reads is the one the first read. -/
theorem adj7_fin : Cert.Spec.Finite (V7 m outs c main_v46 : S10240x10240.Idx → EReal) := by
  rw [Cert.KHostB.V7_adj m outs c]
  exact adj_fin m c hr1

include h6 h8 hf0 hf2 hf3 hf4 hr1 in
/-- What the second region leaves in its output array: the layer through the dense matrix, without activation. -/
theorem o8_eq (r : Fin 10240) (q : Fin 128) :
    Cert.KHostB.o8 outs c (ix2 r q) = Cert.Spec.layerK false (adjK m c) (h2K m outs c) (b2K m outs c) r q := by
  show (outs 8 main_v60 c : S10240x128.Idx → EReal) (ix2 r q) = _
  rw [h8]
  have key := array1 (fun c b => V7 m outs c b) c
    (fun r q => Cert.Spec.layerK false (V7 m outs c main_v46) (h2K m outs c) (b2K m outs c) r q)
    (fun t h9 p q => tile1 (fun c b => V7 m outs c b) c (adj7_fin m outs c hr1)
      (h2_fin m outs c h6 hf0 hf2 hf3 hf4 hr1) t h9 p q) r q
  rw [Cert.KHostB.V7_adj m outs c] at key
  exact key

include h6 h8 hf0 hf2 hf3 hf4 hr1 in
/-- On a node's row the second region's output is the reference's second layer. -/
theorem o8_node (i : Fin 10000) (q : Fin 128) :
    Cert.KHostB.o8 outs c (ix2 ⟨i.val, by omega⟩ q)
      = Cert.ReferenceIdeal.ReadP.val_main_v66 (F := Ideal) (Cert.KHostB.a0 m c) (a1 m c) (Cert.KHostB.a2 m c)
          (Cert.KHostB.a3 m c) (Cert.KHostB.a4 m c) (Cert.KHostB.a5 m c) (ix2 i q) := by
  have hIR := Cert.NormFacts.rowcol_inRange (a1 m c) hr1
  rw [o8_eq m outs c h6 h8 hf0 hf2 hf3 hf4 hr1, adj_eq m c hr1, Cert.RValue.x2_apply]
  exact Cert.Spec.layer_bridge false _ _ _ (h2K m outs c)
    (Cert.ReferenceIdeal.ReadP.val_main_v50 (F := Ideal) (Cert.KHostB.a0 m c) (a1 m c) (Cert.KHostB.a2 m c)
      (Cert.KHostB.a3 m c) (Cert.KHostB.a4 m c))
    (b2K m outs c) (Cert.KHostB.a5 m c) (Cert.RValue.srcRow (a1 m c)) hIR
    (fun e => Cert.RValue.srcRow_val (a1 m c) e (hIR e).1)
    (Cert.NormFacts.norm_finite _) (h2_fin m outs c h6 hf0 hf2 hf3 hf4 hr1)
    (fun j q => by
      rw [show h2K m outs c (ix2 ⟨j.val, by omega⟩ q) = _ from Cert.KHostB.V7_h2 m outs c ⟨j.val, by omega⟩ q,
        Cert.RValue.h2_apply]
      refine Finset.sum_congr rfl fun k _ => ?_
      rw [if_pos j.isLt, mul_one, o6_node m outs c h6 hf0 hf2 hr1 j k])
    (fun q => Cert.KHostB.V7_b2 m outs c q) i q

end Layer2

/-! ## The two results -/

/-- THE BRIDGE. When the two regions leave in their output arrays what their runs say, the arguments hold real numbers
    and every given endpoint is a node, the program's two results are, entry by entry, the reference's two stages of
    the same arguments: its first layer's output and its second layer's. -/
theorem results (h6 : outs 6 main_v50 c = (dat0 (fun c b => V5 m c b) c).arrAt 3 cfg0.N)
    (h8 : outs 8 main_v60 c = (dat1 (fun c b => V7 m outs c b) c).arrAt 3 cfg1.N)
    (hf0 : ∀ y, Cert.KHostB.a0 m c y ≠ ⊤ ∧ Cert.KHostB.a0 m c y ≠ ⊥)
    (hf2 : ∀ y, Cert.KHostB.a2 m c y ≠ ⊤ ∧ Cert.KHostB.a2 m c y ≠ ⊥)
    (hf3 : ∀ y, Cert.KHostB.a3 m c y ≠ ⊤ ∧ Cert.KHostB.a3 m c y ≠ ⊥)
    (hf4 : ∀ y, Cert.KHostB.a4 m c y ≠ ⊤ ∧ Cert.KHostB.a4 m c y ≠ ⊥)
    (hf5 : ∀ y, Cert.KHostB.a5 m c y ≠ ⊤ ∧ Cert.KHostB.a5 m c y ≠ ⊥)
    (hr1 : ∀ y, 0 ≤ (a1 m c y).toInt ∧ (a1 m c y).toInt < 10000) :
    (∀ (i : Fin 10000) (q : Fin 128), @Eq EReal (V9 m outs c main_v61 (ix2 i q))
        (Cert.ReferenceIdeal.ReadP.val_main_v49 (F := Ideal) (Cert.KHostB.a0 m c) (a1 m c) (Cert.KHostB.a2 m c)
          (Cert.KHostB.a3 m c) (ix2 i q)))
    ∧ (∀ (i : Fin 10000) (q : Fin 128), @Eq EReal (V9 m outs c main_v62 (ix2 i q))
        (Cert.ReferenceIdeal.ReadP.val_main_v66 (F := Ideal) (Cert.KHostB.a0 m c) (a1 m c) (Cert.KHostB.a2 m c)
          (Cert.KHostB.a3 m c) (Cert.KHostB.a4 m c) (Cert.KHostB.a5 m c) (ix2 i q))) := by
  refine ⟨fun i q => ?_, fun i q => ?_⟩
  · exact (Cert.KHostB.V9_x1 m outs c i q).trans ((mul_one _).trans (o6_node m outs c h6 hf0 hf2 hr1 i q))
  · exact (Cert.KHostB.V9_x2 m outs c i q).trans (o8_node m outs c h6 h8 hf0 hf2 hf3 hf4 hr1 i q)

end Cert.KIResult

end
-- ==== Proof.PreFacts.lean ====
/-
  WHAT THE PRECONDITION SAYS. The printed predicate finite_inputs(x, edge_index, W1, b1, W2, b2) is the conjunction
  all(|x| < +inf) and all(|W1| < +inf) and all(|b1| < +inf) and all(|W2| < +inf) and all(|b2| < +inf)
  and all((edge_index >= 0) and (edge_index < 10000)), one let per operation. Read over the extended reals, where
  the pattern 0x7F800000 denotes the top element, "the predicate is 1" gives: no entry of the five real arrays is
  +infinity or -infinity (|v| = max v (-v) lies strictly below the top element), and every entry of the integer array,
  read as a signed 32-bit word, lies in [0, 10000).

  The steps: a conjunction of i1 words that is 1 has both its parts 1; an and-reduction over all axes that is 1 had a 1
  at every position; a scalar broadcast reads the scalar everywhere; a signed word compare that is 1 is the order of the
  signed values. No index set is enumerated anywhere.
-/
import proofs.«417435_j16149077033111_3_alg».proof.Pre_finite_inputs
import Idealize.ShloMosaic.Lib.ReduceAll
import Idealize.ShloMosaic.Lib.StableHlo.Predicate
import Idealize.ShloMosaic.Lib.ValueIdx
import Idealize.ShloMosaic.PureOps.Ideal

namespace Cert.PreFacts

open Idealize.ShloMosaic

/-- The result of a reduction over all axes has exactly one position. -/
instance subsingleton_scalar_idx : Subsingleton Cert.Pre_finite_inputs.S_.Idx :=
  ⟨fun a b => funext fun d => d.elim0⟩

/-- The single-precision pattern 0x7F800000 denotes the top element of the extended reals. -/
theorem ofBits_inf : Ideal.ofBits .f32 0x7F800000#32 = (⊤ : EReal) := by
  simp [Ideal.ofBits, Ideal.ieee]

/-- One element of |v| < +inf: max v (-v) strictly below the top element means v is neither infinity. -/
theorem finite_of_abs_lt (v : Ideal .f32)
    (h : FloatOps.cmpf .olt (FloatOps.hostAbsf v) (FloatOps.ofBits (F := Ideal) .f32 0x7F800000#32) = 1#1) :
    v ≠ ⊤ ∧ v ≠ ⊥ := by
  change Ideal.cmp .olt (max v (-v)) (Ideal.ofBits .f32 0x7F800000#32) = 1#1 at h
  rw [ofBits_inf] at h
  simp only [Ideal.cmp, StableHlo.Predicate.ofBool_eq_one_iff, decide_eq_true_eq] at h
  obtain ⟨h1, h2⟩ := max_lt_iff.1 h
  refine ⟨ne_of_lt h1, ?_⟩
  intro hv
  rw [hv, EReal.neg_bot] at h2
  exact lt_irrefl _ h2

/-- all(|a| < +inf) for an array of any shape: an and-reduction to a scalar that is 1 makes every entry finite. -/
theorem finite_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (init : IVec Cert.Pre_finite_inputs.S_ 1) (j : Cert.Pre_finite_inputs.S_.Idx)
    (e : Host.reduce IntOp.andi
        (cmpf .olt (Host.absf a) (broadcastInDim s ![] hb (constant (F := Ideal) Cert.Pre_finite_inputs.S_ .f32 0x7F800000#32)))
        init hr hu j = 1#1) :
    ∀ y, a y ≠ ⊤ ∧ a y ≠ ⊥ :=
  fun y => finite_of_abs_lt (a y) (Host.reduce_andi_all _ init hr hu j e y)

/-- One element of (w >= 0) and (w < 10000) over signed 32-bit words. -/
theorem range_of_cmp (w : BitVec 32)
    (h : IntOp.andi (IntOp.cmpi .sge w 0#32) (IntOp.cmpi .slt w 10000#32) = 1#1) :
    0 ≤ w.toInt ∧ w.toInt < 10000 := by
  obtain ⟨h1, h2⟩ := IntOp.andi_eq_one.1 h
  simp only [IntOp.cmpi, StableHlo.Predicate.ofBool_eq_one_iff, BitVec.sle, BitVec.slt, decide_eq_true_eq] at h1 h2
  have e0 : (0#32 : BitVec 32).toInt = 0 := by decide
  have e1 : (10000#32 : BitVec 32).toInt = 10000 := by decide
  rw [e0] at h1
  rw [e1] at h2
  exact ⟨h1, h2⟩

/-- The precondition decoded: the five real arrays hold no infinity, the integer array holds values in [0, 10000). -/
theorem decode [Cert.Pre_finite_inputs.Facts]
    (a0 : FVec Ideal Cert.Pre_finite_inputs.S10000x128 .f32) (a1 : IVec Cert.Pre_finite_inputs.S2x640000 32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S128 .f32)
    (h : Cert.Pre_finite_inputs.fn (F := Ideal) a0 a1 a2 a3 a4 a5 = fun _ => 1#1) :
    (∀ y, a0 y ≠ ⊤ ∧ a0 y ≠ ⊥) ∧ (∀ y, a2 y ≠ ⊤ ∧ a2 y ≠ ⊥) ∧ (∀ y, a3 y ≠ ⊤ ∧ a3 y ≠ ⊥) ∧ (∀ y, a4 y ≠ ⊤ ∧ a4 y ≠ ⊥) ∧ (∀ y, a5 y ≠ ⊤ ∧ a5 y ≠ ⊥)
      ∧ (∀ y, 0 ≤ (a1 y).toInt ∧ (a1 y).toInt < 10000) := by
  have h0 := congrFun h ValueIdx.ix0
  dsimp only [Cert.Pre_finite_inputs.fn, Cert.Pre_finite_inputs.fn_part1] at h0
  obtain ⟨h0, hI⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  refine ⟨finite_of_all _ _ _ a0 _ _ h0, finite_of_all _ _ _ a2 _ _ h2, finite_of_all _ _ _ a3 _ _ h3,
    finite_of_all _ _ _ a4 _ _ h4, finite_of_all _ _ _ a5 _ _ h5, fun y => ?_⟩
  exact range_of_cmp (a1 y) (Host.reduce_andi_all _ _ _ _ _ hI y)

end Cert.PreFacts
-- ==== Proof.lean ====
/-
  The certificate.  Two programs compute a two-layer graph convolution on 10000 nodes with 640000 edges (and a self
  loop at every node): the kernel program scatters the edge weights into a dense 10240 × 10240 adjacency matrix and
  multiplies it, tile by tile on the matrix unit, with the projected features; the reference gathers each edge's source
  row, scales it and sums it into the target node.  Over the extended reals, for finite inputs and edge endpoints that
  are nodes, the two agree: distributing the dense product over the scattered sum and exchanging the sums turns one into
  the other (Proof/SpecLaws.lean `layer_bridge`), layer by layer.
  The frames: each program runs to its end from any memory satisfying the precondition, faulting nowhere, its arguments
  unchanged (the kernel programs by the run over their two regions, Proof/KMain.lean and Proof/KIMain.lean; the reference
  by its host run).  The idealization's ledger: a round trip through bfloat16 is the identity over the extended reals.
-/
import proofs.«417435_j16149077033111_3_alg».proof.Defs
import proofs.«417435_j16149077033111_3_alg».proof.Proof.Gen.Kernel
import proofs.«417435_j16149077033111_3_alg».proof.Proof.Gen.KernelIdeal
import proofs.«417435_j16149077033111_3_alg».proof.Proof.Gen.ReferenceIdeal
import proofs.«417435_j16149077033111_3_alg».proof.Proof.Gen.Pre_finite_inputs
import proofs.«417435_j16149077033111_3_alg».proof.Proof.KOuts
import proofs.«417435_j16149077033111_3_alg».proof.Proof.KIOuts
import proofs.«417435_j16149077033111_3_alg».proof.Proof.KIResult
import proofs.«417435_j16149077033111_3_alg».proof.Proof.PreFacts
import proofs.«417435_j16149077033111_3_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_k : @Cert.frame_Kernel Cert.Kernel.Gen.facts Cert.Pre_finite_inputs.Gen.facts := fun m ρ _ =>
  Cert.Kernel.Fr.frame_all m ρ (Cert.Kernel.Fr.outsB m) (Cert.Kernel.Fr.fits m)

/-- So does the idealized kernel program. -/
theorem frame_ki : @Cert.frame_KernelIdeal Cert.KernelIdeal.Gen.facts Cert.Pre_finite_inputs.Gen.facts := fun m ρ _ =>
  Cert.KernelIdeal.Fr.frame_all m ρ (Cert.KernelIdeal.Fr.outsB m) (Cert.KernelIdeal.Fr.fits m)

/-- The reference is host operations only: its run, the results dropped. -/
theorem frame_r : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.ValueP.run (F := Ideal) m ρ)

/-- The ledger: each rewrite drops a round trip through bfloat16, the identity over the extended reals. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

section Results

open Cert.KernelIdeal Cert.KernelIdeal.Gen Cert.KernelIdeal.Fr Idealize.ShloMosaic.ValueIdx

variable (m : (ℓ : Loc nD τ sig) → Buf (Elt Ideal) ℓ) (c : Dev nD)

/-- Under the precondition the kernel program's two result buffers end at the reference's stages of the arguments:
    index by index (Proof/KIResult.lean), hence as arrays. -/
theorem kernel_results (h : @Cert.Pre_KernelIdeal Cert.Pre_finite_inputs.Gen.facts m) :
    (V9 m (outsB m) c main_v62 : S10000x128.Idx → EReal)
        = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ (V9 m (outsB m) c main_v61 : S10000x128.Idx → EReal)
        = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) := by
  have hd := @Cert.PreFacts.decode Cert.Pre_finite_inputs.Gen.facts _ _ _ _ _ _ (h c)
  have hres := Cert.KIResult.results m (outsB m) c ((fits m).1 c) ((fits m).2 c)
    hd.1 hd.2.1 hd.2.2.1 hd.2.2.2.1 hd.2.2.2.2.1 hd.2.2.2.2.2
  constructor
  · funext y
    obtain ⟨i, q, rfl⟩ : ∃ (i : Fin 10000) (q : Fin 128), y = ix2 i q := ⟨y 0, y 1, eq_ix2 y⟩
    exact hres.2 i q
  · funext y
    obtain ⟨i, q, rfl⟩ : ∃ (i : Fin 10000) (q : Fin 128), y = ix2 i q := ⟨y 0, y 1, eq_ix2 y⟩
    exact hres.1 i q

end Results

/-- The two idealized programs, run from memories that agree on the arguments, both end, with equal results: the kernel
    program's run ends with every unscoped buffer at the last contents of its chain, where the two results are the
    reference's stages of the arguments; the reference's run ends at those stages. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.ReadP.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_, ?_, ?_, ?_⟩)
      (Cert.KernelIdeal.Fr.run_all m ρ (Cert.KernelIdeal.Fr.outsB m) (Cert.KernelIdeal.Fr.fits m))
    · exact (h c _ (Cert.KernelIdeal.Fr.mem_uc Cert.KernelIdeal.main_v62 (by decide))).trans (kernel_results m c hpre).1
    · exact (h c _ (Cert.KernelIdeal.Fr.mem_uc Cert.KernelIdeal.main_v61 (by decide))).trans (kernel_results m c hpre).2
    · exact (h c _ (Cert.KernelIdeal.Fr.mem_uc Cert.KernelIdeal.main_arg0 (by decide))).trans (Cert.KernelIdeal.Gen.V9_main_arg0 m _ c)
    · exact (h c _ (Cert.KernelIdeal.Fr.mem_uc Cert.KernelIdeal.main_arg1 (by decide))).trans (Cert.KernelIdeal.Gen.V9_main_arg1 m _ c)
    · exact (h c _ (Cert.KernelIdeal.Fr.mem_uc Cert.KernelIdeal.main_arg2 (by decide))).trans (Cert.KernelIdeal.Gen.V9_main_arg2 m _ c)
    · exact (h c _ (Cert.KernelIdeal.Fr.mem_uc Cert.KernelIdeal.main_arg3 (by decide))).trans (Cert.KernelIdeal.Gen.V9_main_arg3 m _ c)
    · exact (h c _ (Cert.KernelIdeal.Fr.mem_uc Cert.KernelIdeal.main_arg4 (by decide))).trans (Cert.KernelIdeal.Gen.V9_main_arg4 m _ c)
    · exact (h c _ (Cert.KernelIdeal.Fr.mem_uc Cert.KernelIdeal.main_arg5 (by decide))).trans (Cert.KernelIdeal.Gen.V9_main_arg5 m _ c)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v66_eq, (hagree c).1, (hagree c).2.1, (hagree c).2.2.1, (hagree c).2.2.2.1, (hagree c).2.2.2.2.1, (hagree c).2.2.2.2.2]
    · rw [Cert.ReferenceIdeal.ReadP.val_main_v49_eq, (hagree c).1, (hagree c).2.1, (hagree c).2.2.1, (hagree c).2.2.2.1]

/-- The certificate's claim. -/
theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
